-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg9 : FVec F S64 .f32) (main_arg10 : FVec F S128 .f32) (main_arg11 : FVec F S64 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg6 : FVec F S128 .f32) (main_arg7 : FVec F S128x64 .f32) (main_arg8 : FVec F S128x64 .f32) (main_arg9 : FVec F S64 .f32) (main_arg10 : FVec F S128 .f32) (main_arg11 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg7
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S128x64 .f32 := Host.absf main_arg8
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg9 main_arg10 main_arg11 main_v33

def fn {F : FTy → Type} [FloatOps F] (main_arg0 : FVec F S100000x64 .f32) (main_arg1 : FVec F S100000x64 .f32) (main_arg2 : IVec S1600000 32) (main_arg3 : IVec S1600000 32) (main_arg4 : FVec F S128x128 .f32) (main_arg5 : FVec F S128x128 .f32) (main_arg6 : FVec F S128 .f32) (main_arg7 : FVec F S128x64 .f32) (main_arg8 : FVec F S128x64 .f32) (main_arg9 : FVec F S64 .f32) (main_arg10 : FVec F S128 .f32) (main_arg11 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S100000x64 .f32 := Host.absf main_arg1
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_v13 main_v16
-- ==== Kernel.lean ====
abbrev S100000x64 : Shape := ⟨2, ![100000, 64]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x64 : Shape := ⟨2, ![1600000, 64]⟩
abbrev S64x128 : Shape := ⟨2, ![64, 128]⟩
abbrev S1x128 : Shape := ⟨2, ![1, 128]⟩
abbrev S2000x64 : Shape := ⟨2, ![2000, 64]⟩
abbrev S2000x128 : Shape := ⟨2, ![2000, 128]⟩
abbrev S64x64 : Shape := ⟨2, ![64, 64]⟩
abbrev S1x64 : Shape := ⟨2, ![1, 64]⟩

abbrev nBuf : Space → Nat
  | .hbm => 85
  | .vmem => 36
  | .smem => 0
  | _ => 0

abbrev bufTy : (tb : Table) → Fin (tcTables nBuf tb) → BufTy
  | .hbm, ⟨0, _⟩ => ⟨S100000x64, .f32⟩
  | .hbm, ⟨1, _⟩ => ⟨S100000x64, .f32⟩
  | .hbm, ⟨2, _⟩ => ⟨S1600000, .i32⟩
  | .hbm, ⟨3, _⟩ => ⟨S1600000, .i32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x64, .f32⟩
  | .hbm, ⟨8, _⟩ => ⟨S128x64, .f32⟩
  | .hbm, ⟨9, _⟩ => ⟨S64, .f32⟩
  | .hbm, ⟨10, _⟩ => ⟨S128, .f32⟩
  | .hbm, ⟨11, _⟩ => ⟨S64, .f32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000x64, .f32⟩
  | .hbm, ⟨34, _⟩ => ⟨S_, .f32⟩
  | .hbm, ⟨35, _⟩ => ⟨S100000x64, .f32⟩
  | .hbm, ⟨36, _⟩ => ⟨S1600000x1, .i32⟩
  | .hbm, ⟨37, _⟩ => ⟨S100000x64, .f32⟩
  | .hbm, ⟨38, _⟩ => ⟨S100000x64, .f32⟩
  | .hbm, ⟨39, _⟩ => ⟨S100000x64, .f32⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S1600000x64, .f32⟩
  | .hbm, ⟨49, _⟩ => ⟨S_, .f32⟩
  | .hbm, ⟨50, _⟩ => ⟨S100000x64, .f32⟩
  | .hbm, ⟨51, _⟩ => ⟨S1600000x1, .i32⟩
  | .hbm, ⟨52, _⟩ => ⟨S100000x64, .f32⟩
  | .hbm, ⟨53, _⟩ => ⟨S100000x64, .f32⟩
  | .hbm, ⟨54, _⟩ => ⟨S100000x64, .f32⟩
  | .hbm, ⟨55, _⟩ => ⟨S64x128, .f32⟩
  | .hbm, ⟨56, _⟩ => ⟨S64x128, .f32⟩
  | .hbm, ⟨57, _⟩ => ⟨S64x128, .f32⟩
  | .hbm, ⟨58, _⟩ => ⟨S64x128, .f32⟩
  | .hbm, ⟨59, _⟩ => ⟨S128, .f32⟩
  | .hbm, ⟨60, _⟩ => ⟨S1x128, .f32⟩
  | .hbm, ⟨61, _⟩ => ⟨S100000x64, .f32⟩
  | .hbm, ⟨62, _⟩ => ⟨S100000x64, .f32⟩
  | .hbm, ⟨63, _⟩ => ⟨S_, .i32⟩
  | .hbm, ⟨64, _⟩ => ⟨S1600000, .i32⟩
  | .hbm, ⟨65, _⟩ => ⟨S1600000, .i1⟩
  | .hbm, ⟨66, _⟩ => ⟨S_, .i32⟩
  | .hbm, ⟨67, _⟩ => ⟨S1600000, .i32⟩
  | .hbm, ⟨68, _⟩ => ⟨S1600000, .i32⟩
  | .hbm, ⟨69, _⟩ => ⟨S1600000, .i32⟩
  | .hbm, ⟨70, _⟩ => ⟨S1600000x1, .i32⟩
  | .hbm, ⟨71, _⟩ => ⟨S1600000x64, .f32⟩
  | .hbm, ⟨72, _⟩ => ⟨S_, .f32⟩
  | .hbm, ⟨73, _⟩ => ⟨S100000x64, .f32⟩
  | .hbm, ⟨74, _⟩ => ⟨S1600000x1, .i32⟩
  | .hbm, ⟨75, _⟩ => ⟨S100000x64, .f32⟩
  | .hbm, ⟨76, _⟩ => ⟨S100000x64, .f32⟩
  | .hbm, ⟨77, _⟩ => ⟨S100000x64, .f32⟩
  | .hbm, ⟨78, _⟩ => ⟨S64x64, .f32⟩
  | .hbm, ⟨79, _⟩ => ⟨S64x64, .f32⟩
  | .hbm, ⟨80, _⟩ => ⟨S64x64, .f32⟩
  | .hbm, ⟨81, _⟩ => ⟨S64x64, .f32⟩
  | .hbm, ⟨82, _⟩ => ⟨S64, .f32⟩
  | .hbm, ⟨83, _⟩ => ⟨S1x64, .f32⟩
  | .hbm, ⟨84, _⟩ => ⟨S100000x64, .f32⟩
  | .local _ .vmem, ⟨0, _⟩ => ⟨S2000x64, .f32⟩
  | .local _ .vmem, ⟨1, _⟩ => ⟨S2000x64, .f32⟩
  | .local _ .vmem, ⟨2, _⟩ => ⟨S2000x64, .f32⟩
  | .local _ .vmem, ⟨3, _⟩ => ⟨S2000x64, .f32⟩
  | .local _ .vmem, ⟨4, _⟩ => ⟨S2000x64, .f32⟩
  | .local _ .vmem, ⟨5, _⟩ => ⟨S2000x64, .f32⟩
  | .local _ .vmem, ⟨6, _⟩ => ⟨S2000x64, .f32⟩
  | .local _ .vmem, ⟨7, _⟩ => ⟨S2000x64, .f32⟩
  | .local _ .vmem, ⟨8, _⟩ => ⟨S64x128, .f32⟩
  | .local _ .vmem, ⟨9, _⟩ => ⟨S64x128, .f32⟩
  | .local _ .vmem, ⟨10, _⟩ => ⟨S64x128, .f32⟩
  | .local _ .vmem, ⟨11, _⟩ => ⟨S64x128, .f32⟩
  | .local _ .vmem, ⟨12, _⟩ => ⟨S1x128, .f32⟩
  | .local _ .vmem, ⟨13, _⟩ => ⟨S2000x64, .f32⟩
  | .local _ .vmem, ⟨14, _⟩ => ⟨S2000x64, .f32⟩
  | .local _ .vmem, ⟨15, _⟩ => ⟨S2000x64, .f32⟩
  | .local _ .vmem, ⟨16, _⟩ => ⟨S2000x64, .f32⟩
  | .local _ .vmem, ⟨17, _⟩ => ⟨S2000x64, .f32⟩
  | .local _ .vmem, ⟨18, _⟩ => ⟨S2000x64, .f32⟩
  | .local _ .vmem, ⟨19, _⟩ => ⟨S2000x64, .f32⟩
  | .local _ .vmem, ⟨20, _⟩ => ⟨S2000x64, .f32⟩
  | .local _ .vmem, ⟨21, _⟩ => ⟨S2000x64, .f32⟩
  | .local _ .vmem, ⟨22, _⟩ => ⟨S2000x64, .f32⟩
  | .local _ .vmem, ⟨23, _⟩ => ⟨S2000x64, .f32⟩
  | .local _ .vmem, ⟨24, _⟩ => ⟨S2000x64, .f32⟩
  | .local _ .vmem, ⟨25, _⟩ => ⟨S2000x64, .f32⟩
  | .local _ .vmem, ⟨26, _⟩ => ⟨S2000x64, .f32⟩
  | .local _ .vmem, ⟨27, _⟩ => ⟨S2000x64, .f32⟩
  | .local _ .vmem, ⟨28, _⟩ => ⟨S2000x64, .f32⟩
  | .local _ .vmem, ⟨29, _⟩ => ⟨S64x64, .f32⟩
  | .local _ .vmem, ⟨30, _⟩ => ⟨S64x64, .f32⟩
  | .local _ .vmem, ⟨31, _⟩ => ⟨S64x64, .f32⟩
  | .local _ .vmem, ⟨32, _⟩ => ⟨S64x64, .f32⟩
  | .local _ .vmem, ⟨33, _⟩ => ⟨S1x64, .f32⟩
  | .local _ .vmem, ⟨34, _⟩ => ⟨S2000x64, .f32⟩
  | .local _ .vmem, ⟨35, _⟩ => ⟨S2000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_v5 : Ref sig .tc := ⟨.hbm, 20, rfl⟩
abbrev main_cst_2 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_c : Ref sig .tc := ⟨.hbm, 25, rfl⟩
abbrev main_v9 : Ref sig .tc := ⟨.hbm, 26, rfl⟩
abbrev main_v10 : Ref sig .tc := ⟨.hbm, 27, rfl⟩
abbrev main_c_3 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_4 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_c_5 : Ref sig .tc := ⟨.hbm, 40, rfl⟩
abbrev main_v21 : Ref sig .tc := ⟨.hbm, 41, rfl⟩
abbrev main_v22 : Ref sig .tc := ⟨.hbm, 42, rfl⟩
abbrev main_c_6 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_7 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39_0 : Ref sig .tc := ⟨.hbm, 61, rfl⟩
abbrev main_v39_1 : Ref sig .tc := ⟨.hbm, 62, rfl⟩
abbrev main_c_8 : Ref sig .tc := ⟨.hbm, 63, rfl⟩
abbrev main_v40 : Ref sig .tc := ⟨.hbm, 64, rfl⟩
abbrev main_v41 : Ref sig .tc := ⟨.hbm, 65, rfl⟩
abbrev main_c_9 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_10 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc1_stg0_0 : Ref sig .tc := ⟨.vmem, 17, rfl⟩
abbrev cc1_stg0_1 : Ref sig .tc := ⟨.vmem, 18, rfl⟩
abbrev cc1_stg1_0 : Ref sig .tc := ⟨.vmem, 19, rfl⟩
abbrev cc1_stg1_1 : Ref sig .tc := ⟨.vmem, 20, rfl⟩
abbrev cc1_stg2_0 : Ref sig .tc := ⟨.vmem, 21, rfl⟩
abbrev cc1_stg2_1 : Ref sig .tc := ⟨.vmem, 22, rfl⟩
abbrev cc1_stg3_0 : Ref sig .tc := ⟨.vmem, 23, rfl⟩
abbrev cc1_stg3_1 : Ref sig .tc := ⟨.vmem, 24, rfl⟩
abbrev cc1_stg4_0 : Ref sig .tc := ⟨.vmem, 25, rfl⟩
abbrev cc1_stg4_1 : Ref sig .tc := ⟨.vmem, 26, rfl⟩
abbrev cc1_stg5_0 : Ref sig .tc := ⟨.vmem, 27, rfl⟩
abbrev cc1_stg5_1 : Ref sig .tc := ⟨.vmem, 28, rfl⟩
abbrev cc1_stg6_0 : Ref sig .tc := ⟨.vmem, 29, rfl⟩
abbrev cc1_stg7_0 : Ref sig .tc := ⟨.vmem, 30, rfl⟩
abbrev cc1_stg8_0 : Ref sig .tc := ⟨.vmem, 31, rfl⟩
abbrev cc1_stg9_0 : Ref sig .tc := ⟨.vmem, 32, rfl⟩
abbrev cc1_stg10_0 : Ref sig .tc := ⟨.vmem, 33, rfl⟩
abbrev cc1_stg11_0 : Ref sig .tc := ⟨.vmem, 34, rfl⟩
abbrev cc1_stg11_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc1_sem0_0 : DmaSem sig := 17
abbrev cc1_sem0_1 : DmaSem sig := 18
abbrev cc1_sem1_0 : DmaSem sig := 19
abbrev cc1_sem1_1 : DmaSem sig := 20
abbrev cc1_sem2_0 : DmaSem sig := 21
abbrev cc1_sem2_1 : DmaSem sig := 22
abbrev cc1_sem3_0 : DmaSem sig := 23
abbrev cc1_sem3_1 : DmaSem sig := 24
abbrev cc1_sem4_0 : DmaSem sig := 25
abbrev cc1_sem4_1 : DmaSem sig := 26
abbrev cc1_sem5_0 : DmaSem sig := 27
abbrev cc1_sem5_1 : DmaSem sig := 28
abbrev cc1_sem6_0 : DmaSem sig := 29
abbrev cc1_sem7_0 : DmaSem sig := 30
abbrev cc1_sem8_0 : DmaSem sig := 31
abbrev cc1_sem9_0 : DmaSem sig := 32
abbrev cc1_sem10_0 : DmaSem sig := 33
abbrev cc1_sem11_0 : DmaSem sig := 34
abbrev cc1_sem11_1 : DmaSem sig := 35

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2000x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2000x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S2000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S64x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S64x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S64x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S64x64 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x64 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 2 → Memref sig .tc .vmem S2000x64 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  slices_S128x128_S64x128_0_0 : S128x128.Slices ![0, 0] S64x128
  slices_S128x128_S64x128_64_0 : S128x128.Slices ![64, 0] S64x128
  shapeCasts_S128_S1x128 : S128.ShapeCasts S1x128
  inb_S2000x64_S2000x64_0_0 : ∀ a, (![0, 0] : Fin 2 → Nat) a + S2000x64.size a ≤ S2000x64.size a
  h_S2000x64 : 0 < S2000x64.numel
  bitsLt_bf16_f32 : FTy.bits .bf16 < FTy.bits .f32
  shapeCasts_S2000x64_S2000x64 : S2000x64.ShapeCasts S2000x64
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  slices_S2000x128_o0_0_S2000x64 : S2000x128.Slices ![0, 0] S2000x64
  slices_S2000x128_o0_64_S2000x64 : S2000x128.Slices ![0, 64] S2000x64
  slices_S128x64_S64x64_0_0 : S128x64.Slices ![0, 0] S64x64
  slices_S128x64_S64x64_64_0 : S128x64.Slices ![64, 0] S64x64
  shapeCasts_S64_S1x64 : S64.ShapeCasts S1x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S2000x64_S64x128_S2000x128_1_0_0_1_n_n_wf : DotDims.WF S2000x64 S64x128 S2000x128 [1] [0] [0] [1] [] []
  dot_S2000x64_S64x64_S2000x64_1_0_0_1_n_n_wf : DotDims.WF S2000x64 S64x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S100000x64.size a
  hwx0_0 : ∀ i : grid0.Coords, EltTy.bits .f32 = 32 ∨ (Rect.block (s := S100000x64) S2000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x64.size a ≤ S100000x64.size a
  hwx0_1 : ∀ i : grid0.Coords, EltTy.bits .f32 = 32 ∨ (Rect.block (s := S100000x64) S2000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S100000x64.size a
  hwx0_2 : ∀ i : grid0.Coords, EltTy.bits .f32 = 32 ∨ (Rect.block (s := S100000x64) S2000x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x64.size a ≤ S100000x64.size a
  hwx0_3 : ∀ i : grid0.Coords, EltTy.bits .f32 = 32 ∨ (Rect.block (s := S100000x64) S2000x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x128.size a ≤ S64x128.size a
  hwx0_4 : ∀ i : grid0.Coords, EltTy.bits .f32 = 32 ∨ (Rect.block (s := S64x128) S64x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x128.size a ≤ S64x128.size a
  hwx0_5 : ∀ i : grid0.Coords, EltTy.bits .f32 = 32 ∨ (Rect.block (s := S64x128) S64x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x128.size a ≤ S64x128.size a
  hwx0_6 : ∀ i : grid0.Coords, EltTy.bits .f32 = 32 ∨ (Rect.block (s := S64x128) S64x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x128.size a ≤ S64x128.size a
  hwx0_7 : ∀ i : grid0.Coords, EltTy.bits .f32 = 32 ∨ (Rect.block (s := S64x128) S64x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2000x64.size a ≤ S100000x64.size a
  hwx0_9 : ∀ i : grid0.Coords, EltTy.bits .f32 = 32 ∨ (Rect.block (s := S100000x64) S2000x64.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S2000x64.size a ≤ S100000x64.size a
  hwx0_10 : ∀ i : grid0.Coords, EltTy.bits .f32 = 32 ∨ (Rect.block (s := S100000x64) S2000x64.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S100000x64.size a
  hwx1_0 : ∀ i : grid1.Coords, EltTy.bits .f32 = 32 ∨ (Rect.block (s := S100000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x64.size a ≤ S100000x64.size a
  hwx1_1 : ∀ i : grid1.Coords, EltTy.bits .f32 = 32 ∨ (Rect.block (s := S100000x64) S2000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x64.size a ≤ S100000x64.size a
  hwx1_2 : ∀ i : grid1.Coords, EltTy.bits .f32 = 32 ∨ (Rect.block (s := S100000x64) S2000x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x64.size a ≤ S100000x64.size a
  hwx1_3 : ∀ i : grid1.Coords, EltTy.bits .f32 = 32 ∨ (Rect.block (s := S100000x64) S2000x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x64.size a ≤ S100000x64.size a
  hwx1_4 : ∀ i : grid1.Coords, EltTy.bits .f32 = 32 ∨ (Rect.block (s := S100000x64) S2000x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x64.size a ≤ S100000x64.size a
  hwx1_5 : ∀ i : grid1.Coords, EltTy.bits .f32 = 32 ∨ (Rect.block (s := S100000x64) S2000x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64x64.size a ≤ S64x64.size a
  hwx1_6 : ∀ i : grid1.Coords, EltTy.bits .f32 = 32 ∨ (Rect.block (s := S64x64) S64x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S64x64.size a ≤ S64x64.size a
  hwx1_7 : ∀ i : grid1.Coords, EltTy.bits .f32 = 32 ∨ (Rect.block (s := S64x64) S64x64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S64x64.size a ≤ S64x64.size a
  hwx1_8 : ∀ i : grid1.Coords, EltTy.bits .f32 = 32 ∨ (Rect.block (s := S64x64) S64x64.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S64x64.size a ≤ S64x64.size a
  hwx1_9 : ∀ i : grid1.Coords, EltTy.bits .f32 = 32 ∨ (Rect.block (s := S64x64) S64x64.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x64.size a ≤ S1x64.size a
  hwx1_10 : ∀ i : grid1.Coords, EltTy.bits .f32 = 32 ∨ (Rect.block (s := S1x64) S1x64.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S2000x64.size a ≤ S100000x64.size a
  hwx1_11 : ∀ i : grid1.Coords, EltTy.bits .f32 = 32 ∨ (Rect.block (s := S100000x64) S2000x64.size (cc1_transform_11 i) (hinb1_11 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S2000x64_S64x128_S2000x128_1_0_0_1_n_n : DotDims S2000x64 S64x128 S2000x128 where
  lhsContracting := [1]
  rhsContracting := [0]
  lhsNonContracting := [0]
  rhsNonContracting := [1]
  lhsBatch := []
  rhsBatch := []
  wf := dot_S2000x64_S64x128_S2000x128_1_0_0_1_n_n_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf

abbrev win0_0 : Pipeline.Window sig grid0 :=
  Pipeline.Window.ofSpec (Memref.whole main_arg0) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S2000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v32) S2000x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v33) S64x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v34) S64x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v35) S64x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v36) S64x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v38) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v39_0) S2000x64.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v39_1) S2000x64.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_arg0) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v39_1) S2000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v20) S2000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v51) S2000x64.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v39_0) S2000x64.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_arg1) S2000x64.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v52) S64x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v53) S64x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v54) S64x64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v55) S64x64.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v57) S1x64.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v58) S2000x64.size cc1_transform_11 reads1_11 true false 2 stage1_11 sem1_11
    hrank1 hreads1_11 hinb1_11 nbuf1_11 (Memref.isWhole_whole _) hwx1_11 hstage1_11

abbrev win1 : Fin 12 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | ⟨_ + 12, h⟩ => absurd h (Nat.not_lt.2 (Nat.le_add_left _ _))
abbrev spec1 : Fin 12 → Pipeline.WinSpec sig grid1.rank := fun w => (win1 w).toWinSpec

class Facts : Prop extends Facts₀ where

variable [Facts]
-- ==== ReferenceIdeal.lean ====
abbrev S100000x64 : Shape := ⟨2, ![100000, 64]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000x128 : Shape := ⟨2, ![100000, 128]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S1x64 : Shape := ⟨2, ![1, 64]⟩

abbrev nBuf : Space → Nat
  | .hbm => 100
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S100000x64, .f32⟩
  | .hbm, ⟨2, _⟩ => ⟨S1600000, .i32⟩
  | .hbm, ⟨3, _⟩ => ⟨S1600000, .i32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x64, .f32⟩
  | .hbm, ⟨8, _⟩ => ⟨S128x64, .f32⟩
  | .hbm, ⟨9, _⟩ => ⟨S64, .f32⟩
  | .hbm, ⟨10, _⟩ => ⟨S128, .f32⟩
  | .hbm, ⟨11, _⟩ => ⟨S64, .f32⟩
  | .hbm, ⟨12, _⟩ => ⟨S100000x128, .f32⟩
  | .hbm, ⟨13, _⟩ => ⟨S100000x128, .f32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x128, .f32⟩
  | .hbm, ⟨23, _⟩ => ⟨S_, .f32⟩
  | .hbm, ⟨24, _⟩ => ⟨S100000x128, .f32⟩
  | .hbm, ⟨25, _⟩ => ⟨S1600000x1, .i32⟩
  | .hbm, ⟨26, _⟩ => ⟨S100000x128, .f32⟩
  | .hbm, ⟨27, _⟩ => ⟨S_, .f32⟩
  | .hbm, ⟨28, _⟩ => ⟨S1600000, .f32⟩
  | .hbm, ⟨29, _⟩ => ⟨S_, .f32⟩
  | .hbm, ⟨30, _⟩ => ⟨S100000, .f32⟩
  | .hbm, ⟨31, _⟩ => ⟨S1600000x1, .i32⟩
  | .hbm, ⟨32, _⟩ => ⟨S100000, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S100000x1, .f32⟩
  | .hbm, ⟨37, _⟩ => ⟨S100000x128, .f32⟩
  | .hbm, ⟨38, _⟩ => ⟨S100000x128, .f32⟩
  | .hbm, ⟨39, _⟩ => ⟨S100000x128, .f32⟩
  | .hbm, ⟨40, _⟩ => ⟨S100000x128, .f32⟩
  | .hbm, ⟨41, _⟩ => ⟨S1x128, .f32⟩
  | .hbm, ⟨42, _⟩ => ⟨S100000x128, .f32⟩
  | .hbm, ⟨43, _⟩ => ⟨S100000x128, .f32⟩
  | .hbm, ⟨44, _⟩ => ⟨S1x128, .f32⟩
  | .hbm, ⟨45, _⟩ => ⟨S100000x128, .f32⟩
  | .hbm, ⟨46, _⟩ => ⟨S100000x128, .f32⟩
  | .hbm, ⟨47, _⟩ => ⟨S100000x128, .f32⟩
  | .hbm, ⟨48, _⟩ => ⟨S100000x128, .f32⟩
  | .hbm, ⟨49, _⟩ => ⟨S_, .f32⟩
  | .hbm, ⟨50, _⟩ => ⟨S100000x128, .f32⟩
  | .hbm, ⟨51, _⟩ => ⟨S100000x128, .f32⟩
  | .hbm, ⟨52, _⟩ => ⟨S_, .f32⟩
  | .hbm, ⟨53, _⟩ => ⟨S100000x128, .f32⟩
  | .hbm, ⟨54, _⟩ => ⟨S100000x128, .f32⟩
  | .hbm, ⟨55, _⟩ => ⟨S100000x64, .f32⟩
  | .hbm, ⟨56, _⟩ => ⟨S100000x64, .f32⟩
  | .hbm, ⟨57, _⟩ => ⟨S100000x64, .f32⟩
  | .hbm, ⟨58, _⟩ => ⟨S100000x128, .f32⟩
  | .hbm, ⟨59, _⟩ => ⟨S100000x64, .f32⟩
  | .hbm, ⟨60, _⟩ => ⟨S_, .i32⟩
  | .hbm, ⟨61, _⟩ => ⟨S1600000, .i32⟩
  | .hbm, ⟨62, _⟩ => ⟨S1600000, .i1⟩
  | .hbm, ⟨63, _⟩ => ⟨S_, .i32⟩
  | .hbm, ⟨64, _⟩ => ⟨S1600000, .i32⟩
  | .hbm, ⟨65, _⟩ => ⟨S1600000, .i32⟩
  | .hbm, ⟨66, _⟩ => ⟨S1600000, .i32⟩
  | .hbm, ⟨67, _⟩ => ⟨S1600000x1, .i32⟩
  | .hbm, ⟨68, _⟩ => ⟨S1600000x128, .f32⟩
  | .hbm, ⟨69, _⟩ => ⟨S_, .f32⟩
  | .hbm, ⟨70, _⟩ => ⟨S100000x128, .f32⟩
  | .hbm, ⟨71, _⟩ => ⟨S1600000x1, .i32⟩
  | .hbm, ⟨72, _⟩ => ⟨S100000x128, .f32⟩
  | .hbm, ⟨73, _⟩ => ⟨S_, .f32⟩
  | .hbm, ⟨74, _⟩ => ⟨S1600000, .f32⟩
  | .hbm, ⟨75, _⟩ => ⟨S_, .f32⟩
  | .hbm, ⟨76, _⟩ => ⟨S100000, .f32⟩
  | .hbm, ⟨77, _⟩ => ⟨S1600000x1, .i32⟩
  | .hbm, ⟨78, _⟩ => ⟨S100000, .f32⟩
  | .hbm, ⟨79, _⟩ => ⟨S_, .f32⟩
  | .hbm, ⟨80, _⟩ => ⟨S100000, .f32⟩
  | .hbm, ⟨81, _⟩ => ⟨S100000, .f32⟩
  | .hbm, ⟨82, _⟩ => ⟨S100000x1, .f32⟩
  | .hbm, ⟨83, _⟩ => ⟨S100000x128, .f32⟩
  | .hbm, ⟨84, _⟩ => ⟨S100000x128, .f32⟩
  | .hbm, ⟨85, _⟩ => ⟨S100000x64, .f32⟩
  | .hbm, ⟨86, _⟩ => ⟨S100000x64, .f32⟩
  | .hbm, ⟨87, _⟩ => ⟨S1x64, .f32⟩
  | .hbm, ⟨88, _⟩ => ⟨S100000x64, .f32⟩
  | .hbm, ⟨89, _⟩ => ⟨S100000x64, .f32⟩
  | .hbm, ⟨90, _⟩ => ⟨S1x64, .f32⟩
  | .hbm, ⟨91, _⟩ => ⟨S100000x64, .f32⟩
  | .hbm, ⟨92, _⟩ => ⟨S100000x64, .f32⟩
  | .hbm, ⟨93, _⟩ => ⟨S100000x64, .f32⟩
  | .hbm, ⟨94, _⟩ => ⟨S100000x64, .f32⟩
  | .hbm, ⟨95, _⟩ => ⟨S_, .f32⟩
  | .hbm, ⟨96, _⟩ => ⟨S100000x64, .f32⟩
  | .hbm, ⟨97, _⟩ => ⟨S100000x64, .f32⟩
  | .hbm, ⟨98, _⟩ => ⟨S100000x64, .f32⟩
  | .hbm, ⟨99, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_c : Ref sig .tc := ⟨.hbm, 14, rfl⟩
abbrev main_v2 : Ref sig .tc := ⟨.hbm, 15, rfl⟩
abbrev main_v3 : Ref sig .tc := ⟨.hbm, 16, rfl⟩
abbrev main_c_0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_1 : Ref sig .tc := ⟨.hbm, 27, rfl⟩
abbrev main_v12 : Ref sig .tc := ⟨.hbm, 28, rfl⟩
abbrev main_cst_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst_3 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_4 : Ref sig .tc := ⟨.hbm, 49, rfl⟩
abbrev main_v31 : Ref sig .tc := ⟨.hbm, 50, rfl⟩
abbrev main_v32 : Ref sig .tc := ⟨.hbm, 51, rfl⟩
abbrev main_cst_5 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_c_6 : Ref sig .tc := ⟨.hbm, 60, rfl⟩
abbrev main_v40 : Ref sig .tc := ⟨.hbm, 61, rfl⟩
abbrev main_v41 : Ref sig .tc := ⟨.hbm, 62, rfl⟩
abbrev main_c_7 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_8 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_9 : Ref sig .tc := ⟨.hbm, 73, rfl⟩
abbrev main_v50 : Ref sig .tc := ⟨.hbm, 74, rfl⟩
abbrev main_cst_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_cst_11 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_cst_12 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩

abbrev nD : Nat := 1
abbrev τ : Topo := Topo.v7x

variable {F : FTy → Type} [FloatOps F]

class Facts₀ : Prop where
  concatenates_S100000x64_S100000x64_S100000x128_d1 : Shape.Concatenates [S100000x64, S100000x64] S100000x128 1
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S100000x128_S100000x64_0_0 : S100000x128.Slices ![0, 0] S100000x64
  slices_S100000x128_S100000x64_0_64 : S100000x128.Slices ![0, 64] S100000x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x64_S100000x64_1_0_0_1_n_n_wf : DotDims.WF S100000x128 S128x64 S100000x64 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.Spec.lean ====
/-
  The graph-convolutional GRU cell, row by row, on the extended reals.

  Node n has an input row and a state row of 64 entries each. Every edge e carries a source row number (read signed and
  clamped into the table) and a destination number; the neighbour sum of an array X at node n is the zero word plus the
  exact sum of X's rows at the sources of the edges whose destination is n, and the aggregate is that sum times the
  reciprocal 1 / d n of the clamped in-degree d n.
  The gate is the logistic function of a dense layer whose 128 input features are [input, state] and, for the
  neighbour part, [aggregated input, aggregated state]: written as four products with the 64-row halves of the two
  weight matrices plus the two bias vectors added beforehand. Its first 64 outputs are the reset gate r, the last 64 the
  update gate u. The candidate is the hyperbolic tangent of the same layer shape over [input, r * state] and its
  aggregates; the new state is u * state + (1 - u) * candidate.

  Also here: the three laws that join this arrangement with the one that works on the concatenated 128-wide arrays — a
  sum over 128 features is the sum over the first 64 plus the sum over the last 64; a quotient by a nonzero extended
  real is the product with the reciprocal; the logistic function is 1 / (1 + e^(-x)).
-/
import Idealize.ShloMosaic.PureOps
import Idealize.ShloMosaic.PureOps.Ideal
import Idealize.ShloMosaic.Lib.ValueIdx

noncomputable section

open scoped BigOperators

namespace Cert.Gru

open Idealize.ShloMosaic Idealize.ShloMosaic.ValueIdx

/-- The table row an edge reads: its source word read signed, clamped into [0, 99999]. -/
def rowOf (sidx : IVec ⟨2, ![1600000, 1]⟩ 32) (e : Fin 1600000) : Fin 100000 :=
  ⟨min (sidx (ix2 e 0)).toInt.toNat (100000 - 1), by omega⟩

/-- The neighbour sum of X at node n, entry k: the zero word plus the sum over the edges aimed at n of X's row at the
    edge's source. -/
def nsum {C : Nat} (sidx didx : IVec ⟨2, ![1600000, 1]⟩ 32) (X : Fin 100000 → Fin C → EReal)
    (n : Fin 100000) (k : Fin C) : EReal :=
  Ideal.ofBits .f32 0x00000000#32
    + ∑ e ∈ Finset.univ.filter (fun e : Fin 1600000 => (didx (ix2 e 0)).toInt = (n.val : ℤ)), X (rowOf sidx e) k

/-- The mean aggregate: the neighbour sum times the reciprocal of the clamped degree. -/
def agg {C : Nat} (sidx didx : IVec ⟨2, ![1600000, 1]⟩ 32) (d : Fin 100000 → EReal) (X : Fin 100000 → Fin C → EReal)
    (n : Fin 100000) (k : Fin C) : EReal :=
  nsum sidx didx X n k * Ideal.div (Ideal.ofBits .f32 0x3F800000#32) (d n)

/-- Four row-by-matrix products added left to right, then the bias. -/
def lin4 {K M : Nat} (x1 x2 x3 x4 : Fin K → EReal) (W1 W2 W3 W4 : Fin K → Fin M → EReal) (b : Fin M → EReal)
    (j : Fin M) : EReal :=
  (∑ k, x1 k * W1 k j) + (∑ k, x2 k * W2 k j) + (∑ k, x3 k * W3 k j) + (∑ k, x4 k * W4 k j) + b j

/-- Rows 0 … 63 of a 128-row matrix. -/
def lo {M : Nat} (W : Fin 128 → Fin M → EReal) : Fin 64 → Fin M → EReal := fun k j => W ⟨k.val, by omega⟩ j
/-- Rows 64 … 127 of a 128-row matrix. -/
def hi {M : Nat} (W : Fin 128 → Fin M → EReal) : Fin 64 → Fin M → EReal := fun k j => W ⟨64 + k.val, by omega⟩ j

section Cell
variable (inp st : Fin 100000 → Fin 64 → EReal) (sidx didx : IVec ⟨2, ![1600000, 1]⟩ 32) (d : Fin 100000 → EReal)
  (Wgs Wgn : Fin 128 → Fin 128 → EReal) (bg gb : Fin 128 → EReal)
  (Wcs Wcn : Fin 128 → Fin 64 → EReal) (bc cb : Fin 64 → EReal)

/-- The gate layer's 128 outputs at node n. -/
def gateH (n : Fin 100000) (j : Fin 128) : EReal :=
  Ideal.logistic (lin4 (inp n) (st n) (agg sidx didx d inp n) (agg sidx didx d st n)
    (lo Wgs) (hi Wgs) (lo Wgn) (hi Wgn) (fun j => bg j + gb j) j)

/-- The reset gate: outputs 0 … 63. -/
def rGate (n : Fin 100000) (k : Fin 64) : EReal := gateH inp st sidx didx d Wgs Wgn bg gb n ⟨k.val, by omega⟩
/-- The update gate: outputs 64 … 127. -/
def uGate (n : Fin 100000) (k : Fin 64) : EReal := gateH inp st sidx didx d Wgs Wgn bg gb n ⟨64 + k.val, by omega⟩
/-- The reset state. -/
def rsArr (n : Fin 100000) (k : Fin 64) : EReal := rGate inp st sidx didx d Wgs Wgn bg gb n k * st n k

/-- The candidate at node n. -/
def cand (n : Fin 100000) (j : Fin 64) : EReal :=
  Ideal.tanh (lin4 (inp n) (rsArr inp st sidx didx d Wgs Wgn bg gb n)
    (agg sidx didx d inp n) (agg sidx didx d (rsArr inp st sidx didx d Wgs Wgn bg gb) n)
    (lo Wcs) (hi Wcs) (lo Wcn) (hi Wcn) (fun j => bc j + cb j) j)

/-- The new state at node n. -/
def out (n : Fin 100000) (j : Fin 64) : EReal :=
  uGate inp st sidx didx d Wgs Wgn bg gb n j * st n j
    + (Ideal.ofBits .f32 0x3F800000#32 - uGate inp st sidx didx d Wgs Wgn bg gb n j)
      * cand inp st sidx didx d Wgs Wgn bg gb Wcs Wcn bc cb n j

end Cell

/-! ## The laws -/

/-- The word 0x3F800000 is the number one. -/
theorem ofBits_one : Ideal.ofBits .f32 0x3F800000#32 = 1 := by
  simp [Ideal.ofBits, Ideal.ieee, -EReal.coe_mul]; norm_num

/-- A sum over 128 features splits at feature 64. -/
theorem sum_split (f : Fin 128 → EReal) :
    ∑ k, f k = (∑ k : Fin 64, f ⟨k.val, by omega⟩) + ∑ k : Fin 64, f ⟨64 + k.val, by omega⟩ := by
  have h := Fin.sum_univ_add (M := EReal) (a := 64) (b := 64) (fun i : Fin (64 + 64) => f ⟨i.val, by omega⟩)
  refine Eq.trans ?_ (h.trans ?_)
  · rfl
  · congr 1

/-- A quotient by a nonzero extended real is the product with its reciprocal. -/
theorem div_eq_mul_div_one (x y : EReal) (hy : y ≠ 0) : Ideal.div x y = x * Ideal.div 1 y := by
  unfold Ideal.div
  rw [if_neg hy, if_neg hy, one_mul]

/-- The maximum with one is not zero. -/
theorem max_one_ne_zero (a : EReal) : max a 1 ≠ 0 := by
  have h : (1 : EReal) ≤ max a 1 := le_max_right a 1
  intro e
  rw [e] at h
  exact absurd h (by norm_num)

/-- The logistic function spelt with the word for one. -/
theorem logistic_expand (x : EReal) :
    Ideal.div (Ideal.ofBits .f32 0x3F800000#32) (Ideal.ofBits .f32 0x3F800000#32 + Ideal.exp (-x)) = Ideal.logistic x := by
  rw [ofBits_one]; rfl

end Cert.Gru

end
-- ==== Proof.KArgs.lean ====
/-
  The cell's arguments as the kernel's program reads them.

  The node arrays, weight matrices and bias vectors are the program's argument buffers read at an index. The edge
  arrays enter through the two [E, 1] index columns the program builds: the destination words laid out as a column, and
  the source words with a negative word moved up by the number of nodes, laid out as a column. The clamped degree is the
  maximum with one of the count of edges aimed at a node (a scatter of ones into zeros).
-/
import proofs.«108189_j27101243638400_1_alg».proof.Proof.Gen.KernelIdeal
import proofs.«108189_j27101243638400_1_alg».proof.Proof.Spec
import Idealize.ShloMosaic.Lib.ValueIdx

noncomputable section

open Idealize.ShloMosaic Idealize.ShloMosaic.TcCoe Idealize.SL.Sem Idealize.ShloMosaic.ValueIdx

namespace Cert.Gru.K

open Cert.KernelIdeal Cert.KernelIdeal.Facts₀

variable (m : (ℓ : Loc nD τ sig) → Buf (Elt Ideal) ℓ) (c : Dev nD)

/-- The input features. -/
def inp (n : Fin 100000) (k : Fin 64) : EReal := (m ((c.tc : Thread nD τ).loc main_arg0) : S100000x64.Idx → EReal) (ix2 n k)
/-- The state. -/
def st (n : Fin 100000) (k : Fin 64) : EReal := (m ((c.tc : Thread nD τ).loc main_arg1) : S100000x64.Idx → EReal) (ix2 n k)
/-- The gate layer's self and neighbour weights and its two bias vectors. -/
def Wgs (k : Fin 128) (j : Fin 128) : EReal := (m ((c.tc : Thread nD τ).loc main_arg4) : S128x128.Idx → EReal) (ix2 k j)
def Wgn (k : Fin 128) (j : Fin 128) : EReal := (m ((c.tc : Thread nD τ).loc main_arg5) : S128x128.Idx → EReal) (ix2 k j)
def bg (j : Fin 128) : EReal := (m ((c.tc : Thread nD τ).loc main_arg6) : S128.Idx → EReal) (ix1 j)
def gb (j : Fin 128) : EReal := (m ((c.tc : Thread nD τ).loc main_arg10) : S128.Idx → EReal) (ix1 j)
/-- The candidate layer's self and neighbour weights and its two bias vectors. -/
def Wcs (k : Fin 128) (j : Fin 64) : EReal := (m ((c.tc : Thread nD τ).loc main_arg7) : S128x64.Idx → EReal) (ix2 k j)
def Wcn (k : Fin 128) (j : Fin 64) : EReal := (m ((c.tc : Thread nD τ).loc main_arg8) : S128x64.Idx → EReal) (ix2 k j)
def bc (j : Fin 64) : EReal := (m ((c.tc : Thread nD τ).loc main_arg9) : S64.Idx → EReal) (ix1 j)
def cb (j : Fin 64) : EReal := (m ((c.tc : Thread nD τ).loc main_arg11) : S64.Idx → EReal) (ix1 j)

/-- The source column: a negative source word moved up by the number of nodes, then laid out as [E, 1]. -/
def sidx : IVec S1600000x1 32 :=
  broadcastInDim S1600000x1 ![0] bcast_S1600000_S1600000x1_0
    (select (cmpi .slt (m ((c.tc : Thread nD τ).loc main_arg2)) (broadcastInDim S1600000 ![] bcast_S_S1600000 (constantI S_ 32 0#32)))
      (addi (m ((c.tc : Thread nD τ).loc main_arg2)) (broadcastInDim S1600000 ![] bcast_S_S1600000 (constantI S_ 32 100000#32)))
      (m ((c.tc : Thread nD τ).loc main_arg2)))

/-- The destination column. -/
def didx : IVec S1600000x1 32 :=
  broadcastInDim S1600000x1 ![0] bcast_S1600000_S1600000x1_0 (m ((c.tc : Thread nD τ).loc main_arg3))

/-- The in-degree as the program counts it: ones scattered onto zeros by destination. -/
def deg : S100000.Idx → EReal :=
  Host.scatterAdd (F := Ideal) scatter_S100000_S1600000x1_S1600000_n_0_0_1
    (broadcastInDim S100000 ![] bcast_S_S100000 (constant S_ .f32 0x00000000#32))
    (didx m c)
    (broadcastInDim S1600000 ![] bcast_S_S1600000 (constant S_ .f32 0x3F800000#32))

/-- The clamped degree: the maximum of the count with the word for one. -/
def dmax (n : Fin 100000) : EReal := max (deg m c (ix1 n)) (Ideal.ofBits .f32 0x3F800000#32)

/-- The new state the cell computes from these arguments. -/
def out (n : Fin 100000) (j : Fin 64) : EReal :=
  Cert.Gru.out (inp m c) (st m c) (sidx m c) (didx m c) (dmax m c) (Wgs m c) (Wgn m c) (bg m c) (gb m c)
    (Wcs m c) (Wcn m c) (bc m c) (cb m c) n j

end Cert.Gru.K

end
-- ==== Proof.LibPlainDot.lean ====
/-
  A plain matrix product read at an index, on the extended reals.

  For the dimension numbers of an M×K by K×N product (contract the left operand's axis 1 with the right operand's axis 0,
  no batch axis) the vector unit's product into a zero accumulator, and the host's `dot_general`, both hold at (p, q)
  the sum over k of L[p,k] · R[k,q]. When the right operand is a stored [N, K] matrix transposed, the entry is the
  sum over k of L[p,k] · W[q,k]. Generic in the three extents.
-/
import Idealize.ShloMosaic.PureOps.Ideal.Laws
import Idealize.ShloMosaic.Lib.ValueIdx
import Idealize.ShloMosaic.Lib.ValueLayout

noncomputable section

open scoped BigOperators

namespace Cert.PlainDot

open Idealize.ShloMosaic Idealize.ShloMosaic.ValueIdx

variable {M K N : Nat}

theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

theorem lhs1 (i : (⟨2, ![M, N]⟩ : Shape).Idx) (q : (DotDims.plain M K N).contr.Idx) :
    ((DotDims.plain M K N).lhsIdx i q 1).val = (q ⟨0, Nat.lt_of_lt_of_eq Nat.one_pos (Eq.symm (rfl : (DotDims.plain M K N).contr.rank = 1))⟩).val :=
  (DotDims.plain M K N).lhsIdx_val_of_single rfl i q

theorem rhs0 (i : (⟨2, ![M, N]⟩ : Shape).Idx) (q : (DotDims.plain M K N).contr.Idx) :
    ((DotDims.plain M K N).rhsIdx i q 0).val = (q ⟨0, Nat.lt_of_lt_of_eq Nat.one_pos (Eq.symm (rfl : (DotDims.plain M K N).contr.rank = 1))⟩).val :=
  (DotDims.plain M K N).rhsIdx_val_of_single rfl i q

theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The contraction's sum re-indexed by its one coordinate. -/
theorem sum_contr {φ₁ φ₂ : FTy} (L : FVec Ideal ⟨2, ![M, K]⟩ φ₁) (R : FVec Ideal ⟨2, ![K, N]⟩ φ₂) (p : Fin M) (q : Fin N) :
    (∑ k : (DotDims.plain M K N).contr.Idx, L ((DotDims.plain M K N).lhsIdx (ix2 p q) k) * R ((DotDims.plain M K N).rhsIdx (ix2 p q) k))
      = ∑ k : Fin K, L (ix2 p k) * R (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs0 _ _
      | ⟨1, _⟩ => exact (lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs0 _ _).trans hk
      | ⟨1, _⟩ => exact rhs1 _ _)
  rw [el, er]

/-- The vector unit's product into the zero accumulator, at (p, q). -/
theorem matmul_zero_apply {φ₁ φ₂ : FTy} (prec : Option ContractPrecision) (L : FVec Ideal ⟨2, ![M, K]⟩ φ₁)
    (R : FVec Ideal ⟨2, ![K, N]⟩ φ₂) (p : Fin M) (q : Fin N) :
    FloatOps.matmul (DotDims.plain M K N) prec L R (constant ⟨2, ![M, N]⟩ .f32 0x00000000#32) (ix2 p q)
      = ∑ k : Fin K, L (ix2 p k) * R (ix2 k q) := by
  rw [Ideal.matmul_constant_zero_apply]
  exact sum_contr L R p q

/-- The host's product, at (p, q). -/
theorem dotGeneral_apply {φ₁ φ₂ : FTy} (prec : Option ContractPrecision) (sched : HostSchedule) (L : FVec Ideal ⟨2, ![M, K]⟩ φ₁)
    (R : FVec Ideal ⟨2, ![K, N]⟩ φ₂) (p : Fin M) (q : Fin N) :
    FloatOps.dotGeneral (DotDims.plain M K N) prec sched L R (ix2 p q) = ∑ k : Fin K, L (ix2 p k) * R (ix2 k q) := by
  rw [Ideal.dotGeneral_apply]
  exact sum_contr L R p q

/-- Against a stored [N, K] matrix transposed: the sum runs over the stored matrix's second coordinate. -/
theorem matmul_zero_transposed_apply {φ₁ φ₂ : FTy} (prec : Option ContractPrecision) (L : FVec Ideal ⟨2, ![M, K]⟩ φ₁)
    (W : FVec Ideal ⟨2, ![N, K]⟩ φ₂) (h : (⟨2, ![N, K]⟩ : Shape).Transposes [1, 0] ⟨2, ![K, N]⟩) (p : Fin M) (q : Fin N) :
    FloatOps.matmul (DotDims.plain M K N) prec L (transpose ⟨2, ![K, N]⟩ [1, 0] W h) (constant ⟨2, ![M, N]⟩ .f32 0x00000000#32) (ix2 p q)
      = ∑ k : Fin K, L (ix2 p k) * W (ix2 q k) := by
  rw [matmul_zero_apply]
  refine Finset.sum_congr rfl fun k _ => ?_
  rw [transpose_ix2_apply]

theorem dotGeneral_transposed_apply {φ₁ φ₂ : FTy} (prec : Option ContractPrecision) (sched : HostSchedule) (L : FVec Ideal ⟨2, ![M, K]⟩ φ₁)
    (W : FVec Ideal ⟨2, ![N, K]⟩ φ₂) (h : (⟨2, ![N, K]⟩ : Shape).Transposes [1, 0] ⟨2, ![K, N]⟩) (p : Fin M) (q : Fin N) :
    FloatOps.dotGeneral (DotDims.plain M K N) prec sched L (transpose ⟨2, ![K, N]⟩ [1, 0] W h) (ix2 p q)
      = ∑ k : Fin K, L (ix2 p k) * W (ix2 q k) := by
  rw [dotGeneral_apply]
  refine Finset.sum_congr rfl fun k _ => ?_
  rw [transpose_ix2_apply]

end Cert.PlainDot

end
-- ==== Proof.LibRowBias.lean ====
/-
  A bias row read at an index.

  A vector [n] laid out as a one-row matrix [1, n] holds at (0, j) the vector's entry j; and a one-row matrix [1, n]
  broadcast down M rows holds at (p, j) its entry (0, j). The host's form of the two together — a vector [n] broadcast to
  [1, n] and then to [M, n] — holds at (p, j) the vector's entry j. A scalar broadcast to any shape holds the scalar
  everywhere. Generic in the extents and the element type.
-/
import Idealize.ShloMosaic.Lib.Pipeline.Value
import Idealize.ShloMosaic.Lib.ValueIdx

noncomputable section

namespace Cert.RowBias

open Idealize.ShloMosaic Idealize.ShloMosaic.ValueIdx

variable {α : Type} {M n : Nat}

/-- A one-row matrix broadcast down the rows: every row is the one row. -/
theorem rows_apply (v : (⟨2, ![1, n]⟩ : Shape).Idx → α) (hb : (⟨2, ![1, n]⟩ : Shape).Broadcasts ⟨2, ![M, n]⟩) (p : Fin M) (j : Fin n) :
    broadcastTo ⟨2, ![M, n]⟩ v hb (ix2 p j) = v (ix2 (0 : Fin 1) j) :=
  broadcastTo_apply v hb (ix2 p j) (ix2 (0 : Fin 1) j) fun a => match a with
    | ⟨0, _⟩ => by show (0 : ℕ) = if (1 : ℕ) = 1 then 0 else _; rw [if_pos rfl]
    | ⟨1, _⟩ => by
        show j.val = if n = 1 then 0 else j.val
        have := j.isLt
        split <;> omega

/-- A vector reshaped to a one-row matrix: the row is the vector. -/
theorem ofVec_apply (b : (⟨1, ![n]⟩ : Shape).Idx → α) (h : (⟨1, ![n]⟩ : Shape).ShapeCasts ⟨2, ![1, n]⟩) (j : Fin n) :
    shapeCast ⟨2, ![1, n]⟩ b h (ix2 (0 : Fin 1) j) = b (ix1 j) :=
  shapeCast_apply b h (ix2 (0 : Fin 1) j) (ix1 j) (by
    rw [Shape.rowMajor_val_one, Shape.rowMajor_val_two]
    show j.val = 0 * n + j.val
    omega)

/-- The host's bias: a vector broadcast to one row and then down the rows. -/
theorem hostRows_apply (b : (⟨1, ![n]⟩ : Shape).Idx → α) (h1 : (⟨1, ![n]⟩ : Shape).BroadcastsInDim ⟨2, ![1, n]⟩ ![1])
    (h2 : (⟨2, ![1, n]⟩ : Shape).BroadcastsInDim ⟨2, ![M, n]⟩ ![0, 1]) (p : Fin M) (j : Fin n) :
    broadcastInDim ⟨2, ![M, n]⟩ ![0, 1] h2 (broadcastInDim ⟨2, ![1, n]⟩ ![1] h1 b) (ix2 p j) = b (ix1 j) :=
  (broadcastInDim_apply ![0, 1] h2 _ (ix2 p j) (ix2 (0 : Fin 1) j) fun a => match a with
    | ⟨0, _⟩ => by show (0 : ℕ) = if (1 : ℕ) = 1 then 0 else _; rw [if_pos rfl]
    | ⟨1, _⟩ => by
        show j.val = if n = 1 then 0 else j.val
        have := j.isLt
        split <;> omega).trans
  (broadcastInDim_apply ![1] h1 b (ix2 (0 : Fin 1) j) (ix1 j) fun a => match a with
    | ⟨0, _⟩ => by
        show j.val = if n = 1 then 0 else j.val
        have := j.isLt
        split <;> omega)

/-- A scalar broadcast to a shape holds the scalar at every index. -/
theorem splat_apply {s : Shape} (x : (⟨0, ![]⟩ : Shape).Idx → α) (h : (⟨0, ![]⟩ : Shape).BroadcastsInDim s ![]) (i : s.Idx) :
    broadcastInDim s ![] h x i = x ix0 :=
  broadcastInDim_apply ![] h x i ix0 fun a => a.elim0

end Cert.RowBias

end
-- ==== Proof.Region0.lean ====
/-
  The gate region's two result arrays, read at an index.

  Grid point t of the first kernel call holds rows 2000 t … 2000 t + 1999 of the four node arrays, the four 64 x 128 weight
  halves whole and the bias row whole; it writes the last 64 columns of the logistic of the dense layer into the first
  result (the update gate) and the first 64 columns times the state block into the second (the reset state). The 50 blocks
  tile the 100000 rows, so after the run result row n is that function of row n of the region-entry arrays.
-/
import proofs.«108189_j27101243638400_1_alg».proof.Proof.Gen.KernelIdeal.Frame
import proofs.«108189_j27101243638400_1_alg».proof.Proof.Spec
import proofs.«108189_j27101243638400_1_alg».proof.Proof.LibPlainDot
import proofs.«108189_j27101243638400_1_alg».proof.Proof.LibRowBias
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.Gru.Region0

open Cert.KernelIdeal Cert.KernelIdeal.Gen

/-! ## The body's values at an index -/

/-- The printed dimension numbers are the plain 2000 x 64 by 64 x 128 product's. -/
theorem dot_plain : dot_S2000x64_S64x128_S2000x128_1_0_0_1_n_n = DotDims.plain 2000 64 128 := rfl

/-- The dense layer's logistic at row p of the block, output j. -/
theorem pay2_apply (x0 x1 x2 x3 : Vec Ideal S2000x64 .f32) (x4 x5 x6 x7 : Vec Ideal S64x128 .f32) (x8 : Vec Ideal S1x128 .f32)
    (p : Fin 2000) (j : Fin 128) :
    k0_pay2 (F := Ideal) x0 x1 x2 x3 x4 x5 x6 x7 x8 (ix2 p j)
      = Ideal.logistic (Cert.Gru.lin4 (fun a => x0 (ix2 p a)) (fun a => x1 (ix2 p a)) (fun a => x2 (ix2 p a)) (fun a => x3 (ix2 p a))
          (fun a j => x4 (ix2 a j)) (fun a j => x5 (ix2 a j)) (fun a j => x6 (ix2 a j)) (fun a j => x7 (ix2 a j))
          (fun j => x8 (ix2 (0 : Fin 1) j)) j) := by
  unfold k0_pay2 Cert.Gru.lin4
  simp only [shapeCast_self, dot_plain, matmul]
  show Ideal.logistic (_ + _ + _ + _ + _) = _
  rw [Cert.PlainDot.matmul_zero_apply, Cert.PlainDot.matmul_zero_apply, Cert.PlainDot.matmul_zero_apply, Cert.PlainDot.matmul_zero_apply,
    Cert.RowBias.rows_apply]
  rfl

/-- The first column slice: outputs 0 … 63. -/
theorem pay3_apply (x0 x1 x2 x3 : Vec Ideal S2000x64 .f32) (x4 x5 x6 x7 : Vec Ideal S64x128 .f32) (x8 : Vec Ideal S1x128 .f32)
    (p : Fin 2000) (k : Fin 64) :
    k0_pay3 (F := Ideal) x0 x1 x2 x3 x4 x5 x6 x7 x8 (ix2 p k)
      = k0_pay2 (F := Ideal) x0 x1 x2 x3 x4 x5 x6 x7 x8 (ix2 p (⟨k.val, by omega⟩ : Fin 128)) := by
  unfold k0_pay3
  exact extractStridedSlice_apply _ _ _ (ix2 p k) (ix2 p (⟨k.val, by omega⟩ : Fin 128)) fun a => by
    match a with
    | ⟨0, _⟩ => show p.val = 0 + p.val; omega
    | ⟨1, _⟩ => show k.val = 0 + k.val; omega

/-- The second column slice: outputs 64 … 127. -/
theorem pay4_apply (x0 x1 x2 x3 : Vec Ideal S2000x64 .f32) (x4 x5 x6 x7 : Vec Ideal S64x128 .f32) (x8 : Vec Ideal S1x128 .f32)
    (p : Fin 2000) (k : Fin 64) :
    k0_pay4 (F := Ideal) x0 x1 x2 x3 x4 x5 x6 x7 x8 (ix2 p k)
      = k0_pay2 (F := Ideal) x0 x1 x2 x3 x4 x5 x6 x7 x8 (ix2 p (⟨64 + k.val, by omega⟩ : Fin 128)) := by
  unfold k0_pay4
  exact extractStridedSlice_apply _ _ _ (ix2 p k) (ix2 p (⟨64 + k.val, by omega⟩ : Fin 128)) fun a => by
    match a with
    | ⟨0, _⟩ => show p.val = 0 + p.val; omega
    | ⟨1, _⟩ => show 64 + k.val = 64 + k.val; rfl

/-- The reset state's product, entry by entry. -/
theorem pay1_apply (v34 : FVec Ideal S2000x64 .f32) (v37 : Vec Ideal S2000x64 .f32) (p : Fin 2000) (k : Fin 64) :
    k0_pay1 (F := Ideal) v34 v37 (ix2 p k) = v34 (ix2 p k) * v37 (ix2 p k) := rfl

/-! ## The blocks as rows of the arrays -/

variable (V : (c : Dev nD) → (b : Ref sig .tc) → Buf (Elt Ideal) ((c : Thread nD τ).loc b))

/-- The zero offsets of a whole-block access, as a constant function. -/
theorem zero_offsets : (![0, 0] : Fin 2 → Nat) = fun _ => 0 := funext fun a => by fin_cases a <;> rfl

/-- The printed index maps over the grid: a row window's block index is (t, 0), a whole-array window's is (0, 0). -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = t.val ∧ win0_9.index t (1 : Fin 2) = 0)
    ∧ (win0_10.index t (0 : Fin 2) = t.val ∧ win0_10.index t (1 : Fin 2) = 0) :=
  (by decide +kernel : ∀ t : Fin grid0.N, _)

/-- Row p of row window 0's block at point t is row 2000 t + p of its array. -/
theorem iblk_row0 (c : Dev nD) (t : Fin cfg0.N) (p : Fin 2000) (a : Fin 64) (n : Fin 100000) (hn : n.val = t.val * 2000 + p.val) :
    (iblk0 V c 0 t : Vec Ideal S2000x64 .f32) (ix2 p a) = (V c main_arg0 : S100000x64.Idx → EReal) (ix2 n a) := by
  obtain ⟨⟨e0, e1⟩, -⟩ := idx_facts t
  unfold iblk0
  rw [View.read_apply]
  show V c main_arg0 _ = V c main_arg0 _
  congr 1
  funext d
  apply Fin.ext
  match d with
  | ⟨0, _⟩ => show win0_0.index t (0 : Fin 2) * 2000 + 1 * p.val = n.val; rw [e0, hn]; omega
  | ⟨1, _⟩ => show win0_0.index t (1 : Fin 2) * 64 + 1 * a.val = a.val; rw [e1]; omega

/-- Row p of row window 1's block at point t is row 2000 t + p of its array. -/
theorem iblk_row1 (c : Dev nD) (t : Fin cfg0.N) (p : Fin 2000) (a : Fin 64) (n : Fin 100000) (hn : n.val = t.val * 2000 + p.val) :
    (iblk0 V c 1 t : Vec Ideal S2000x64 .f32) (ix2 p a) = (V c main_arg1 : S100000x64.Idx → EReal) (ix2 n a) := by
  obtain ⟨-, ⟨e0, e1⟩, -⟩ := idx_facts t
  unfold iblk0
  rw [View.read_apply]
  show V c main_arg1 _ = V c main_arg1 _
  congr 1
  funext d
  apply Fin.ext
  match d with
  | ⟨0, _⟩ => show win0_1.index t (0 : Fin 2) * 2000 + 1 * p.val = n.val; rw [e0, hn]; omega
  | ⟨1, _⟩ => show win0_1.index t (1 : Fin 2) * 64 + 1 * a.val = a.val; rw [e1]; omega

/-- Row p of row window 2's block at point t is row 2000 t + p of its array. -/
theorem iblk_row2 (c : Dev nD) (t : Fin cfg0.N) (p : Fin 2000) (a : Fin 64) (n : Fin 100000) (hn : n.val = t.val * 2000 + p.val) :
    (iblk0 V c 2 t : Vec Ideal S2000x64 .f32) (ix2 p a) = (V c main_v20 : S100000x64.Idx → EReal) (ix2 n a) := by
  obtain ⟨-, -, ⟨e0, e1⟩, -⟩ := idx_facts t
  unfold iblk0
  rw [View.read_apply]
  show V c main_v20 _ = V c main_v20 _
  congr 1
  funext d
  apply Fin.ext
  match d with
  | ⟨0, _⟩ => show win0_2.index t (0 : Fin 2) * 2000 + 1 * p.val = n.val; rw [e0, hn]; omega
  | ⟨1, _⟩ => show win0_2.index t (1 : Fin 2) * 64 + 1 * a.val = a.val; rw [e1]; omega

/-- Row p of row window 3's block at point t is row 2000 t + p of its array. -/
theorem iblk_row3 (c : Dev nD) (t : Fin cfg0.N) (p : Fin 2000) (a : Fin 64) (n : Fin 100000) (hn : n.val = t.val * 2000 + p.val) :
    (iblk0 V c 3 t : Vec Ideal S2000x64 .f32) (ix2 p a) = (V c main_v32 : S100000x64.Idx → EReal) (ix2 n a) := by
  obtain ⟨-, -, -, ⟨e0, e1⟩, -⟩ := idx_facts t
  unfold iblk0
  rw [View.read_apply]
  show V c main_v32 _ = V c main_v32 _
  congr 1
  funext d
  apply Fin.ext
  match d with
  | ⟨0, _⟩ => show win0_3.index t (0 : Fin 2) * 2000 + 1 * p.val = n.val; rw [e0, hn]; omega
  | ⟨1, _⟩ => show win0_3.index t (1 : Fin 2) * 64 + 1 * a.val = a.val; rw [e1]; omega

/-- Weight window 4's block at every point is its whole array. -/
theorem iblk_whole4 (c : Dev nD) (t : Fin cfg0.N) (a : Fin 64) (j : Fin 128) :
    (iblk0 V c 4 t : Vec Ideal S64x128 .f32) (ix2 a j) = (V c main_v33 : S64x128.Idx → EReal) (ix2 a j) := by
  obtain ⟨-, -, -, -, ⟨e0, e1⟩, -⟩ := idx_facts t
  unfold iblk0
  rw [View.read_apply]
  show V c main_v33 _ = V c main_v33 _
  congr 1
  funext d
  apply Fin.ext
  match d with
  | ⟨0, _⟩ => show win0_4.index t (0 : Fin 2) * 64 + 1 * a.val = a.val; rw [e0]; omega
  | ⟨1, _⟩ => show win0_4.index t (1 : Fin 2) * 128 + 1 * j.val = j.val; rw [e1]; omega

/-- Weight window 5's block at every point is its whole array. -/
theorem iblk_whole5 (c : Dev nD) (t : Fin cfg0.N) (a : Fin 64) (j : Fin 128) :
    (iblk0 V c 5 t : Vec Ideal S64x128 .f32) (ix2 a j) = (V c main_v34 : S64x128.Idx → EReal) (ix2 a j) := by
  obtain ⟨-, -, -, -, -, ⟨e0, e1⟩, -⟩ := idx_facts t
  unfold iblk0
  rw [View.read_apply]
  show V c main_v34 _ = V c main_v34 _
  congr 1
  funext d
  apply Fin.ext
  match d with
  | ⟨0, _⟩ => show win0_5.index t (0 : Fin 2) * 64 + 1 * a.val = a.val; rw [e0]; omega
  | ⟨1, _⟩ => show win0_5.index t (1 : Fin 2) * 128 + 1 * j.val = j.val; rw [e1]; omega

/-- Weight window 6's block at every point is its whole array. -/
theorem iblk_whole6 (c : Dev nD) (t : Fin cfg0.N) (a : Fin 64) (j : Fin 128) :
    (iblk0 V c 6 t : Vec Ideal S64x128 .f32) (ix2 a j) = (V c main_v35 : S64x128.Idx → EReal) (ix2 a j) := by
  obtain ⟨-, -, -, -, -, -, ⟨e0, e1⟩, -⟩ := idx_facts t
  unfold iblk0
  rw [View.read_apply]
  show V c main_v35 _ = V c main_v35 _
  congr 1
  funext d
  apply Fin.ext
  match d with
  | ⟨0, _⟩ => show win0_6.index t (0 : Fin 2) * 64 + 1 * a.val = a.val; rw [e0]; omega
  | ⟨1, _⟩ => show win0_6.index t (1 : Fin 2) * 128 + 1 * j.val = j.val; rw [e1]; omega

/-- Weight window 7's block at every point is its whole array. -/
theorem iblk_whole7 (c : Dev nD) (t : Fin cfg0.N) (a : Fin 64) (j : Fin 128) :
    (iblk0 V c 7 t : Vec Ideal S64x128 .f32) (ix2 a j) = (V c main_v36 : S64x128.Idx → EReal) (ix2 a j) := by
  obtain ⟨-, -, -, -, -, -, -, ⟨e0, e1⟩, -⟩ := idx_facts t
  unfold iblk0
  rw [View.read_apply]
  show V c main_v36 _ = V c main_v36 _
  congr 1
  funext d
  apply Fin.ext
  match d with
  | ⟨0, _⟩ => show win0_7.index t (0 : Fin 2) * 64 + 1 * a.val = a.val; rw [e0]; omega
  | ⟨1, _⟩ => show win0_7.index t (1 : Fin 2) * 128 + 1 * j.val = j.val; rw [e1]; omega

/-- The bias window's block at every point is the whole bias row. -/
theorem iblk_bias (c : Dev nD) (t : Fin cfg0.N) (j : Fin 128) :
    (iblk0 V c 8 t : Vec Ideal S1x128 .f32) (ix2 (0 : Fin 1) j) = (V c main_v38 : S1x128.Idx → EReal) (ix2 (0 : Fin 1) j) := by
  obtain ⟨-, -, -, -, -, -, -, -, ⟨e0, e1⟩, -⟩ := idx_facts t
  unfold iblk0
  rw [View.read_apply]
  show V c main_v38 _ = V c main_v38 _
  congr 1
  funext d
  apply Fin.ext
  match d with
  | ⟨0, _⟩ => show win0_8.index t (0 : Fin 2) * 1 + 1 * (0 : Fin 1).val = (0 : Fin 1).val; rw [e0]; rfl
  | ⟨1, _⟩ => show win0_8.index t (1 : Fin 2) * 128 + 1 * j.val = j.val; rw [e1]; omega

/-- The gate layer's output j at node n, from the arrays as the region finds them. -/
def gate (c : Dev nD) (n : Fin 100000) (j : Fin 128) : EReal :=
  Ideal.logistic (Cert.Gru.lin4
    (fun a => (V c main_arg0 : S100000x64.Idx → EReal) (ix2 n a))
    (fun a => (V c main_arg1 : S100000x64.Idx → EReal) (ix2 n a))
    (fun a => (V c main_v20 : S100000x64.Idx → EReal) (ix2 n a))
    (fun a => (V c main_v32 : S100000x64.Idx → EReal) (ix2 n a))
    (fun a j => (V c main_v33 : S64x128.Idx → EReal) (ix2 a j))
    (fun a j => (V c main_v34 : S64x128.Idx → EReal) (ix2 a j))
    (fun a j => (V c main_v35 : S64x128.Idx → EReal) (ix2 a j))
    (fun a j => (V c main_v36 : S64x128.Idx → EReal) (ix2 a j))
    (fun j => (V c main_v38 : S1x128.Idx → EReal) (ix2 (0 : Fin 1) j)) j)

/-! ## From the blocks to the arrays -/

/-- The dense layer's logistic of the blocks at point t, row p, is the gate at node 2000 t + p. -/
theorem pay2_blocks (c : Dev nD) (t : Fin cfg0.N) (p : Fin 2000) (j : Fin 128) (n : Fin 100000) (hn : n.val = t.val * 2000 + p.val) :
    k0_pay2 (F := Ideal) (iblk0 V c 0 t) (iblk0 V c 1 t) (iblk0 V c 2 t) (iblk0 V c 3 t) (iblk0 V c 4 t) (iblk0 V c 5 t)
        (iblk0 V c 6 t) (iblk0 V c 7 t) (iblk0 V c 8 t) (ix2 p j) = gate V c n j := by
  refine (pay2_apply (iblk0 V c 0 t) (iblk0 V c 1 t) (iblk0 V c 2 t) (iblk0 V c 3 t) (iblk0 V c 4 t) (iblk0 V c 5 t)
        (iblk0 V c 6 t) (iblk0 V c 7 t) (iblk0 V c 8 t) p j).trans ?_
  unfold gate
  have h0 := funext fun a => iblk_row0 V c t p a n hn
  have h1 := funext fun a => iblk_row1 V c t p a n hn
  have h2 := funext fun a => iblk_row2 V c t p a n hn
  have h3 := funext fun a => iblk_row3 V c t p a n hn
  have h4 := funext fun a => funext fun j => iblk_whole4 V c t a j
  have h5 := funext fun a => funext fun j => iblk_whole5 V c t a j
  have h6 := funext fun a => funext fun j => iblk_whole6 V c t a j
  have h7 := funext fun a => funext fun j => iblk_whole7 V c t a j
  have h8 := funext fun j => iblk_bias V c t j
  rw [h0, h1, h2, h3, h4, h5, h6, h7, h8]

/-- The update gate as one function of the array index: output 64 + k of the gate layer at node n. -/
def updArr (c : Dev nD) : S100000x64.Idx → EReal := fun i =>
  gate V c ⟨(i 0).val, idx2_lt0 i⟩ ⟨64 + (i 1).val, by have := idx2_lt1 i; omega⟩

/-- What point t writes back to result window 9 is block t of that function. -/
theorem flushed9_eq (c : Dev nD) (t : Fin cfg0.N) :
    (dat0 V c).flushed 9 t = ((cfg0.win 9).blk t).view.read (Elt Ideal) (updArr V c) := by
  show (cfg0.win 9).cut (grid0.coords t) ((dat0 V c).after 9 t) = _
  rw [after0_9]
  unfold out0_9
  rw [View.canon_unit_zero zero_offsets]
  simp only [View.ld_unit_zero (S := S2000x64) zero_offsets, View.ld_unit_zero (S := S64x128) zero_offsets,
    View.ld_unit_zero (S := S1x128) zero_offsets]
  funext y
  obtain ⟨p, q, rfl⟩ : ∃ (p : Fin 2000) (q : Fin 64), y = ix2 p q := ⟨y 0, y 1, eq_ix2 y⟩
  rw [View.read_apply]
  have hN : grid0.N = 50 := N_0
  have hp : t.val * 2000 + p.val < 100000 := by
    have ht : t.val < grid0.N := t.isLt
    have := p.isLt
    omega
  obtain ⟨-, -, -, -, -, -, -, -, -, ⟨e0, e1⟩, -⟩ := idx_facts t
  have hemb : ((cfg0.win 9).blk t).view.emb (ix2 p q) = ix2 (⟨t.val * 2000 + p.val, hp⟩ : Fin 100000) q := by
    funext d
    apply Fin.ext
    match d with
    | ⟨0, _⟩ => show win0_9.index t (0 : Fin 2) * 2000 + 1 * p.val = t.val * 2000 + p.val; rw [e0]; omega
    | ⟨1, _⟩ => show win0_9.index t (1 : Fin 2) * 64 + 1 * q.val = q.val; rw [e1]; omega
  rw [hemb]
  show k0_pay4 (F := Ideal) (iblk0 V c 0 t) (iblk0 V c 1 t) (iblk0 V c 2 t) (iblk0 V c 3 t) (iblk0 V c 4 t) (iblk0 V c 5 t)
      (iblk0 V c 6 t) (iblk0 V c 7 t) (iblk0 V c 8 t) (ix2 p q) = updArr V c (ix2 (⟨t.val * 2000 + p.val, hp⟩ : Fin 100000) q)
  refine (pay4_apply (iblk0 V c 0 t) (iblk0 V c 1 t) (iblk0 V c 2 t) (iblk0 V c 3 t) (iblk0 V c 4 t) (iblk0 V c 5 t)
      (iblk0 V c 6 t) (iblk0 V c 7 t) (iblk0 V c 8 t) p q).trans ?_
  exact pay2_blocks V c t p _ ⟨t.val * 2000 + p.val, hp⟩ rfl

/-- An index of the array is in point t's block of result window 9 iff each coordinate is in the block's range. -/
theorem mem_blk9 (t : Fin cfg0.N) (i : S100000x64.Idx) :
    i ∈ ((cfg0.win 9).blk t).view.set ↔ ∀ a : Fin 2, win0_9.index t a * S2000x64.size a ≤ (i a).val
      ∧ (i a).val < win0_9.index t a * S2000x64.size a + S2000x64.size a := by
  show i ∈ ((View.whole main_v39_0).slice (win0_9.rect t)).set ↔ _
  rw [View.set_slice_whole, Rect.mem_set_unit]
  exact Iff.rfl

/-- Row n lies in the block of point n / 2000. -/
theorem cover9 (i : S100000x64.Idx) :
    ∃ t : Fin cfg0.N, (cfg0.win 9).flush t = true ∧ i ∈ ((cfg0.win 9).blk t).view.set := by
  have hi0 : (i 0).val < 100000 := idx2_lt0 i
  have hi1 : (i 1).val < 64 := idx2_lt1 i
  have hN : grid0.N = 50 := N_0
  have ht : (i 0).val / 2000 < grid0.N := by rw [hN]; omega
  refine ⟨⟨(i 0).val / 2000, ht⟩, flush0_9 _, ?_⟩
  rw [mem_blk9]
  obtain ⟨-, -, -, -, -, -, -, -, -, ⟨e0, e1⟩, -⟩ := idx_facts ⟨(i 0).val / 2000, ht⟩
  intro a
  match a with
  | ⟨0, _⟩ =>
    show win0_9.index ⟨(i 0).val / 2000, ht⟩ (0 : Fin 2) * 2000 ≤ (i 0).val
      ∧ (i 0).val < win0_9.index ⟨(i 0).val / 2000, ht⟩ (0 : Fin 2) * 2000 + 2000
    rw [e0]
    show (i 0).val / 2000 * 2000 ≤ (i 0).val ∧ (i 0).val < (i 0).val / 2000 * 2000 + 2000
    omega
  | ⟨1, _⟩ =>
    show win0_9.index ⟨(i 0).val / 2000, ht⟩ (1 : Fin 2) * 64 ≤ (i 1).val
      ∧ (i 1).val < win0_9.index ⟨(i 0).val / 2000, ht⟩ (1 : Fin 2) * 64 + 64
    rw [e1]
    omega

/-- Result array 9 after the run is that function. -/
theorem final9 (c : Dev nD) : (dat0 V c).arrAt 9 cfg0.N = updArr V c :=
  (dat0 V c).arrAt_eq_of_cover 9 (updArr V c) (fun t _ => flushed9_eq V c t) (cover9)

/-- The reset state as one function of the array index: output k of the gate layer at node n times the state's entry. -/
def rsArrK (c : Dev nD) : S100000x64.Idx → EReal := fun i =>
  gate V c ⟨(i 0).val, idx2_lt0 i⟩ ⟨(i 1).val, by have := idx2_lt1 i; omega⟩ * (V c main_arg1 : S100000x64.Idx → EReal) i

/-- What point t writes back to result window 10 is block t of that function. -/
theorem flushed10_eq (c : Dev nD) (t : Fin cfg0.N) :
    (dat0 V c).flushed 10 t = ((cfg0.win 10).blk t).view.read (Elt Ideal) (rsArrK V c) := by
  show (cfg0.win 10).cut (grid0.coords t) ((dat0 V c).after 10 t) = _
  rw [after0_10]
  unfold out0_10
  rw [View.canon_unit_zero zero_offsets]
  simp only [View.ld_unit_zero (S := S2000x64) zero_offsets, View.ld_unit_zero (S := S64x128) zero_offsets,
    View.ld_unit_zero (S := S1x128) zero_offsets]
  funext y
  obtain ⟨p, q, rfl⟩ : ∃ (p : Fin 2000) (q : Fin 64), y = ix2 p q := ⟨y 0, y 1, eq_ix2 y⟩
  rw [View.read_apply]
  have hN : grid0.N = 50 := N_0
  have hp : t.val * 2000 + p.val < 100000 := by
    have ht : t.val < grid0.N := t.isLt
    have := p.isLt
    omega
  obtain ⟨-, -, -, -, -, -, -, -, -, -, ⟨e0, e1⟩⟩ := idx_facts t
  have hemb : ((cfg0.win 10).blk t).view.emb (ix2 p q) = ix2 (⟨t.val * 2000 + p.val, hp⟩ : Fin 100000) q := by
    funext d
    apply Fin.ext
    match d with
    | ⟨0, _⟩ => show win0_10.index t (0 : Fin 2) * 2000 + 1 * p.val = t.val * 2000 + p.val; rw [e0]; omega
    | ⟨1, _⟩ => show win0_10.index t (1 : Fin 2) * 64 + 1 * q.val = q.val; rw [e1]; omega
  rw [hemb]
  show k0_pay1 (F := Ideal) (k0_pay3 (F := Ideal) (iblk0 V c 0 t) (iblk0 V c 1 t) (iblk0 V c 2 t) (iblk0 V c 3 t) (iblk0 V c 4 t) (iblk0 V c 5 t)
      (iblk0 V c 6 t) (iblk0 V c 7 t) (iblk0 V c 8 t)) (iblk0 V c 1 t) (ix2 p q)
    = rsArrK V c (ix2 (⟨t.val * 2000 + p.val, hp⟩ : Fin 100000) q)
  refine (pay1_apply (k0_pay3 (F := Ideal) (iblk0 V c 0 t) (iblk0 V c 1 t) (iblk0 V c 2 t) (iblk0 V c 3 t) (iblk0 V c 4 t) (iblk0 V c 5 t)
      (iblk0 V c 6 t) (iblk0 V c 7 t) (iblk0 V c 8 t)) (iblk0 V c 1 t) p q).trans ?_
  rw [pay3_apply (iblk0 V c 0 t) (iblk0 V c 1 t) (iblk0 V c 2 t) (iblk0 V c 3 t) (iblk0 V c 4 t) (iblk0 V c 5 t)
      (iblk0 V c 6 t) (iblk0 V c 7 t) (iblk0 V c 8 t) p q, pay2_blocks V c t p _ ⟨t.val * 2000 + p.val, hp⟩ rfl,
    iblk_row1 V c t p q ⟨t.val * 2000 + p.val, hp⟩ rfl]
  rfl

/-- An index of the array is in point t's block of result window 10 iff each coordinate is in the block's range. -/
theorem mem_blk10 (t : Fin cfg0.N) (i : S100000x64.Idx) :
    i ∈ ((cfg0.win 10).blk t).view.set ↔ ∀ a : Fin 2, win0_10.index t a * S2000x64.size a ≤ (i a).val
      ∧ (i a).val < win0_10.index t a * S2000x64.size a + S2000x64.size a := by
  show i ∈ ((View.whole main_v39_1).slice (win0_10.rect t)).set ↔ _
  rw [View.set_slice_whole, Rect.mem_set_unit]
  exact Iff.rfl

/-- Row n lies in the block of point n / 2000. -/
theorem cover10 (i : S100000x64.Idx) :
    ∃ t : Fin cfg0.N, (cfg0.win 10).flush t = true ∧ i ∈ ((cfg0.win 10).blk t).view.set := by
  have hi0 : (i 0).val < 100000 := idx2_lt0 i
  have hi1 : (i 1).val < 64 := idx2_lt1 i
  have hN : grid0.N = 50 := N_0
  have ht : (i 0).val / 2000 < grid0.N := by rw [hN]; omega
  refine ⟨⟨(i 0).val / 2000, ht⟩, flush0_10 _, ?_⟩
  rw [mem_blk10]
  obtain ⟨-, -, -, -, -, -, -, -, -, -, ⟨e0, e1⟩⟩ := idx_facts ⟨(i 0).val / 2000, ht⟩
  intro a
  match a with
  | ⟨0, _⟩ =>
    show win0_10.index ⟨(i 0).val / 2000, ht⟩ (0 : Fin 2) * 2000 ≤ (i 0).val
      ∧ (i 0).val < win0_10.index ⟨(i 0).val / 2000, ht⟩ (0 : Fin 2) * 2000 + 2000
    rw [e0]
    show (i 0).val / 2000 * 2000 ≤ (i 0).val ∧ (i 0).val < (i 0).val / 2000 * 2000 + 2000
    omega
  | ⟨1, _⟩ =>
    show win0_10.index ⟨(i 0).val / 2000, ht⟩ (1 : Fin 2) * 64 ≤ (i 1).val
      ∧ (i 1).val < win0_10.index ⟨(i 0).val / 2000, ht⟩ (1 : Fin 2) * 64 + 64
    rw [e1]
    omega

/-- Result array 10 after the run is that function. -/
theorem final10 (c : Dev nD) : (dat0 V c).arrAt 10 cfg0.N = rsArrK V c :=
  (dat0 V c).arrAt_eq_of_cover 10 (rsArrK V c) (fun t _ => flushed10_eq V c t) (cover10)

/-- The first result array (the update gate) after the run, at (n, k). -/
theorem u_apply (c : Dev nD) (n : Fin 100000) (k : Fin 64) :
    ((dat0 V c).arrAt 9 cfg0.N : S100000x64.Idx → EReal) (ix2 n k) = gate V c n ⟨64 + k.val, by omega⟩ := by
  rw [final9]
  rfl

/-- The second result array (the reset state) after the run, at (n, k). -/
theorem rs_apply (c : Dev nD) (n : Fin 100000) (k : Fin 64) :
    ((dat0 V c).arrAt 10 cfg0.N : S100000x64.Idx → EReal) (ix2 n k)
      = gate V c n ⟨k.val, by omega⟩ * (V c main_arg1 : S100000x64.Idx → EReal) (ix2 n k) := by
  rw [final10]
  rfl

end Cert.Gru.Region0

end
-- ==== Proof.Region1.lean ====
/-
  The candidate region's result array, read at an index.

  Grid point t of the second kernel call holds rows 2000 t … 2000 t + 1999 of the six node arrays, the four 64 x 64 weight
  halves whole and the bias row whole; it writes u * state + (1 - u) * tanh of the dense layer. The 50 blocks tile the
  100000 rows, so after the run result row n is that function of row n of the region-entry arrays.
-/
import proofs.«108189_j27101243638400_1_alg».proof.Proof.Gen.KernelIdeal.Frame
import proofs.«108189_j27101243638400_1_alg».proof.Proof.Spec
import proofs.«108189_j27101243638400_1_alg».proof.Proof.LibPlainDot
import proofs.«108189_j27101243638400_1_alg».proof.Proof.LibRowBias
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.Gru.Region1

open Cert.KernelIdeal Cert.KernelIdeal.Gen

variable (V : (c : Dev nD) → (b : Ref sig .tc) → Buf (Elt Ideal) ((c : Thread nD τ).loc b))

/-- The candidate at node n, entry j, from the arrays as the region finds them. -/
def cand (c : Dev nD) (n : Fin 100000) (j : Fin 64) : EReal :=
  Ideal.tanh (Cert.Gru.lin4
    (fun a => (V c main_arg0 : S100000x64.Idx → EReal) (ix2 n a))
    (fun a => (V c main_v39_1 : S100000x64.Idx → EReal) (ix2 n a))
    (fun a => (V c main_v20 : S100000x64.Idx → EReal) (ix2 n a))
    (fun a => (V c main_v51 : S100000x64.Idx → EReal) (ix2 n a))
    (fun a j => (V c main_v52 : S64x64.Idx → EReal) (ix2 a j))
    (fun a j => (V c main_v53 : S64x64.Idx → EReal) (ix2 a j))
    (fun a j => (V c main_v54 : S64x64.Idx → EReal) (ix2 a j))
    (fun a j => (V c main_v55 : S64x64.Idx → EReal) (ix2 a j))
    (fun j => (V c main_v57 : S1x64.Idx → EReal) (ix2 (0 : Fin 1) j)) j)

/-- The update gate as the region finds it, at (n, j). -/
abbrev uAt (c : Dev nD) (n : Fin 100000) (j : Fin 64) : EReal := (V c main_v39_0 : S100000x64.Idx → EReal) (ix2 n j)
/-- The state as the region finds it, at (n, j). -/
abbrev stAt (c : Dev nD) (n : Fin 100000) (j : Fin 64) : EReal := (V c main_arg1 : S100000x64.Idx → EReal) (ix2 n j)

/-! ## The body's arithmetic at an index -/

/-- The printed dimension numbers are those of a plain 2000 x 64 by 64 x 64 product. -/
theorem dot_plain : dot_S2000x64_S64x64_S2000x64_1_0_0_1_n_n = DotDims.plain 2000 64 64 := rfl

/-- One product of the body at (p, q): narrowing the operands is the identity on the extended reals, and the
    accumulator is the zero word. -/
theorem mm_apply (x : Vec Ideal S2000x64 .f32) (w : Vec Ideal S64x64 .f32) (p : Fin 2000) (q : Fin 64) :
    (matmul dot_S2000x64_S64x64_S2000x64_1_0_0_1_n_n none (truncf .bf16 x bitsLt_bf16_f32) (truncf .bf16 w bitsLt_bf16_f32)
        (constant S2000x64 .f32 0x00000000#32) : FVec Ideal S2000x64 .f32) (ix2 p q)
      = ∑ k : Fin 64, x (ix2 p k) * w (ix2 k q) :=
  Cert.PlainDot.matmul_zero_apply (M := 2000) (K := 64) (N := 64) none (truncf .bf16 x bitsLt_bf16_f32)
    (truncf .bf16 w bitsLt_bf16_f32) p q

/-- The hyperbolic tangent of a block, at an index. -/
theorem tanh_apply (a : FVec Ideal S2000x64 .f32) (i : S2000x64.Idx) : tanh a i = Ideal.tanh (a i) := rfl

/-- The dense layer's block at (p, q): the hyperbolic tangent of the four row-by-matrix products added left to right
    and the bias row. -/
theorem pay2_apply (x0 x1 x2 x3 : Vec Ideal S2000x64 .f32) (w0 w1 w2 w3 : Vec Ideal S64x64 .f32) (b : Vec Ideal S1x64 .f32)
    (p : Fin 2000) (q : Fin 64) :
    k1_pay2 x0 x1 x2 x3 w0 w1 w2 w3 b (ix2 p q)
      = Ideal.tanh (Cert.Gru.lin4 (fun a => x0 (ix2 p a)) (fun a => x1 (ix2 p a)) (fun a => x2 (ix2 p a)) (fun a => x3 (ix2 p a))
          (fun a j => w0 (ix2 a j)) (fun a j => w1 (ix2 a j)) (fun a j => w2 (ix2 a j)) (fun a j => w3 (ix2 a j))
          (fun j => b (ix2 (0 : Fin 1) j)) q) := by
  unfold k1_pay2 Cert.Gru.lin4
  simp only [shapeCast_self]
  rw [tanh_apply]
  simp only [addf_apply, mm_apply, Cert.RowBias.rows_apply]

/-- The stored block at (p, q): u * state + (1 - u) * candidate. -/
theorem pay1_apply (cd : FVec Ideal S2000x64 .f32) (u st : Vec Ideal S2000x64 .f32) (p : Fin 2000) (q : Fin 64) :
    k1_pay1 cd u st (ix2 p q)
      = u (ix2 p q) * st (ix2 p q) + (Ideal.ofBits .f32 0x3F800000#32 - u (ix2 p q)) * cd (ix2 p q) := by
  unfold k1_pay1
  simp only [shapeCast_self]
  rfl

/-! ## The blocks as parts of the arrays -/

theorem hz : (![0, 0] : Fin 2 → Nat) = fun _ => 0 := funext fun a => by fin_cases a <;> rfl

/-- The index maps over the grid: the seven row windows sit at block (t, 0), the weight and bias windows at (0, 0). -/
theorem idx_facts : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = t.val ∧ win1_3.index t (1 : Fin 2) = 0)
    ∧ (win1_4.index t (0 : Fin 2) = t.val ∧ win1_4.index t (1 : Fin 2) = 0)
    ∧ (win1_5.index t (0 : Fin 2) = t.val ∧ win1_5.index t (1 : Fin 2) = 0)
    ∧ (win1_11.index t (0 : Fin 2) = t.val ∧ win1_11.index t (1 : Fin 2) = 0)
    ∧ (win1_6.index t (0 : Fin 2) = 0 ∧ win1_6.index t (1 : Fin 2) = 0)
    ∧ (win1_7.index t (0 : Fin 2) = 0 ∧ win1_7.index t (1 : Fin 2) = 0)
    ∧ (win1_8.index t (0 : Fin 2) = 0 ∧ win1_8.index t (1 : Fin 2) = 0)
    ∧ (win1_9.index t (0 : Fin 2) = 0 ∧ win1_9.index t (1 : Fin 2) = 0)
    ∧ (win1_10.index t (0 : Fin 2) = 0 ∧ win1_10.index t (1 : Fin 2) = 0) :=
  (by decide +kernel : ∀ t : Fin grid1.N, _)

/-- A rank-2 index with coordinates a and b is the index (a, b). -/
theorem idx_eq_ix2 {n0 n1 : Nat} (i : (⟨2, ![n0, n1]⟩ : Shape).Idx) (a : Fin n0) (b : Fin n1)
    (h0 : (i 0).val = a.val) (h1 : (i 1).val = b.val) : i = ix2 a b := by
  funext d
  match d with
  | ⟨0, _⟩ => exact Fin.ext h0
  | ⟨1, _⟩ => exact Fin.ext h1

/-- Entry (p, q) of a row window's block at point t is entry (2000 t + p, q) of its array: a block's coordinate is the
    block index times the block's extent plus the coordinate inside the block. Window by window. -/
theorem blk0_apply (c : Dev nD) (t : Fin cfg1.N) (p : Fin 2000) (q : Fin 64) (n : Fin 100000) (hn : n.val = t.val * 2000 + p.val) :
    (iblk1 V c 0 t : Vec Ideal S2000x64 .f32) (ix2 p q) = (V c main_arg0 : S100000x64.Idx → EReal) (ix2 n q) := by
  obtain ⟨⟨e0, e1⟩, -⟩ := idx_facts t
  exact congrArg (V c main_arg0 : S100000x64.Idx → EReal) (idx_eq_ix2 (((cfg1.win 0).blk t).view.emb (ix2 p q)) n q
    (by show win1_0.index t (0 : Fin 2) * 2000 + 1 * p.val = n.val; omega)
    (by show win1_0.index t (1 : Fin 2) * 64 + 1 * q.val = q.val; omega))

theorem blk1_apply (c : Dev nD) (t : Fin cfg1.N) (p : Fin 2000) (q : Fin 64) (n : Fin 100000) (hn : n.val = t.val * 2000 + p.val) :
    (iblk1 V c 1 t : Vec Ideal S2000x64 .f32) (ix2 p q) = (V c main_v39_1 : S100000x64.Idx → EReal) (ix2 n q) := by
  obtain ⟨-, ⟨e0, e1⟩, -⟩ := idx_facts t
  exact congrArg (V c main_v39_1 : S100000x64.Idx → EReal) (idx_eq_ix2 (((cfg1.win 1).blk t).view.emb (ix2 p q)) n q
    (by show win1_1.index t (0 : Fin 2) * 2000 + 1 * p.val = n.val; omega)
    (by show win1_1.index t (1 : Fin 2) * 64 + 1 * q.val = q.val; omega))

theorem blk2_apply (c : Dev nD) (t : Fin cfg1.N) (p : Fin 2000) (q : Fin 64) (n : Fin 100000) (hn : n.val = t.val * 2000 + p.val) :
    (iblk1 V c 2 t : Vec Ideal S2000x64 .f32) (ix2 p q) = (V c main_v20 : S100000x64.Idx → EReal) (ix2 n q) := by
  obtain ⟨-, -, ⟨e0, e1⟩, -⟩ := idx_facts t
  exact congrArg (V c main_v20 : S100000x64.Idx → EReal) (idx_eq_ix2 (((cfg1.win 2).blk t).view.emb (ix2 p q)) n q
    (by show win1_2.index t (0 : Fin 2) * 2000 + 1 * p.val = n.val; omega)
    (by show win1_2.index t (1 : Fin 2) * 64 + 1 * q.val = q.val; omega))

theorem blk3_apply (c : Dev nD) (t : Fin cfg1.N) (p : Fin 2000) (q : Fin 64) (n : Fin 100000) (hn : n.val = t.val * 2000 + p.val) :
    (iblk1 V c 3 t : Vec Ideal S2000x64 .f32) (ix2 p q) = (V c main_v51 : S100000x64.Idx → EReal) (ix2 n q) := by
  obtain ⟨-, -, -, ⟨e0, e1⟩, -⟩ := idx_facts t
  exact congrArg (V c main_v51 : S100000x64.Idx → EReal) (idx_eq_ix2 (((cfg1.win 3).blk t).view.emb (ix2 p q)) n q
    (by show win1_3.index t (0 : Fin 2) * 2000 + 1 * p.val = n.val; omega)
    (by show win1_3.index t (1 : Fin 2) * 64 + 1 * q.val = q.val; omega))

theorem blk4_apply (c : Dev nD) (t : Fin cfg1.N) (p : Fin 2000) (q : Fin 64) (n : Fin 100000) (hn : n.val = t.val * 2000 + p.val) :
    (iblk1 V c 4 t : Vec Ideal S2000x64 .f32) (ix2 p q) = (V c main_v39_0 : S100000x64.Idx → EReal) (ix2 n q) := by
  obtain ⟨-, -, -, -, ⟨e0, e1⟩, -⟩ := idx_facts t
  exact congrArg (V c main_v39_0 : S100000x64.Idx → EReal) (idx_eq_ix2 (((cfg1.win 4).blk t).view.emb (ix2 p q)) n q
    (by show win1_4.index t (0 : Fin 2) * 2000 + 1 * p.val = n.val; omega)
    (by show win1_4.index t (1 : Fin 2) * 64 + 1 * q.val = q.val; omega))

theorem blk5_apply (c : Dev nD) (t : Fin cfg1.N) (p : Fin 2000) (q : Fin 64) (n : Fin 100000) (hn : n.val = t.val * 2000 + p.val) :
    (iblk1 V c 5 t : Vec Ideal S2000x64 .f32) (ix2 p q) = (V c main_arg1 : S100000x64.Idx → EReal) (ix2 n q) := by
  obtain ⟨-, -, -, -, -, ⟨e0, e1⟩, -⟩ := idx_facts t
  exact congrArg (V c main_arg1 : S100000x64.Idx → EReal) (idx_eq_ix2 (((cfg1.win 5).blk t).view.emb (ix2 p q)) n q
    (by show win1_5.index t (0 : Fin 2) * 2000 + 1 * p.val = n.val; omega)
    (by show win1_5.index t (1 : Fin 2) * 64 + 1 * q.val = q.val; omega))

/-- The same for the result window: where entry (p, q) of point t's block lies in the result array. -/
theorem emb11 (t : Fin cfg1.N) (p : Fin 2000) (q : Fin 64) (n : Fin 100000) (hn : n.val = t.val * 2000 + p.val) :
    ((cfg1.win 11).blk t).view.emb (ix2 p q) = ix2 n q := by
  obtain ⟨-, -, -, -, -, -, ⟨e0, e1⟩, -⟩ := idx_facts t
  exact idx_eq_ix2 (((cfg1.win 11).blk t).view.emb (ix2 p q)) n q
    (by show win1_11.index t (0 : Fin 2) * 2000 + 1 * p.val = n.val; omega)
    (by show win1_11.index t (1 : Fin 2) * 64 + 1 * q.val = q.val; omega)

/-- A weight window's block is its whole array at every point. Window by window. -/
theorem blk6_eq (c : Dev nD) (t : Fin cfg1.N) : (iblk1 V c 6 t : Vec Ideal S64x64 .f32) = (V c main_v52 : S64x64.Idx → EReal) := by
  obtain ⟨-, -, -, -, -, -, -, ⟨e0, e1⟩, -⟩ := idx_facts t
  funext y
  obtain ⟨a, j, rfl⟩ : ∃ (a : Fin 64) (j : Fin 64), y = ix2 a j := ⟨y 0, y 1, eq_ix2 y⟩
  exact congrArg (V c main_v52 : S64x64.Idx → EReal) (idx_eq_ix2 (((cfg1.win 6).blk t).view.emb (ix2 a j)) a j
    (by show win1_6.index t (0 : Fin 2) * 64 + 1 * a.val = a.val; omega)
    (by show win1_6.index t (1 : Fin 2) * 64 + 1 * j.val = j.val; omega))

theorem blk7_eq (c : Dev nD) (t : Fin cfg1.N) : (iblk1 V c 7 t : Vec Ideal S64x64 .f32) = (V c main_v53 : S64x64.Idx → EReal) := by
  obtain ⟨-, -, -, -, -, -, -, -, ⟨e0, e1⟩, -⟩ := idx_facts t
  funext y
  obtain ⟨a, j, rfl⟩ : ∃ (a : Fin 64) (j : Fin 64), y = ix2 a j := ⟨y 0, y 1, eq_ix2 y⟩
  exact congrArg (V c main_v53 : S64x64.Idx → EReal) (idx_eq_ix2 (((cfg1.win 7).blk t).view.emb (ix2 a j)) a j
    (by show win1_7.index t (0 : Fin 2) * 64 + 1 * a.val = a.val; omega)
    (by show win1_7.index t (1 : Fin 2) * 64 + 1 * j.val = j.val; omega))

theorem blk8_eq (c : Dev nD) (t : Fin cfg1.N) : (iblk1 V c 8 t : Vec Ideal S64x64 .f32) = (V c main_v54 : S64x64.Idx → EReal) := by
  obtain ⟨-, -, -, -, -, -, -, -, -, ⟨e0, e1⟩, -⟩ := idx_facts t
  funext y
  obtain ⟨a, j, rfl⟩ : ∃ (a : Fin 64) (j : Fin 64), y = ix2 a j := ⟨y 0, y 1, eq_ix2 y⟩
  exact congrArg (V c main_v54 : S64x64.Idx → EReal) (idx_eq_ix2 (((cfg1.win 8).blk t).view.emb (ix2 a j)) a j
    (by show win1_8.index t (0 : Fin 2) * 64 + 1 * a.val = a.val; omega)
    (by show win1_8.index t (1 : Fin 2) * 64 + 1 * j.val = j.val; omega))

theorem blk9_eq (c : Dev nD) (t : Fin cfg1.N) : (iblk1 V c 9 t : Vec Ideal S64x64 .f32) = (V c main_v55 : S64x64.Idx → EReal) := by
  obtain ⟨-, -, -, -, -, -, -, -, -, -, ⟨e0, e1⟩, -⟩ := idx_facts t
  funext y
  obtain ⟨a, j, rfl⟩ : ∃ (a : Fin 64) (j : Fin 64), y = ix2 a j := ⟨y 0, y 1, eq_ix2 y⟩
  exact congrArg (V c main_v55 : S64x64.Idx → EReal) (idx_eq_ix2 (((cfg1.win 9).blk t).view.emb (ix2 a j)) a j
    (by show win1_9.index t (0 : Fin 2) * 64 + 1 * a.val = a.val; omega)
    (by show win1_9.index t (1 : Fin 2) * 64 + 1 * j.val = j.val; omega))

/-- The bias window's block is the whole bias row at every point. -/
theorem blk10_eq (c : Dev nD) (t : Fin cfg1.N) : (iblk1 V c 10 t : Vec Ideal S1x64 .f32) = (V c main_v57 : S1x64.Idx → EReal) := by
  obtain ⟨-, -, -, -, -, -, -, -, -, -, -, e0, e1⟩ := idx_facts t
  funext y
  obtain ⟨a, j, rfl⟩ : ∃ (a : Fin 1) (j : Fin 64), y = ix2 a j := ⟨y 0, y 1, eq_ix2 y⟩
  exact congrArg (V c main_v57 : S1x64.Idx → EReal) (idx_eq_ix2 (((cfg1.win 10).blk t).view.emb (ix2 a j)) a j
    (by show win1_10.index t (0 : Fin 2) * 1 + 1 * a.val = a.val; omega)
    (by show win1_10.index t (1 : Fin 2) * 64 + 1 * j.val = j.val; omega))

/-! ## From the blocks to the array -/

/-- The result array as one function of the region-entry arrays, index by index. -/
def G (c : Dev nD) : S100000x64.Idx → EReal := fun i =>
  uAt V c (i 0) (i 1) * stAt V c (i 0) (i 1)
    + (Ideal.ofBits .f32 0x3F800000#32 - uAt V c (i 0) (i 1)) * cand V c (i 0) (i 1)

/-- What point t writes back is block t of that function. -/
theorem flushed_eq (c : Dev nD) (t : Fin cfg1.N) :
    (dat1 V c).flushed 11 t = ((cfg1.win 11).blk t).view.read (Elt Ideal) (G V c) := by
  show (cfg1.win 11).cut (grid1.coords t) ((dat1 V c).after 11 t) = _
  rw [after1_11]
  unfold out1_11
  rw [View.canon_unit_zero hz]
  simp only [View.ld_unit_zero (S := S2000x64) hz, View.ld_unit_zero (S := S64x64) hz, View.ld_unit_zero (S := S1x64) hz]
  funext y
  obtain ⟨p, q, rfl⟩ : ∃ (p : Fin 2000) (q : Fin 64), y = ix2 p q := ⟨y 0, y 1, eq_ix2 y⟩
  have hN : cfg1.N = 50 := N_1
  have hlt : t.val * 2000 + p.val < 100000 := by have := t.isLt; have := p.isLt; omega
  show k1_pay1
        (k1_pay2 (iblk1 V c 0 t) (iblk1 V c 1 t) (iblk1 V c 2 t) (iblk1 V c 3 t) (iblk1 V c 6 t) (iblk1 V c 7 t)
          (iblk1 V c 8 t) (iblk1 V c 9 t) (iblk1 V c 10 t))
        (iblk1 V c 4 t) (iblk1 V c 5 t) (ix2 p q)
      = G V c (((cfg1.win 11).blk t).view.emb (ix2 p q))
  rw [emb11 t p q ⟨t.val * 2000 + p.val, hlt⟩ rfl]
  refine (pay1_apply
    (k1_pay2 (iblk1 V c 0 t) (iblk1 V c 1 t) (iblk1 V c 2 t) (iblk1 V c 3 t) (iblk1 V c 6 t) (iblk1 V c 7 t)
      (iblk1 V c 8 t) (iblk1 V c 9 t) (iblk1 V c 10 t))
    (iblk1 V c 4 t) (iblk1 V c 5 t) p q).trans ?_
  rw [pay2_apply (iblk1 V c 0 t) (iblk1 V c 1 t) (iblk1 V c 2 t) (iblk1 V c 3 t) (iblk1 V c 6 t) (iblk1 V c 7 t)
      (iblk1 V c 8 t) (iblk1 V c 9 t) (iblk1 V c 10 t) p q,
    blk4_apply V c t p q ⟨t.val * 2000 + p.val, hlt⟩ rfl, blk5_apply V c t p q ⟨t.val * 2000 + p.val, hlt⟩ rfl,
    blk6_eq V c t, blk7_eq V c t, blk8_eq V c t, blk9_eq V c t, blk10_eq V c t]
  simp only [fun a => blk0_apply V c t p a ⟨t.val * 2000 + p.val, hlt⟩ rfl,
    fun a => blk1_apply V c t p a ⟨t.val * 2000 + p.val, hlt⟩ rfl,
    fun a => blk2_apply V c t p a ⟨t.val * 2000 + p.val, hlt⟩ rfl,
    fun a => blk3_apply V c t p a ⟨t.val * 2000 + p.val, hlt⟩ rfl]
  rfl

/-- An index of the result array is in point t's block iff each coordinate is in the block's range on its axis. -/
theorem mem_blk (t : Fin cfg1.N) (i : S100000x64.Idx) :
    i ∈ ((cfg1.win 11).blk t).view.set
      ↔ ∀ a : Fin 2, win1_11.index t a * S2000x64.size a ≤ (i a).val
          ∧ (i a).val < win1_11.index t a * S2000x64.size a + S2000x64.size a := by
  show i ∈ ((View.whole main_v58).slice (win1_11.rect t)).set ↔ _
  rw [View.set_slice_whole, Rect.mem_set_unit]
  exact Iff.rfl

/-- The 50 blocks tile the 100000 rows: row n lies in the block of point n / 2000. -/
theorem cover (i : S100000x64.Idx) :
    ∃ t : Fin cfg1.N, (cfg1.win 11).flush t = true ∧ i ∈ ((cfg1.win 11).blk t).view.set := by
  have hi0 : (i 0).val < 100000 := (i 0).isLt
  have hi1 : (i 1).val < 64 := (i 1).isLt
  have hN : cfg1.N = 50 := N_1
  have ht : (i 0).val / 2000 < cfg1.N := by rw [hN]; omega
  refine ⟨⟨(i 0).val / 2000, ht⟩, flush1_11 _, ?_⟩
  rw [mem_blk]
  obtain ⟨-, -, -, -, -, -, ⟨e0, e1⟩, -⟩ := idx_facts ⟨(i 0).val / 2000, ht⟩
  have e0' : win1_11.index ⟨(i 0).val / 2000, ht⟩ (0 : Fin 2) = (i 0).val / 2000 := e0
  intro a
  match a with
  | ⟨0, _⟩ =>
    show win1_11.index ⟨(i 0).val / 2000, ht⟩ (0 : Fin 2) * 2000 ≤ (i 0).val
      ∧ (i 0).val < win1_11.index ⟨(i 0).val / 2000, ht⟩ (0 : Fin 2) * 2000 + 2000
    omega
  | ⟨1, _⟩ =>
    show win1_11.index ⟨(i 0).val / 2000, ht⟩ (1 : Fin 2) * 64 ≤ (i 1).val
      ∧ (i 1).val < win1_11.index ⟨(i 0).val / 2000, ht⟩ (1 : Fin 2) * 64 + 64
    omega

/-- So the result array ends holding that function. -/
theorem final (c : Dev nD) : (dat1 V c).arrAt 11 cfg1.N = G V c :=
  (dat1 V c).arrAt_eq_of_cover 11 (G V c) (fun t _ => flushed_eq V c t) cover

/-- The result array after the run, at (n, j). -/
theorem out_apply (c : Dev nD) (n : Fin 100000) (j : Fin 64) :
    ((dat1 V c).arrAt 11 cfg1.N : S100000x64.Idx → EReal) (ix2 n j)
      = uAt V c n j * stAt V c n j + (Ideal.ofBits .f32 0x3F800000#32 - uAt V c n j) * cand V c n j :=
  congrFun (final V c) (ix2 n j)

end Cert.Gru.Region1

end
-- ==== Proof.LibGatherRows.lean ====
/-
  ROW GATHERS READ AT AN INDEX. A table of rows indexed along its first axis by a column of integer positions —
  `table[idx]`, a take along axis 0 — is a gather whose first operand axis is collapsed and start-indexed, whose
  remaining operand axes are the result's offset axes, whose start indices are an [E × 1] array with the index vector on
  axis 1, and which has no batching axes. Result row `e` is the table's row at position `idx[e, 0]`, read as a SIGNED
  integer and CLAMPED into [0, N − 1]: a negative position reads row 0, one past the end reads the last row. Stated for a
  table of rank 2 (rows of `C` entries) and of rank 3 (rows of `H × D` entries), for any dimension-numbers record
  whose fields are the ones above; and, for a position known to be in range, with the clamp gone.
-/
import Idealize.ShloMosaic.PureOps
import Idealize.ShloMosaic.Lib.ValueIdx

namespace Cert.Att.Lib

open Idealize.ShloMosaic Idealize.ShloMosaic.ValueIdx

/-- THE ROW GATHER, RANK 2. For an [N × C] table, an [E × 1] array of start indices and an [E × C] result, with the
    dimension numbers of a take along axis 0 (`hoff` … `hivd`: offset axis 1, collapsed axis 0, no operand batching axes,
    start index map [0], index vector on axis 1 — each closed by `rfl` at a literal record; the slice sizes and the
    start-indices batching axes are not needed, the record's own well-formedness gives what is used of them): the result
    at (e, c) is the table at (r, c), where r is the start index `idx[e, 0]` read signed and clamped into [0, N − 1]. -/
theorem gather_rows2 {α : Type} {N E C w : Nat} (d : GatherDims ⟨2, ![N, C]⟩ ⟨2, ![E, 1]⟩ ⟨2, ![E, C]⟩)
    (hoff : d.offsetDims = [1]) (hcoll : d.collapsedSliceDims = [0]) (hob : d.operandBatchingDims = [])
    (hsim : d.startIndexMap = [0]) (hivd : d.indexVectorDim = 1) (hN : 0 < N)
    (x : (⟨2, ![N, C]⟩ : Shape).Idx → α) (idx : IVec ⟨2, ![E, 1]⟩ w) (e : Fin E) (c : Fin C) :
    Host.gather d x idx (ix2 e c) = x (ix2 ⟨min (idx (ix2 e 0)).toInt.toNat (N - 1), by omega⟩ c) := by
  -- the collapsed axis has slice size 1, so the clamp is to N − 1
  have hsl : d.sliceSizes 0 = 1 := d.slice_collapsed 0 (by rw [hcoll]; exact List.mem_singleton.mpr rfl)
  -- with the record's fields substituted, every list of axes below is a literal and computes
  obtain ⟨off, coll, ob, sb, sim, ivd, ss, wf⟩ := d
  dsimp only at hoff hcoll hob hsim hivd hsl
  subst hoff hcoll hob hsim hivd
  unfold Host.gather
  congr 1
  funext a
  refine Fin.ext ?_
  match a with
  | ⟨0, _⟩ =>
    -- axis 0: start-indexed and collapsed; no batching coordinate, no offset coordinate
    show GatherDims.start _ (ix2 e c) idx 0 + GatherDims.batchCoord _ (ix2 e c) 0 + GatherDims.offCoord _ (ix2 e c) 0 = _
    rw [GatherDims.batchCoord_eq_zero _ _ _ List.not_mem_nil,
      GatherDims.offCoord_eq_zero _ _ _ (fun hm => ((GatherDims.mem_sKept _ _).mp hm).1 (List.mem_singleton.mpr rfl))]
    simp only [Nat.add_zero]
    unfold GatherDims.start
    rw [dif_pos (List.mem_singleton.mpr rfl)]
    show min (idx _).toInt.toNat (N - ss 0) = _
    rw [hsl]
    -- the start index is read at (e, 0): the result's batch axis 0 gives the row, the index vector has one component
    refine congrArg (fun z => min (idx z).toInt.toNat (N - 1)) ?_
    funext b
    refine Fin.ext ?_
    match b with
    | ⟨0, _⟩ => rfl
    | ⟨1, _⟩ => rfl
  | ⟨1, _⟩ =>
    -- axis 1: not start-indexed (start 0), not batching; its offset coordinate is the result's coordinate on axis 1
    show GatherDims.start _ (ix2 e c) idx 1 + GatherDims.batchCoord _ (ix2 e c) 1 + GatherDims.offCoord _ (ix2 e c) 1 = c.val
    rw [GatherDims.batchCoord_eq_zero _ _ _ List.not_mem_nil]
    unfold GatherDims.start
    rw [dif_neg (show (1 : Fin 2) ∉ ([0] : List (Fin 2)) by decide)]
    simp only [Nat.add_zero, Nat.zero_add]
    rfl

/-- THE ROW GATHER, RANK 2, AT A POSITION IN RANGE. When the start index `idx[e, 0]`, read signed, is the row number `n`
    of the table, the clamp does nothing: the result at (e, c) is the table at (n, c). -/
theorem gather_rows2_of_eq {α : Type} {N E C w : Nat} (d : GatherDims ⟨2, ![N, C]⟩ ⟨2, ![E, 1]⟩ ⟨2, ![E, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![E, 1]⟩ w) (e : Fin E) (c : Fin C)
    (n : Fin N) (hn : (idx (ix2 e 0)).toInt = (n.val : Int)) :
    Host.gather d x idx (ix2 e c) = x (ix2 n c) := by
  have hN : 0 < N := Nat.lt_of_le_of_lt (Nat.zero_le _) n.isLt
  rw [gather_rows2 d hoff hcoll hob hsim hivd hN x idx e c]
  have hrow : (⟨min (idx (ix2 e 0)).toInt.toNat (N - 1), by omega⟩ : Fin N) = n := by
    refine Fin.ext ?_
    show min (idx (ix2 e 0)).toInt.toNat (N - 1) = n.val
    have := n.isLt
    omega
  rw [hrow]

/-- THE ROW GATHER, RANK 3. For an [N × H × D] table, an [E × 1] array of start indices and an [E × H × D] result, with
    the dimension numbers of a take along axis 0 (`hoff` … `hivd`: offset axes 1 and 2, collapsed axis 0, no operand
    batching axes, start index map [0], index vector on axis 1 — each closed by `rfl` at a literal record): the result at
    (e, h, j) is the table at (r, h, j), where r is the start index `idx[e, 0]` read signed and clamped into [0, N − 1]. -/
theorem gather_rows3 {α : Type} {N H D E w : Nat} (d : GatherDims ⟨3, ![N, H, D]⟩ ⟨2, ![E, 1]⟩ ⟨3, ![E, H, D]⟩)
    (hoff : d.offsetDims = [1, 2]) (hcoll : d.collapsedSliceDims = [0]) (hob : d.operandBatchingDims = [])
    (hsim : d.startIndexMap = [0]) (hivd : d.indexVectorDim = 1) (hN : 0 < N)
    (x : (⟨3, ![N, H, D]⟩ : Shape).Idx → α) (idx : IVec ⟨2, ![E, 1]⟩ w) (e : Fin E) (h : Fin H) (j : Fin D) :
    Host.gather d x idx (ix3 e h j) = x (ix3 ⟨min (idx (ix2 e 0)).toInt.toNat (N - 1), by omega⟩ h j) := by
  have hsl : d.sliceSizes 0 = 1 := d.slice_collapsed 0 (by rw [hcoll]; exact List.mem_singleton.mpr rfl)
  obtain ⟨off, coll, ob, sb, sim, ivd, ss, wf⟩ := d
  dsimp only at hoff hcoll hob hsim hivd hsl
  subst hoff hcoll hob hsim hivd
  unfold Host.gather
  congr 1
  funext a
  refine Fin.ext ?_
  match a with
  | ⟨0, _⟩ =>
    -- axis 0: start-indexed and collapsed; no batching coordinate, no offset coordinate
    show GatherDims.start _ (ix3 e h j) idx 0 + GatherDims.batchCoord _ (ix3 e h j) 0 + GatherDims.offCoord _ (ix3 e h j) 0 = _
    rw [GatherDims.batchCoord_eq_zero _ _ _ List.not_mem_nil,
      GatherDims.offCoord_eq_zero _ _ _ (fun hm => ((GatherDims.mem_sKept _ _).mp hm).1 (List.mem_singleton.mpr rfl))]
    simp only [Nat.add_zero]
    unfold GatherDims.start
    rw [dif_pos (List.mem_singleton.mpr rfl)]
    show min (idx _).toInt.toNat (N - ss 0) = _
    rw [hsl]
    refine congrArg (fun z => min (idx z).toInt.toNat (N - 1)) ?_
    funext b
    refine Fin.ext ?_
    match b with
    | ⟨0, _⟩ => rfl
    | ⟨1, _⟩ => rfl
  | ⟨1, _⟩ =>
    -- axis 1: start 0, no batching; its offset coordinate is the result's coordinate on axis 1
    show GatherDims.start _ (ix3 e h j) idx 1 + GatherDims.batchCoord _ (ix3 e h j) 1 + GatherDims.offCoord _ (ix3 e h j) 1 = h.val
    rw [GatherDims.batchCoord_eq_zero _ _ _ List.not_mem_nil]
    unfold GatherDims.start
    rw [dif_neg (show (1 : Fin 3) ∉ ([0] : List (Fin 3)) by decide)]
    simp only [Nat.add_zero, Nat.zero_add]
    rfl
  | ⟨2, _⟩ =>
    -- axis 2: start 0, no batching; its offset coordinate is the result's coordinate on axis 2
    show GatherDims.start _ (ix3 e h j) idx 2 + GatherDims.batchCoord _ (ix3 e h j) 2 + GatherDims.offCoord _ (ix3 e h j) 2 = j.val
    rw [GatherDims.batchCoord_eq_zero _ _ _ List.not_mem_nil]
    unfold GatherDims.start
    rw [dif_neg (show (2 : Fin 3) ∉ ([0] : List (Fin 3)) by decide)]
    simp only [Nat.add_zero, Nat.zero_add]
    rfl

/-- THE ROW GATHER, RANK 3, AT A POSITION IN RANGE. When the start index `idx[e, 0]`, read signed, is the row number `n`
    of the table, the clamp does nothing: the result at (e, h, j) is the table at (n, h, j). -/
theorem gather_rows3_of_eq {α : Type} {N H D E w : Nat} (d : GatherDims ⟨3, ![N, H, D]⟩ ⟨2, ![E, 1]⟩ ⟨3, ![E, H, D]⟩)
    (hoff : d.offsetDims = [1, 2]) (hcoll : d.collapsedSliceDims = [0]) (hob : d.operandBatchingDims = [])
    (hsim : d.startIndexMap = [0]) (hivd : d.indexVectorDim = 1)
    (x : (⟨3, ![N, H, D]⟩ : Shape).Idx → α) (idx : IVec ⟨2, ![E, 1]⟩ w) (e : Fin E) (h : Fin H) (j : Fin D)
    (n : Fin N) (hn : (idx (ix2 e 0)).toInt = (n.val : Int)) :
    Host.gather d x idx (ix3 e h j) = x (ix3 n h j) := by
  have hN : 0 < N := Nat.lt_of_le_of_lt (Nat.zero_le _) n.isLt
  rw [gather_rows3 d hoff hcoll hob hsim hivd hN x idx e h j]
  have hrow : (⟨min (idx (ix2 e 0)).toInt.toNat (N - 1), by omega⟩ : Fin N) = n := by
    refine Fin.ext ?_
    show min (idx (ix2 e 0)).toInt.toNat (N - 1) = n.val
    have := n.isLt
    omega
  rw [hrow]

end Cert.Att.Lib
-- ==== Proof.LibScatterRows.lean ====
/-
  The host's accumulating scatter of ROWS, read at an index at the ideal instance.

  An operand of N rows, E update rows, and an [E, 1] array of row numbers: update row e is added
  onto operand row (row number of e). At the ideal instance the result at (n, c) is the operand's
  element plus the exact sum of the update elements (e, c) over the e whose row number is n.
  Stated for any dimension-numbers record whose fields are the row scatter's (window axes all
  but the first, first operand axis inserted and named by the one-component index vector), at
  rank 2 and rank 3, for row numbers known to be in range (given as a function into Fin N).
-/
import Idealize.ShloMosaic.PureOps
import Idealize.ShloMosaic.PureOps.Ideal
import Idealize.ShloMosaic.Lib.ValueIdx

open scoped BigOperators
open Idealize.ShloMosaic Idealize.ShloMosaic.ValueIdx

namespace Cert.Att.Lib

/-! ## Rank 2 -/

/-- The row scatter's window start and window coordinate on each operand axis, rank 2: the start
    on axis 0 is the row number read at (u 0, 0) and the window coordinate there is 0; on axis 1
    the start is 0 and the window coordinate is u's second coordinate. -/
theorem start_window_rows2 {N E C w : Nat} (d : ScatterDims ⟨2, ![N, C]⟩ ⟨2, ![E, 1]⟩ ⟨2, ![E, C]⟩)
    (huw : d.updateWindowDims = [1]) (hiw : d.insertedWindowDims = [0])
    (hsd : d.scatterDimsToOperandDims = [0]) (hivd : d.indexVectorDim = 1)
    (idx : IVec ⟨2, ![E, 1]⟩ w) (u : (⟨2, ![E, C]⟩ : Shape).Idx) :
    d.start u idx 0 = (idx (ix2 (u 0) 0)).toInt ∧ d.start u idx 1 = 0
    ∧ d.window u 0 = 0 ∧ d.window u 1 = (u 1).val := by
  obtain ⟨uw, iw, sd, ivd, wf⟩ := d
  dsimp only at huw hiw hsd hivd
  subst huw hiw hsd hivd
  refine ⟨?_, ?_, ?_, ?_⟩
  · unfold ScatterDims.start
    rw [dif_pos (show (0 : Fin 2) ∈ ([0] : List (Fin 2)) by decide)]
    congr 2
    funext b
    match b with
    | ⟨0, _⟩ => rfl
    | ⟨1, _⟩ => rfl
  · unfold ScatterDims.start
    rw [dif_neg (show (1 : Fin 2) ∉ ([0] : List (Fin 2)) by decide)]
  · unfold ScatterDims.window
    split
    · rename_i ha
      exact absurd ha (show (0 : Fin 2) ∉ (List.finRange 2).filter (fun a => a ∉ ([0] : List (Fin 2))) by decide)
    · rfl
  · unfold ScatterDims.window
    split
    · rfl
    · rename_i ha
      exact absurd (show (1 : Fin 2) ∈ (List.finRange 2).filter (fun a => a ∉ ([0] : List (Fin 2))) by decide) ha

/-- Under the row scatter's dimension numbers and in-range row numbers, update index u lands at
    (row number of u's row, u's column): never dropped. -/
theorem resultIdx?_rows2 {N E C w : Nat} (d : ScatterDims ⟨2, ![N, C]⟩ ⟨2, ![E, 1]⟩ ⟨2, ![E, C]⟩)
    (huw : d.updateWindowDims = [1]) (hiw : d.insertedWindowDims = [0])
    (hsd : d.scatterDimsToOperandDims = [0]) (hivd : d.indexVectorDim = 1)
    (idx : IVec ⟨2, ![E, 1]⟩ w) (dst : Fin E → Fin N)
    (hdst : ∀ e, (idx (ix2 e 0)).toInt = ((dst e).val : ℤ)) (u : (⟨2, ![E, C]⟩ : Shape).Idx) :
    d.resultIdx? u idx = some (ix2 (dst (u 0)) (u 1)) := by
  obtain ⟨h0, h1, hw0, hw1⟩ := start_window_rows2 d huw hiw hsd hivd idx u
  have hd : d.start u idx 0 = ((dst (u 0)).val : ℤ) := h0.trans (hdst (u 0))
  have hlt0 : (dst (u 0)).val < N := (dst (u 0)).isLt
  have hlt1 : (u 1).val < C := idx2_lt1 u
  have hcond : ∀ a, 0 ≤ d.start u idx a + d.window u a ∧
      d.start u idx a + d.window u a < (⟨2, ![N, C]⟩ : Shape).size a := by
    intro a
    match a with
    | ⟨0, _⟩ =>
      show 0 ≤ d.start u idx 0 + (d.window u 0 : ℤ) ∧ d.start u idx 0 + (d.window u 0 : ℤ) < (N : ℤ)
      rw [hd, hw0]
      omega
    | ⟨1, _⟩ =>
      show 0 ≤ d.start u idx 1 + (d.window u 1 : ℤ) ∧ d.start u idx 1 + (d.window u 1 : ℤ) < (C : ℤ)
      rw [h1, hw1]
      omega
  unfold ScatterDims.resultIdx?
  rw [dif_pos hcond]
  congr 1
  funext a
  match a with
  | ⟨0, _⟩ =>
    apply Fin.ext
    show (d.start u idx 0 + (d.window u 0 : ℤ)).toNat = (dst (u 0)).val
    rw [hd, hw0]
    omega
  | ⟨1, _⟩ =>
    apply Fin.ext
    show (d.start u idx 1 + (d.window u 1 : ℤ)).toNat = (u 1).val
    rw [h1, hw1]
    omega

/-- THE ROW SCATTER AT AN INDEX, rank 2. An accumulating scatter of E update rows of width C
    into an operand of N rows, row e going to the row whose number the [E, 1] index array holds
    at (e, 0) — numbers in range, `dst e` —, is at the ideal instance, at (n, c), the operand's
    element plus the exact sum of `upd (e, c)` over the rows e sent to n. -/
theorem scatterAdd_rows2 {N E C w : Nat} (d : ScatterDims ⟨2, ![N, C]⟩ ⟨2, ![E, 1]⟩ ⟨2, ![E, C]⟩)
    (huw : d.updateWindowDims = [1]) (hiw : d.insertedWindowDims = [0])
    (hsd : d.scatterDimsToOperandDims = [0]) (hivd : d.indexVectorDim = 1)
    (x : (⟨2, ![N, C]⟩ : Shape).Idx → EReal) (idx : IVec ⟨2, ![E, 1]⟩ w)
    (upd : (⟨2, ![E, C]⟩ : Shape).Idx → EReal)
    (dst : Fin E → Fin N) (hdst : ∀ e, (idx (ix2 e 0)).toInt = ((dst e).val : ℤ))
    (n : Fin N) (c : Fin C) :
    Ideal.hostScatterAdd d x idx upd (ix2 n c) =
      x (ix2 n c) + ∑ e ∈ Finset.univ.filter (fun e => dst e = n), upd (ix2 e c) := by
  unfold Ideal.hostScatterAdd
  congr 1
  symm
  refine Finset.sum_bij (fun e _ => ix2 e c) ?_ ?_ ?_ ?_
  · intro e he
    rw [Finset.mem_filter] at he ⊢
    refine ⟨Finset.mem_univ _, ?_⟩
    rw [resultIdx?_rows2 d huw hiw hsd hivd idx dst hdst]
    show some (ix2 (dst e) c) = some (ix2 n c)
    rw [he.2]
  · intro a _ b _ h
    exact congrFun h 0
  · intro u hu
    rw [Finset.mem_filter, resultIdx?_rows2 d huw hiw hsd hivd idx dst hdst] at hu
    have hu' := Option.some.inj hu.2
    have e0 : dst (u 0) = n := congrFun hu' 0
    have e1 : u 1 = c := congrFun hu' 1
    refine ⟨u 0, Finset.mem_filter.2 ⟨Finset.mem_univ _, e0⟩, ?_⟩
    rw [← e1]
    exact (eq_ix2 u).symm
  · intro e _
    rfl

/-! ## Rank 3 -/

/-- The row scatter's window start and window coordinate on each operand axis, rank 3: the start
    on axis 0 is the row number read at (u 0, 0) and the window coordinate there is 0; on axes 1
    and 2 the start is 0 and the window coordinate is u's coordinate on that axis. -/
theorem start_window_rows3 {N H D E w : Nat}
    (d : ScatterDims ⟨3, ![N, H, D]⟩ ⟨2, ![E, 1]⟩ ⟨3, ![E, H, D]⟩)
    (huw : d.updateWindowDims = [1, 2]) (hiw : d.insertedWindowDims = [0])
    (hsd : d.scatterDimsToOperandDims = [0]) (hivd : d.indexVectorDim = 1)
    (idx : IVec ⟨2, ![E, 1]⟩ w) (u : (⟨3, ![E, H, D]⟩ : Shape).Idx) :
    d.start u idx 0 = (idx (ix2 (u 0) 0)).toInt ∧ d.start u idx 1 = 0 ∧ d.start u idx 2 = 0
    ∧ d.window u 0 = 0 ∧ d.window u 1 = (u 1).val ∧ d.window u 2 = (u 2).val := by
  obtain ⟨uw, iw, sd, ivd, wf⟩ := d
  dsimp only at huw hiw hsd hivd
  subst huw hiw hsd hivd
  refine ⟨?_, ?_, ?_, ?_, ?_, ?_⟩
  · unfold ScatterDims.start
    rw [dif_pos (show (0 : Fin 3) ∈ ([0] : List (Fin 3)) by decide)]
    congr 2
    funext b
    match b with
    | ⟨0, _⟩ => rfl
    | ⟨1, _⟩ => rfl
  · unfold ScatterDims.start
    rw [dif_neg (show (1 : Fin 3) ∉ ([0] : List (Fin 3)) by decide)]
  · unfold ScatterDims.start
    rw [dif_neg (show (2 : Fin 3) ∉ ([0] : List (Fin 3)) by decide)]
  · unfold ScatterDims.window
    split
    · rename_i ha
      exact absurd ha (show (0 : Fin 3) ∉ (List.finRange 3).filter (fun a => a ∉ ([0] : List (Fin 3))) by decide)
    · rfl
  · unfold ScatterDims.window
    split
    · rfl
    · rename_i ha
      exact absurd (show (1 : Fin 3) ∈ (List.finRange 3).filter (fun a => a ∉ ([0] : List (Fin 3))) by decide) ha
  · unfold ScatterDims.window
    split
    · rfl
    · rename_i ha
      exact absurd (show (2 : Fin 3) ∈ (List.finRange 3).filter (fun a => a ∉ ([0] : List (Fin 3))) by decide) ha

/-- Under the row scatter's dimension numbers and in-range row numbers, rank 3, update index u
    lands at (row number of u's row, u's second coordinate, u's third): never dropped. -/
theorem resultIdx?_rows3 {N H D E w : Nat}
    (d : ScatterDims ⟨3, ![N, H, D]⟩ ⟨2, ![E, 1]⟩ ⟨3, ![E, H, D]⟩)
    (huw : d.updateWindowDims = [1, 2]) (hiw : d.insertedWindowDims = [0])
    (hsd : d.scatterDimsToOperandDims = [0]) (hivd : d.indexVectorDim = 1)
    (idx : IVec ⟨2, ![E, 1]⟩ w) (dst : Fin E → Fin N)
    (hdst : ∀ e, (idx (ix2 e 0)).toInt = ((dst e).val : ℤ)) (u : (⟨3, ![E, H, D]⟩ : Shape).Idx) :
    d.resultIdx? u idx = some (ix3 (dst (u 0)) (u 1) (u 2)) := by
  obtain ⟨h0, h1, h2, hw0, hw1, hw2⟩ := start_window_rows3 d huw hiw hsd hivd idx u
  have hd : d.start u idx 0 = ((dst (u 0)).val : ℤ) := h0.trans (hdst (u 0))
  have hlt0 : (dst (u 0)).val < N := (dst (u 0)).isLt
  have hlt1 : (u 1).val < H := (u 1).isLt
  have hlt2 : (u 2).val < D := (u 2).isLt
  have hcond : ∀ a, 0 ≤ d.start u idx a + d.window u a ∧
      d.start u idx a + d.window u a < (⟨3, ![N, H, D]⟩ : Shape).size a := by
    intro a
    match a with
    | ⟨0, _⟩ =>
      show 0 ≤ d.start u idx 0 + (d.window u 0 : ℤ) ∧ d.start u idx 0 + (d.window u 0 : ℤ) < (N : ℤ)
      rw [hd, hw0]
      omega
    | ⟨1, _⟩ =>
      show 0 ≤ d.start u idx 1 + (d.window u 1 : ℤ) ∧ d.start u idx 1 + (d.window u 1 : ℤ) < (H : ℤ)
      rw [h1, hw1]
      omega
    | ⟨2, _⟩ =>
      show 0 ≤ d.start u idx 2 + (d.window u 2 : ℤ) ∧ d.start u idx 2 + (d.window u 2 : ℤ) < (D : ℤ)
      rw [h2, hw2]
      omega
  unfold ScatterDims.resultIdx?
  rw [dif_pos hcond]
  congr 1
  funext a
  match a with
  | ⟨0, _⟩ =>
    apply Fin.ext
    show (d.start u idx 0 + (d.window u 0 : ℤ)).toNat = (dst (u 0)).val
    rw [hd, hw0]
    omega
  | ⟨1, _⟩ =>
    apply Fin.ext
    show (d.start u idx 1 + (d.window u 1 : ℤ)).toNat = (u 1).val
    rw [h1, hw1]
    omega
  | ⟨2, _⟩ =>
    apply Fin.ext
    show (d.start u idx 2 + (d.window u 2 : ℤ)).toNat = (u 2).val
    rw [h2, hw2]
    omega

/-- THE ROW SCATTER AT AN INDEX, rank 3. An accumulating scatter of E update rows, each an H by D
    block, into an operand of N such rows, row e going to the row whose number the [E, 1] index
    array holds at (e, 0) — numbers in range, `dst e` —, is at the ideal instance, at (n, h, j),
    the operand's element plus the exact sum of `upd (e, h, j)` over the rows e sent to n. -/
theorem scatterAdd_rows3 {N H D E w : Nat}
    (d : ScatterDims ⟨3, ![N, H, D]⟩ ⟨2, ![E, 1]⟩ ⟨3, ![E, H, D]⟩)
    (huw : d.updateWindowDims = [1, 2]) (hiw : d.insertedWindowDims = [0])
    (hsd : d.scatterDimsToOperandDims = [0]) (hivd : d.indexVectorDim = 1)
    (x : (⟨3, ![N, H, D]⟩ : Shape).Idx → EReal) (idx : IVec ⟨2, ![E, 1]⟩ w)
    (upd : (⟨3, ![E, H, D]⟩ : Shape).Idx → EReal)
    (dst : Fin E → Fin N) (hdst : ∀ e, (idx (ix2 e 0)).toInt = ((dst e).val : ℤ))
    (n : Fin N) (h : Fin H) (j : Fin D) :
    Ideal.hostScatterAdd d x idx upd (ix3 n h j) =
      x (ix3 n h j) + ∑ e ∈ Finset.univ.filter (fun e => dst e = n), upd (ix3 e h j) := by
  unfold Ideal.hostScatterAdd
  congr 1
  symm
  refine Finset.sum_bij (fun e _ => ix3 e h j) ?_ ?_ ?_ ?_
  · intro e he
    rw [Finset.mem_filter] at he ⊢
    refine ⟨Finset.mem_univ _, ?_⟩
    rw [resultIdx?_rows3 d huw hiw hsd hivd idx dst hdst]
    show some (ix3 (dst e) h j) = some (ix3 n h j)
    rw [he.2]
  · intro a _ b _ hab
    exact congrFun hab 0
  · intro u hu
    rw [Finset.mem_filter, resultIdx?_rows3 d huw hiw hsd hivd idx dst hdst] at hu
    have hu' := Option.some.inj hu.2
    have e0 : dst (u 0) = n := congrFun hu' 0
    have e1 : u 1 = h := congrFun hu' 1
    have e2 : u 2 = j := congrFun hu' 2
    refine ⟨u 0, Finset.mem_filter.2 ⟨Finset.mem_univ _, e0⟩, ?_⟩
    rw [← e1, ← e2]
    exact (eq_ix3 u).symm
  · intro e _
    rfl

end Cert.Att.Lib
-- ==== Proof.LibScatterDrop.lean ====
/-
  The host's accumulating scatter of ROWS, read at an index at the ideal instance, for ARBITRARY row numbers.

  An operand of N rows of C entries, E update rows, and an [E, 1] array of row numbers, each any machine word read as a
  signed integer. Update row e is added onto the operand row whose number it carries when that number lies in
  [0, N − 1]; an update whose row number lies outside that range lands outside the operand and is dropped. So the
  result at (n, c) is the operand's element plus the exact sum of the update elements (e, c) over exactly those e whose
  row number, read signed, equals n: no range hypothesis is needed, the equality with n < N already carries it.
-/
import Idealize.ShloMosaic.PureOps
import Idealize.ShloMosaic.PureOps.Ideal
import Idealize.ShloMosaic.Lib.ValueIdx
import proofs.«108189_j27101243638400_1_alg».proof.Proof.LibScatterRows

open scoped BigOperators
open Idealize.ShloMosaic Idealize.ShloMosaic.ValueIdx

namespace Cert.Lib

/-- WHERE AN UPDATE LANDS, for any row number. Under the row scatter's dimension numbers (window axis 1 of the
    updates, operand axis 0 inserted and named by the one-component index vector on axis 1 of the index array), update
    index u lands at operand index (n, c) exactly when the row number read signed at (u 0, 0) is n and u's column is c.
    A row number that is negative or at least N makes the left side `none` (the update is dropped) and the right side
    false, since n < N. -/
theorem resultIdx?_rows2_any {N E C w : ℕ} (d : ScatterDims ⟨2, ![N, C]⟩ ⟨2, ![E, 1]⟩ ⟨2, ![E, C]⟩)
    (huw : d.updateWindowDims = [1]) (hiw : d.insertedWindowDims = [0])
    (hsd : d.scatterDimsToOperandDims = [0]) (hivd : d.indexVectorDim = 1)
    (idx : IVec ⟨2, ![E, 1]⟩ w) (u : (⟨2, ![E, C]⟩ : Shape).Idx) (n : Fin N) (c : Fin C) :
    d.resultIdx? u idx = some (ix2 n c) ↔ ((idx (ix2 (u 0) 0)).toInt = (n.val : ℤ) ∧ u 1 = c) := by
  -- start and window coordinate on each operand axis: (row number, 0) and (0, column)
  obtain ⟨h0, h1, hw0, hw1⟩ := Cert.Att.Lib.start_window_rows2 d huw hiw hsd hivd idx u
  have hlt0 : n.val < N := n.isLt
  have hlt1 : (u 1).val < C := idx2_lt1 u
  have hltc : c.val < C := c.isLt
  unfold ScatterDims.resultIdx?
  by_cases hcond : ∀ a, 0 ≤ d.start u idx a + d.window u a ∧
      d.start u idx a + d.window u a < (⟨2, ![N, C]⟩ : Shape).size a
  · -- the update lands inside the operand: compare the landing index with (n, c) coordinate by coordinate
    rw [dif_pos hcond]
    have hc0 : 0 ≤ d.start u idx 0 + (d.window u 0 : ℤ) ∧ d.start u idx 0 + (d.window u 0 : ℤ) < (N : ℤ) := hcond 0
    rw [h0, hw0] at hc0
    constructor
    · intro h
      have h' := Option.some.inj h
      have e0 : (d.start u idx 0 + (d.window u 0 : ℤ)).toNat = n.val := congrArg Fin.val (congrFun h' 0)
      have e1 : (d.start u idx 1 + (d.window u 1 : ℤ)).toNat = c.val := congrArg Fin.val (congrFun h' 1)
      rw [h0, hw0] at e0
      rw [h1, hw1] at e1
      exact ⟨by omega, Fin.ext (by omega)⟩
    · rintro ⟨e0, e1⟩
      congr 1
      funext a
      match a with
      | ⟨0, _⟩ =>
        apply Fin.ext
        show (d.start u idx 0 + (d.window u 0 : ℤ)).toNat = n.val
        rw [h0, hw0, e0]
        omega
      | ⟨1, _⟩ =>
        apply Fin.ext
        show (d.start u idx 1 + (d.window u 1 : ℤ)).toNat = c.val
        rw [h1, hw1, ← e1]
        omega
  · -- the update is dropped: then its row number cannot be n, for n < N would put it inside
    rw [dif_neg hcond]
    constructor
    · intro h
      exact absurd h (by simp)
    · rintro ⟨e0, _⟩
      exfalso
      apply hcond
      intro a
      match a with
      | ⟨0, _⟩ =>
        show 0 ≤ d.start u idx 0 + (d.window u 0 : ℤ) ∧ d.start u idx 0 + (d.window u 0 : ℤ) < (N : ℤ)
        rw [h0, hw0, e0]
        omega
      | ⟨1, _⟩ =>
        show 0 ≤ d.start u idx 1 + (d.window u 1 : ℤ) ∧ d.start u idx 1 + (d.window u 1 : ℤ) < (C : ℤ)
        rw [h1, hw1]
        omega

/-- THE ROW SCATTER AT AN INDEX, for any row numbers. An accumulating scatter of E update rows of width C into an
    operand of N rows, row e aimed at the row whose number the [E, 1] index array holds at (e, 0), is at the ideal
    instance, at (n, c), the operand's element plus the exact sum of `upd (e, c)` over the rows e whose number, read
    signed, is n. Rows aimed outside [0, N − 1] appear in no such sum: they are dropped. -/
theorem scatterAdd_rows2_any {N E C w : ℕ} (d : ScatterDims ⟨2, ![N, C]⟩ ⟨2, ![E, 1]⟩ ⟨2, ![E, C]⟩)
    (huw : d.updateWindowDims = [1]) (hiw : d.insertedWindowDims = [0])
    (hsd : d.scatterDimsToOperandDims = [0]) (hivd : d.indexVectorDim = 1)
    (x : (⟨2, ![N, C]⟩ : Shape).Idx → EReal) (idx : IVec ⟨2, ![E, 1]⟩ w)
    (upd : (⟨2, ![E, C]⟩ : Shape).Idx → EReal) (n : Fin N) (c : Fin C) :
    Ideal.hostScatterAdd d x idx upd (ix2 n c) =
      x (ix2 n c) + ∑ e ∈ Finset.univ.filter (fun e : Fin E => (idx (ix2 e 0)).toInt = (n.val : ℤ)),
        upd (ix2 e c) := by
  unfold Ideal.hostScatterAdd
  congr 1
  symm
  -- the update indices landing at (n, c) are the (e, c) with e aimed at n: a bijection e ↦ (e, c)
  refine Finset.sum_bij (fun e _ => ix2 e c) ?_ ?_ ?_ ?_
  · intro e he
    rw [Finset.mem_filter] at he ⊢
    exact ⟨Finset.mem_univ _, (resultIdx?_rows2_any d huw hiw hsd hivd idx (ix2 e c) n c).2 ⟨he.2, rfl⟩⟩
  · intro a _ b _ h
    exact congrFun h 0
  · intro u hu
    rw [Finset.mem_filter] at hu
    obtain ⟨e0, e1⟩ := (resultIdx?_rows2_any d huw hiw hsd hivd idx u n c).1 hu.2
    refine ⟨u 0, Finset.mem_filter.2 ⟨Finset.mem_univ _, e0⟩, ?_⟩
    rw [← e1]
    exact (eq_ix2 u).symm
  · intro e _
    rfl

/-- The accumulating scatter as a program spells it is, at the ideal instance, the exact-sum scatter above (the
    schedule key plays no part there). -/
theorem scatterAdd_ideal {φ : FTy} {s si u : Shape} {w : ℕ} (d : ScatterDims s si u) (x : FVec Ideal s φ)
    (idx : IVec si w) (upd : FVec Ideal u φ) :
    Host.scatterAdd (F := Ideal) d x idx upd = Ideal.hostScatterAdd d x idx upd := rfl

end Cert.Lib
-- ==== Proof.Host0.lean ====
/-
  The arrays the gate region is entered with, read at an index.

  Before the first kernel region the program counts the in-degree, takes the reciprocal of its maximum with one as a
  column, gathers the input rows and the state rows at the edges' sources, adds them up by destination and scales by the
  reciprocal column; it cuts the two gate weight matrices into their 64-row halves and adds the two gate bias vectors
  into one row. The node arrays themselves are the arguments, untouched.
-/
import proofs.«108189_j27101243638400_1_alg».proof.Proof.Gen.KernelIdeal.Frame
import proofs.«108189_j27101243638400_1_alg».proof.Proof.Spec
import proofs.«108189_j27101243638400_1_alg».proof.Proof.KArgs
import proofs.«108189_j27101243638400_1_alg».proof.Proof.LibGatherRows
import proofs.«108189_j27101243638400_1_alg».proof.Proof.LibScatterDrop
import proofs.«108189_j27101243638400_1_alg».proof.Proof.LibRowBias
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

open scoped BigOperators
open Idealize.ShloMosaic Idealize.ShloMosaic.TcCoe Idealize.SL.Sem Idealize.ShloMosaic.ValueIdx

namespace Cert.Gru.Host0

open Cert.KernelIdeal Cert.KernelIdeal.Gen Cert.KernelIdeal.Facts₀

variable (m : (ℓ : Loc nD τ sig) → Buf (Elt Ideal) ℓ) (ρ : Dev nD → PrngReg) (c : Dev nD)

/-! ## The pieces of the host stretch, as terms over their operands -/

/-- The word for one, as a scalar. -/
private abbrev oneS : FVec Ideal S_ .f32 := constant (F := Ideal) S_ .f32 0x3F800000#32
/-- The word for zero, as a scalar. -/
private abbrev zeroS : FVec Ideal S_ .f32 := constant (F := Ideal) S_ .f32 0x00000000#32

/-- The reciprocal column as the program computes it: one over the maximum of the count with one, per node, laid out
    as a column. -/
private def recipCol : S100000x1.Idx → EReal :=
  broadcastInDim S100000x1 ![0] Gen.bcast_S100000_S100000x1_0
    (Host.divf (F := Ideal) (φ := .f32) (broadcastInDim S100000 ![] Gen.bcast_S_S100000 oneS)
      (maximumf (F := Ideal) (φ := .f32) (Cert.Gru.K.deg m c) (broadcastInDim S100000 ![] Gen.bcast_S_S100000 oneS)))

/-- The aggregate of a node array as the program computes it: its rows gathered at the edges' sources, added up by
    destination onto zeros, times the reciprocal column spread over the 64 entries of a row. -/
private def aggArr (X : S100000x64.Idx → EReal) : S100000x64.Idx → EReal :=
  mulf (F := Ideal) (φ := .f32)
    (Host.scatterAdd (F := Ideal) (φ := .f32) scatter_S100000x64_S1600000x1_S1600000x64_1_0_0_1
      (broadcastInDim S100000x64 ![] Gen.bcast_S_S100000x64 zeroS)
      (Cert.Gru.K.didx m c)
      (Host.gather gather_S100000x64_S1600000x1_S1600000x64_1_0_n_n_0_1_164 X (Cert.Gru.K.sidx m c)))
    (broadcastInDim S100000x64 ![0, 1] Gen.bcast_S100000x1_S100000x64_0_1 (recipCol m c))

/-! ## What the stretch leaves in each buffer the region reads -/

/-- The input features reach the region as launched. -/
theorem arg0_eq : V1 m ρ c main_arg0 = m ((c.tc : Thread nD τ).loc main_arg0) := by
  show StableHlo.after hostOps0 (W0 m ρ c) (Proc.devRef .tc main_arg0) = _
  refine (StableHlo.after_of_forall_not_mem (b := Proc.devRef .tc main_arg0) _ _ (List.forall_iff_forall_mem.mp (by
    simp only [hostOps0, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))).trans ?_
  rfl

/-- The state reaches the region as launched. -/
theorem arg1_eq : V1 m ρ c main_arg1 = m ((c.tc : Thread nD τ).loc main_arg1) := by
  show StableHlo.after hostOps0 (W0 m ρ c) (Proc.devRef .tc main_arg1) = _
  refine (StableHlo.after_of_forall_not_mem (b := Proc.devRef .tc main_arg1) _ _ (List.forall_iff_forall_mem.mp (by
    simp only [hostOps0, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))).trans ?_
  rfl

/-- The reciprocal column's buffer holds the program's term for it. -/
private theorem v8_term : (V1 m ρ c main_v8 : S100000x1.Idx → EReal) = recipCol m c := by
  show StableHlo.after hostOps0 (W0 m ρ c) (Proc.devRef .tc main_v8) = _
  after_results_simp <;> rfl

/-- The aggregated input features' buffer holds the aggregate of the input argument. -/
private theorem v20_term :
    (V1 m ρ c main_v20 : S100000x64.Idx → EReal) = aggArr m c (m ((c.tc : Thread nD τ).loc main_arg0)) := by
  show StableHlo.after hostOps0 (W0 m ρ c) (Proc.devRef .tc main_v20) = _
  after_results_simp <;> rfl

/-- The aggregated state's buffer holds the aggregate of the state argument. -/
private theorem v32_term :
    (V1 m ρ c main_v32 : S100000x64.Idx → EReal) = aggArr m c (m ((c.tc : Thread nD τ).loc main_arg1)) := by
  show StableHlo.after hostOps0 (W0 m ρ c) (Proc.devRef .tc main_v32) = _
  after_results_simp <;> rfl

/-- The four weight halves' buffers hold slices of the two weight arguments. -/
private theorem v33_term : (V1 m ρ c main_v33 : S64x128.Idx → EReal)
    = extractStridedSlice S64x128 ![0, 0] (m ((c.tc : Thread nD τ).loc main_arg4) : S128x128.Idx → EReal)
        Gen.slices_S128x128_S64x128_0_0 := by
  show StableHlo.after hostOps0 (W0 m ρ c) (Proc.devRef .tc main_v33) = _
  after_results_simp <;> rfl

private theorem v34_term : (V1 m ρ c main_v34 : S64x128.Idx → EReal)
    = extractStridedSlice S64x128 ![64, 0] (m ((c.tc : Thread nD τ).loc main_arg4) : S128x128.Idx → EReal)
        Gen.slices_S128x128_S64x128_64_0 := by
  show StableHlo.after hostOps0 (W0 m ρ c) (Proc.devRef .tc main_v34) = _
  after_results_simp <;> rfl

private theorem v35_term : (V1 m ρ c main_v35 : S64x128.Idx → EReal)
    = extractStridedSlice S64x128 ![0, 0] (m ((c.tc : Thread nD τ).loc main_arg5) : S128x128.Idx → EReal)
        Gen.slices_S128x128_S64x128_0_0 := by
  show StableHlo.after hostOps0 (W0 m ρ c) (Proc.devRef .tc main_v35) = _
  after_results_simp <;> rfl

private theorem v36_term : (V1 m ρ c main_v36 : S64x128.Idx → EReal)
    = extractStridedSlice S64x128 ![64, 0] (m ((c.tc : Thread nD τ).loc main_arg5) : S128x128.Idx → EReal)
        Gen.slices_S128x128_S64x128_64_0 := by
  show StableHlo.after hostOps0 (W0 m ρ c) (Proc.devRef .tc main_v36) = _
  after_results_simp <;> rfl

/-- The bias row's buffer holds the sum of the two bias arguments, laid out as one row. -/
private theorem v38_term : (V1 m ρ c main_v38 : S1x128.Idx → EReal)
    = shapeCast S1x128 (addf (F := Ideal) (φ := .f32) (m ((c.tc : Thread nD τ).loc main_arg6) : S128.Idx → EReal)
        (m ((c.tc : Thread nD τ).loc main_arg10) : S128.Idx → EReal)) Gen.shapeCasts_S128_S1x128 := by
  show StableHlo.after hostOps0 (W0 m ρ c) (Proc.devRef .tc main_v38) = _
  after_results_simp <;> rfl

/-! ## The pieces read at an index, over any operands -/

/-- A column spread over the 64 entries of a row holds at (n, k) its entry (n, 0). -/
private theorem col_apply (X : S100000x1.Idx → EReal) (n : Fin 100000) (k : Fin 64) :
    broadcastInDim S100000x64 ![0, 1] Gen.bcast_S100000x1_S100000x64_0_1 X (ix2 n k) = X (ix2 n (0 : Fin 1)) :=
  broadcastInDim_apply ![0, 1] Gen.bcast_S100000x1_S100000x64_0_1 X (ix2 n k) (ix2 n (0 : Fin 1))
    fun a => match a with
    | ⟨0, _⟩ => by
        show n.val = if (100000 : ℕ) = 1 then 0 else n.val
        rw [if_neg (by omega)]
    | ⟨1, _⟩ => by
        show (0 : ℕ) = if (1 : ℕ) = 1 then 0 else k.val
        rw [if_pos rfl]

/-- A scalar s over the maximum of a vector D with s, entry by entry, laid out as a column: at (n, 0) it is
    s / max (D n) s. -/
private theorem recipOf_apply (D : FVec Ideal S100000 .f32) (s : FVec Ideal S_ .f32) (n : Fin 100000) :
    broadcastInDim S100000x1 ![0] Gen.bcast_S100000_S100000x1_0
        (Host.divf (F := Ideal) (φ := .f32) (broadcastInDim S100000 ![] Gen.bcast_S_S100000 s)
          (maximumf (F := Ideal) (φ := .f32) D (broadcastInDim S100000 ![] Gen.bcast_S_S100000 s))) (ix2 n (0 : Fin 1))
      = Ideal.div (s ix0) (max (D (ix1 n)) (s ix0)) := by
  -- the column holds at (n, 0) the vector's entry n
  refine (broadcastInDim_apply ![0] Gen.bcast_S100000_S100000x1_0 _ (ix2 n (0 : Fin 1)) (ix1 n) fun a => match a with
    | ⟨0, _⟩ => by
        show n.val = if (100000 : ℕ) = 1 then 0 else n.val
        rw [if_neg (by omega)]).trans ?_
  -- the quotient and the maximum are entry by entry; a splat holds its scalar everywhere
  show Ideal.div (broadcastInDim S100000 ![] Gen.bcast_S_S100000 s (ix1 n))
      (max (D (ix1 n)) (broadcastInDim S100000 ![] Gen.bcast_S_S100000 s (ix1 n))) = _
  rw [Cert.RowBias.splat_apply]

/-- Rows of X gathered at the sources, added up by destination onto a splat of the scalar z, times a column spread over
    the rows: at (n, k) it is z plus the sum over the edges aimed at n of X's row at the edge's source (read signed and
    clamped), times the column's entry n. An edge whose destination word is no node number is in no such sum. -/
private theorem aggOf_apply (X : S100000x64.Idx → EReal) (sidx didx : IVec S1600000x1 32) (z : FVec Ideal S_ .f32)
    (col : S100000x1.Idx → EReal) (n : Fin 100000) (k : Fin 64) :
    mulf (F := Ideal) (φ := .f32)
        (Host.scatterAdd (F := Ideal) (φ := .f32) scatter_S100000x64_S1600000x1_S1600000x64_1_0_0_1
          (broadcastInDim S100000x64 ![] Gen.bcast_S_S100000x64 z) didx
          (Host.gather gather_S100000x64_S1600000x1_S1600000x64_1_0_n_n_0_1_164 X sidx))
        (broadcastInDim S100000x64 ![0, 1] Gen.bcast_S100000x1_S100000x64_0_1 col) (ix2 n k)
      = (z ix0 + ∑ e ∈ Finset.univ.filter (fun e : Fin 1600000 => (didx (ix2 e 0)).toInt = (n.val : ℤ)),
          X (ix2 (Cert.Gru.rowOf sidx e) k)) * col (ix2 n (0 : Fin 1)) := by
  -- the operand of the scatter holds the scalar everywhere
  have h1 : broadcastInDim S100000x64 ![] Gen.bcast_S_S100000x64 z (ix2 n k) = z ix0 :=
    Cert.RowBias.splat_apply z Gen.bcast_S_S100000x64 (ix2 n k)
  -- a gathered row is the array's row at the edge's source, read signed and clamped
  have h2 : ∀ e : Fin 1600000,
      Host.gather gather_S100000x64_S1600000x1_S1600000x64_1_0_n_n_0_1_164 X sidx (ix2 e k)
        = X (ix2 (Cert.Gru.rowOf sidx e) k) := fun e =>
    Cert.Att.Lib.gather_rows2 (N := 100000) (E := 1600000) (C := 64)
      gather_S100000x64_S1600000x1_S1600000x64_1_0_n_n_0_1_164 rfl rfl rfl rfl rfl (by norm_num) X sidx e k
  -- the product is entry by entry, and the program's accumulating scatter is the exact-sum one
  show Ideal.hostScatterAdd scatter_S100000x64_S1600000x1_S1600000x64_1_0_0_1
        (broadcastInDim S100000x64 ![] Gen.bcast_S_S100000x64 z) didx
        (Host.gather gather_S100000x64_S1600000x1_S1600000x64_1_0_n_n_0_1_164 X sidx) (ix2 n k)
      * broadcastInDim S100000x64 ![0, 1] Gen.bcast_S100000x1_S100000x64_0_1 col (ix2 n k) = _
  rw [Cert.Lib.scatterAdd_rows2_any (N := 100000) (E := 1600000) (C := 64)
        scatter_S100000x64_S1600000x1_S1600000x64_1_0_0_1 rfl rfl rfl rfl, h1, col_apply]
  exact congrArg (fun s => (z ix0 + s) * col (ix2 n (0 : Fin 1))) (Finset.sum_congr rfl fun e _ => h2 e)

/-! ## The program's pieces read at an index -/

/-- The scalar for one holds the word for one. -/
private theorem oneS_apply : oneS ix0 = Ideal.ofBits .f32 0x3F800000#32 := rfl
/-- The scalar for zero holds the word for zero. -/
private theorem zeroS_apply : zeroS ix0 = Ideal.ofBits .f32 0x00000000#32 := rfl

/-- The reciprocal column at node n: the word for one over the clamped degree. -/
private theorem recipCol_apply (n : Fin 100000) :
    recipCol m c (ix2 n (0 : Fin 1)) = Ideal.div (Ideal.ofBits .f32 0x3F800000#32) (Cert.Gru.K.dmax m c n) := by
  unfold recipCol Cert.Gru.K.dmax
  rw [recipOf_apply (Cert.Gru.K.deg m c) oneS n, oneS_apply]

/-- The aggregate at (n, k): the zero word plus the sum over the edges aimed at n of the array's row at the edge's
    source, times the reciprocal of the clamped degree. -/
private theorem aggArr_apply (X : S100000x64.Idx → EReal) (n : Fin 100000) (k : Fin 64) :
    aggArr m c X (ix2 n k)
      = Cert.Gru.agg (Cert.Gru.K.sidx m c) (Cert.Gru.K.didx m c) (Cert.Gru.K.dmax m c) (fun n k => X (ix2 n k)) n k := by
  unfold aggArr Cert.Gru.agg Cert.Gru.nsum
  rw [aggOf_apply X (Cert.Gru.K.sidx m c) (Cert.Gru.K.didx m c) zeroS (recipCol m c) n k, recipCol_apply m c n,
    zeroS_apply]

/-- Rows 0 … 63 of a 128-row matrix, cut out as a slice. -/
private theorem sliceLo_apply (X : S128x128.Idx → EReal) (a : Fin 64) (j : Fin 128) :
    extractStridedSlice S64x128 ![0, 0] X Gen.slices_S128x128_S64x128_0_0 (ix2 a j)
      = Cert.Gru.lo (fun k j => X (ix2 k j)) a j :=
  extractStridedSlice_apply ![0, 0] X Gen.slices_S128x128_S64x128_0_0 (ix2 a j) (ix2 (⟨a.val, by omega⟩ : Fin 128) j)
    fun b => match b with
    | ⟨0, _⟩ => by show a.val = 0 + a.val; omega
    | ⟨1, _⟩ => by show j.val = 0 + j.val; omega

/-- Rows 64 … 127 of a 128-row matrix, cut out as a slice. -/
private theorem sliceHi_apply (X : S128x128.Idx → EReal) (a : Fin 64) (j : Fin 128) :
    extractStridedSlice S64x128 ![64, 0] X Gen.slices_S128x128_S64x128_64_0 (ix2 a j)
      = Cert.Gru.hi (fun k j => X (ix2 k j)) a j :=
  extractStridedSlice_apply ![64, 0] X Gen.slices_S128x128_S64x128_64_0 (ix2 a j) (ix2 (⟨64 + a.val, by omega⟩ : Fin 128) j)
    fun b => match b with
    | ⟨0, _⟩ => by show 64 + a.val = 64 + a.val; rfl
    | ⟨1, _⟩ => by show j.val = 0 + j.val; omega

/-! ## The region's entry arrays at an index -/

/-- The reciprocal column: 1 / max(degree, 1) at node n. -/
theorem v8_apply (n : Fin 100000) :
    (V1 m ρ c main_v8 : S100000x1.Idx → EReal) (ix2 n (0 : Fin 1))
      = Ideal.div (Ideal.ofBits .f32 0x3F800000#32) (Cert.Gru.K.dmax m c n) :=
  (congrFun (v8_term m ρ c) (ix2 n (0 : Fin 1))).trans (recipCol_apply m c n)

/-- The aggregated input features at (n, k). -/
theorem v20_apply (n : Fin 100000) (k : Fin 64) :
    (V1 m ρ c main_v20 : S100000x64.Idx → EReal) (ix2 n k)
      = Cert.Gru.agg (Cert.Gru.K.sidx m c) (Cert.Gru.K.didx m c) (Cert.Gru.K.dmax m c) (Cert.Gru.K.inp m c) n k :=
  (congrFun (v20_term m ρ c) (ix2 n k)).trans (aggArr_apply m c _ n k)

/-- The aggregated state at (n, k). -/
theorem v32_apply (n : Fin 100000) (k : Fin 64) :
    (V1 m ρ c main_v32 : S100000x64.Idx → EReal) (ix2 n k)
      = Cert.Gru.agg (Cert.Gru.K.sidx m c) (Cert.Gru.K.didx m c) (Cert.Gru.K.dmax m c) (Cert.Gru.K.st m c) n k :=
  (congrFun (v32_term m ρ c) (ix2 n k)).trans (aggArr_apply m c _ n k)

/-- The gate's self weights, rows 0 … 63. -/
theorem v33_apply (a : Fin 64) (j : Fin 128) :
    (V1 m ρ c main_v33 : S64x128.Idx → EReal) (ix2 a j) = Cert.Gru.lo (Cert.Gru.K.Wgs m c) a j :=
  (congrFun (v33_term m ρ c) (ix2 a j)).trans (sliceLo_apply _ a j)

/-- The gate's self weights, rows 64 … 127. -/
theorem v34_apply (a : Fin 64) (j : Fin 128) :
    (V1 m ρ c main_v34 : S64x128.Idx → EReal) (ix2 a j) = Cert.Gru.hi (Cert.Gru.K.Wgs m c) a j :=
  (congrFun (v34_term m ρ c) (ix2 a j)).trans (sliceHi_apply _ a j)

/-- The gate's neighbour weights, rows 0 … 63. -/
theorem v35_apply (a : Fin 64) (j : Fin 128) :
    (V1 m ρ c main_v35 : S64x128.Idx → EReal) (ix2 a j) = Cert.Gru.lo (Cert.Gru.K.Wgn m c) a j :=
  (congrFun (v35_term m ρ c) (ix2 a j)).trans (sliceLo_apply _ a j)

/-- The gate's neighbour weights, rows 64 … 127. -/
theorem v36_apply (a : Fin 64) (j : Fin 128) :
    (V1 m ρ c main_v36 : S64x128.Idx → EReal) (ix2 a j) = Cert.Gru.hi (Cert.Gru.K.Wgn m c) a j :=
  (congrFun (v36_term m ρ c) (ix2 a j)).trans (sliceHi_apply _ a j)

/-- The gate's bias row: the two bias vectors added. -/
theorem v38_apply (j : Fin 128) :
    (V1 m ρ c main_v38 : S1x128.Idx → EReal) (ix2 (0 : Fin 1) j) = Cert.Gru.K.bg m c j + Cert.Gru.K.gb m c j :=
  (congrFun (v38_term m ρ c) (ix2 (0 : Fin 1) j)).trans
    ((Cert.RowBias.ofVec_apply _ Gen.shapeCasts_S128_S1x128 j).trans rfl)

end Cert.Gru.Host0

end
-- ==== Proof.Host1.lean ====
/-
  The arrays the candidate region is entered with, read at an index.

  Between the two kernel calls the program gathers the reset-state rows at the edges' sources, adds them up by
  destination and scales by the reciprocal column computed before the first call; it cuts the two candidate weight
  matrices into their 64-row halves and adds the two candidate bias vectors into one row. Everything else the second call
  reads is carried over: the arguments as launched, the aggregated input features as the first call found them, and the
  first call's two results as it left them.
-/
import proofs.«108189_j27101243638400_1_alg».proof.Proof.Gen.KernelIdeal.Frame
import proofs.«108189_j27101243638400_1_alg».proof.Proof.Spec
import proofs.«108189_j27101243638400_1_alg».proof.Proof.KArgs
import proofs.«108189_j27101243638400_1_alg».proof.Proof.LibGatherRows
import proofs.«108189_j27101243638400_1_alg».proof.Proof.LibScatterDrop
import proofs.«108189_j27101243638400_1_alg».proof.Proof.LibRowBias
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

open scoped BigOperators
open Idealize.ShloMosaic Idealize.ShloMosaic.TcCoe Idealize.SL.Sem Idealize.ShloMosaic.ValueIdx

namespace Cert.Gru.Host1

open Cert.KernelIdeal Cert.KernelIdeal.Gen Cert.KernelIdeal.Facts₀

variable (m : (ℓ : Loc nD τ sig) → Buf (Elt Ideal) ℓ) (ρ : Dev nD → PrngReg) (c : Dev nD)

/-- Closes "no operation of the line writes this buffer" for a literal line and a literal reference: each
    operation writes exactly its result reference, and that reference is another one. -/
local macro "no_write" : tactic =>
  `(tactic| (
    simp only [hostOps0, hostOps1, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

/-! ## What the first region leaves -/

/-- The first region's first result array is what its write-backs leave. -/
theorem V2_v39_0 : V2 m ρ c main_v39_0 = (dat0 (V1 m ρ) c).arrAt 9 cfg0.N :=
  W2_arr m ρ c 9

/-- The first region's second result array is what its write-backs leave. -/
theorem V2_v39_1 : V2 m ρ c main_v39_1 = (dat0 (V1 m ρ) c).arrAt 10 cfg0.N :=
  W2_arr m ρ c 10

/-- The reciprocal column is not an array of the first region: it leaves it as it found it. -/
theorem V2_v8 : V2 m ρ c main_v8 = V1 m ρ c main_v8 :=
  W2_of_ne m ρ c main_v8 (fun w => by fin_cases w <;> decide)

/-! ## What the second region is entered with -/

/-- The input features reach the second region as launched. -/
theorem arg0_eq : V3 m ρ c main_arg0 = m ((c.tc : Thread nD τ).loc main_arg0) :=
  calc W3 m ρ c (Proc.devRef .tc main_arg0)
    _ = W2 m ρ c (Proc.devRef .tc main_arg0) :=
          StableHlo.after_of_forall_not_mem (b := Proc.devRef .tc main_arg0) _ _ (List.forall_iff_forall_mem.mp (by no_write))
    _ = W1 m ρ c (Proc.devRef .tc main_arg0) :=
          (W2_arr m ρ c 0).trans (((dat0 (V1 m ρ) c).arrAt_in 0 rfl _).trans (A_eq0 (V1 m ρ) c 0))
    _ = W0 m ρ c (Proc.devRef .tc main_arg0) :=
          StableHlo.after_of_forall_not_mem (b := Proc.devRef .tc main_arg0) _ _ (List.forall_iff_forall_mem.mp (by no_write))
    _ = m ((c : Thread nD τ).loc main_arg0) := rfl

/-- The state reaches the second region as launched. -/
theorem arg1_eq : V3 m ρ c main_arg1 = m ((c.tc : Thread nD τ).loc main_arg1) :=
  calc W3 m ρ c (Proc.devRef .tc main_arg1)
    _ = W2 m ρ c (Proc.devRef .tc main_arg1) :=
          StableHlo.after_of_forall_not_mem (b := Proc.devRef .tc main_arg1) _ _ (List.forall_iff_forall_mem.mp (by no_write))
    _ = W1 m ρ c (Proc.devRef .tc main_arg1) :=
          (W2_arr m ρ c 1).trans (((dat0 (V1 m ρ) c).arrAt_in 1 rfl _).trans (A_eq0 (V1 m ρ) c 1))
    _ = W0 m ρ c (Proc.devRef .tc main_arg1) :=
          StableHlo.after_of_forall_not_mem (b := Proc.devRef .tc main_arg1) _ _ (List.forall_iff_forall_mem.mp (by no_write))
    _ = m ((c : Thread nD τ).loc main_arg1) := rfl

/-- The aggregated input features reach the second region as the first found them. -/
theorem v20_eq : V3 m ρ c main_v20 = V1 m ρ c main_v20 :=
  calc W3 m ρ c (Proc.devRef .tc main_v20)
    _ = W2 m ρ c (Proc.devRef .tc main_v20) :=
          StableHlo.after_of_forall_not_mem (b := Proc.devRef .tc main_v20) _ _ (List.forall_iff_forall_mem.mp (by no_write))
    _ = W1 m ρ c (Proc.devRef .tc main_v20) :=
          (W2_arr m ρ c 2).trans (((dat0 (V1 m ρ) c).arrAt_in 2 rfl _).trans (A_eq0 (V1 m ρ) c 2))

/-- The update gate reaches the second region as the first left it. -/
theorem v39_0_eq : V3 m ρ c main_v39_0 = V2 m ρ c main_v39_0 :=
  StableHlo.after_of_forall_not_mem (b := Proc.devRef .tc main_v39_0) _ _ (List.forall_iff_forall_mem.mp (by no_write))

/-- The reset state reaches the second region as the first left it. -/
theorem v39_1_eq : V3 m ρ c main_v39_1 = V2 m ρ c main_v39_1 :=
  StableHlo.after_of_forall_not_mem (b := Proc.devRef .tc main_v39_1) _ _ (List.forall_iff_forall_mem.mp (by no_write))

/-! ## The arguments the host operations between the regions read -/

/-- A buffer that is no array of the first region and that no host operation before it writes holds, at the first
    region's exit, what was launched. -/
theorem W2_launch (r : Ref sig .tc) (h0 : ∀ w, Pipeline.arrRef spec0 w ≠ r)
    (h1 : ∀ op ∈ (hostOps0 : List (HloOp τ sig (Elt Ideal))), Proc.devRef .tc r ∉ op.writes) :
    W2 m ρ c (Proc.devRef .tc r) = m ((c.tc : Thread nD τ).loc r) :=
  calc W2 m ρ c (Proc.devRef .tc r)
    _ = W1 m ρ c (Proc.devRef .tc r) := W2_of_ne m ρ c r h0
    _ = W0 m ρ c (Proc.devRef .tc r) := StableHlo.after_of_forall_not_mem (b := Proc.devRef .tc r) _ _ h1
    _ = m ((c : Thread nD τ).loc r) := rfl

theorem W2_arg2 : W2 m ρ c (Proc.devRef .tc main_arg2) = m ((c.tc : Thread nD τ).loc main_arg2) :=
  W2_launch m ρ c main_arg2 (by decide) (List.forall_iff_forall_mem.mp (by no_write))
theorem W2_arg3 : W2 m ρ c (Proc.devRef .tc main_arg3) = m ((c.tc : Thread nD τ).loc main_arg3) :=
  W2_launch m ρ c main_arg3 (by decide) (List.forall_iff_forall_mem.mp (by no_write))
theorem W2_arg7 : W2 m ρ c (Proc.devRef .tc main_arg7) = m ((c.tc : Thread nD τ).loc main_arg7) :=
  W2_launch m ρ c main_arg7 (by decide) (List.forall_iff_forall_mem.mp (by no_write))
theorem W2_arg8 : W2 m ρ c (Proc.devRef .tc main_arg8) = m ((c.tc : Thread nD τ).loc main_arg8) :=
  W2_launch m ρ c main_arg8 (by decide) (List.forall_iff_forall_mem.mp (by no_write))
theorem W2_arg9 : W2 m ρ c (Proc.devRef .tc main_arg9) = m ((c.tc : Thread nD τ).loc main_arg9) :=
  W2_launch m ρ c main_arg9 (by decide) (List.forall_iff_forall_mem.mp (by no_write))
theorem W2_arg11 : W2 m ρ c (Proc.devRef .tc main_arg11) = m ((c.tc : Thread nD τ).loc main_arg11) :=
  W2_launch m ρ c main_arg11 (by decide) (List.forall_iff_forall_mem.mp (by no_write))

/-! ## Layout operations of this program read at an index -/

/-- Rows 0 … 63 of a [128, 64] array, read at an index. -/
theorem slice_lo_apply (x : S128x64.Idx → EReal) (a j : Fin 64) :
    extractStridedSlice S64x64 ![0, 0] x Gen.slices_S128x64_S64x64_0_0 (ix2 a j) = x (ix2 (⟨a.val, by omega⟩ : Fin 128) j) :=
  extractStridedSlice_apply ![0, 0] x Gen.slices_S128x64_S64x64_0_0 (ix2 a j) (ix2 (⟨a.val, by omega⟩ : Fin 128) j) fun b =>
    match b with
    | ⟨0, _⟩ => by show a.val = 0 + a.val; omega
    | ⟨1, _⟩ => by show j.val = 0 + j.val; omega

/-- Rows 64 … 127 of a [128, 64] array, read at an index. -/
theorem slice_hi_apply (x : S128x64.Idx → EReal) (a j : Fin 64) :
    extractStridedSlice S64x64 ![64, 0] x Gen.slices_S128x64_S64x64_64_0 (ix2 a j) = x (ix2 (⟨64 + a.val, by omega⟩ : Fin 128) j) :=
  extractStridedSlice_apply ![64, 0] x Gen.slices_S128x64_S64x64_64_0 (ix2 a j) (ix2 (⟨64 + a.val, by omega⟩ : Fin 128) j) fun b =>
    match b with
    | ⟨0, _⟩ => by show 64 + a.val = 64 + a.val; rfl
    | ⟨1, _⟩ => by show j.val = 0 + j.val; omega

/-- A column [100000, 1] broadcast along 64 lanes holds at (n, k) the column's entry (n, 0). -/
theorem col_apply (x : S100000x1.Idx → EReal) (n : Fin 100000) (k : Fin 64) :
    broadcastInDim S100000x64 ![0, 1] Gen.bcast_S100000x1_S100000x64_0_1 x (ix2 n k) = x (ix2 n (0 : Fin 1)) :=
  broadcastInDim_apply ![0, 1] Gen.bcast_S100000x1_S100000x64_0_1 x (ix2 n k) (ix2 n (0 : Fin 1)) fun a =>
    match a with
    | ⟨0, _⟩ => by show n.val = if (100000 : ℕ) = 1 then 0 else n.val; rw [if_neg (by decide)]
    | ⟨1, _⟩ => by show (0 : ℕ) = if (1 : ℕ) = 1 then 0 else _; rw [if_pos rfl]

/-! ## The composed terms -/

theorem v52_term : (V3 m ρ c main_v52 : S64x64.Idx → EReal)
    = extractStridedSlice S64x64 ![0, 0] (m ((c.tc : Thread nD τ).loc main_arg7) : S128x64.Idx → EReal) Gen.slices_S128x64_S64x64_0_0 := by
  show StableHlo.after hostOps1 (W2 m ρ c) (Proc.devRef .tc main_v52) = _
  after_results
  rw [W2_arg7]
theorem v53_term : (V3 m ρ c main_v53 : S64x64.Idx → EReal)
    = extractStridedSlice S64x64 ![64, 0] (m ((c.tc : Thread nD τ).loc main_arg7) : S128x64.Idx → EReal) Gen.slices_S128x64_S64x64_64_0 := by
  show StableHlo.after hostOps1 (W2 m ρ c) (Proc.devRef .tc main_v53) = _
  after_results
  rw [W2_arg7]
theorem v54_term : (V3 m ρ c main_v54 : S64x64.Idx → EReal)
    = extractStridedSlice S64x64 ![0, 0] (m ((c.tc : Thread nD τ).loc main_arg8) : S128x64.Idx → EReal) Gen.slices_S128x64_S64x64_0_0 := by
  show StableHlo.after hostOps1 (W2 m ρ c) (Proc.devRef .tc main_v54) = _
  after_results
  rw [W2_arg8]
theorem v55_term : (V3 m ρ c main_v55 : S64x64.Idx → EReal)
    = extractStridedSlice S64x64 ![64, 0] (m ((c.tc : Thread nD τ).loc main_arg8) : S128x64.Idx → EReal) Gen.slices_S128x64_S64x64_64_0 := by
  show StableHlo.after hostOps1 (W2 m ρ c) (Proc.devRef .tc main_v55) = _
  after_results
  rw [W2_arg8]

theorem v57_term : (V3 m ρ c main_v57 : S1x64.Idx → EReal)
    = shapeCast S1x64 (addf (F := Ideal) (s := S64) (φ := .f32) (m ((c.tc : Thread nD τ).loc main_arg9)) (m ((c.tc : Thread nD τ).loc main_arg11)))
        Gen.shapeCasts_S64_S1x64 := by
  show StableHlo.after hostOps1 (W2 m ρ c) (Proc.devRef .tc main_v57) = _
  after_results
  rw [W2_arg9, W2_arg11]
  rfl

theorem v51_term : (V3 m ρ c main_v51 : S100000x64.Idx → EReal)
    = mulf (F := Ideal) (s := S100000x64) (φ := .f32)
        (Host.scatterAdd (F := Ideal) scatter_S100000x64_S1600000x1_S1600000x64_1_0_0_1
          (broadcastInDim S100000x64 ![] Gen.bcast_S_S100000x64 (constant (F := Ideal) S_ .f32 0x00000000#32))
          (Cert.Gru.K.didx m c)
          (Host.gather gather_S100000x64_S1600000x1_S1600000x64_1_0_n_n_0_1_164
            (V2 m ρ c main_v39_1 : S100000x64.Idx → EReal) (Cert.Gru.K.sidx m c)))
        (broadcastInDim S100000x64 ![0, 1] Gen.bcast_S100000x1_S100000x64_0_1 (V2 m ρ c main_v8 : S100000x1.Idx → EReal)) := by
  show StableHlo.after hostOps1 (W2 m ρ c) (Proc.devRef .tc main_v51) = _
  after_results
  rw [W2_arg2, W2_arg3]
  rfl

/-- The aggregated reset state at (n, k): the neighbour sum of the first region's second result, times the reciprocal
    column. -/
theorem v51_apply (n : Fin 100000) (k : Fin 64) :
    (V3 m ρ c main_v51 : S100000x64.Idx → EReal) (ix2 n k)
      = Cert.Gru.nsum (Cert.Gru.K.sidx m c) (Cert.Gru.K.didx m c)
          (fun n' k' => (V2 m ρ c main_v39_1 : S100000x64.Idx → EReal) (ix2 n' k')) n k
        * (V2 m ρ c main_v8 : S100000x1.Idx → EReal) (ix2 n (0 : Fin 1)) := by
  rw [v51_term, mulf_apply, col_apply, Cert.Lib.scatterAdd_ideal,
    Cert.Lib.scatterAdd_rows2_any scatter_S100000x64_S1600000x1_S1600000x64_1_0_0_1 rfl rfl rfl rfl,
    Cert.RowBias.splat_apply]
  unfold Cert.Gru.nsum
  -- each update row is the table's row at the edge's clamped source
  have hrow : ∀ e : Fin 1600000,
      Host.gather gather_S100000x64_S1600000x1_S1600000x64_1_0_n_n_0_1_164
          (V2 m ρ c main_v39_1 : S100000x64.Idx → EReal) (Cert.Gru.K.sidx m c) (ix2 e k)
        = (V2 m ρ c main_v39_1 : S100000x64.Idx → EReal) (ix2 (Cert.Gru.rowOf (Cert.Gru.K.sidx m c) e) k) := fun e =>
    Cert.Att.Lib.gather_rows2 gather_S100000x64_S1600000x1_S1600000x64_1_0_n_n_0_1_164 rfl rfl rfl rfl rfl
      (by decide) _ _ e k
  simp only [hrow, constant_apply]

/-- The candidate's self weights, rows 0 … 63. -/
theorem v52_apply (a : Fin 64) (j : Fin 64) :
    (V3 m ρ c main_v52 : S64x64.Idx → EReal) (ix2 a j) = Cert.Gru.lo (Cert.Gru.K.Wcs m c) a j := by
  rw [v52_term, slice_lo_apply]
  rfl

/-- The candidate's self weights, rows 64 … 127. -/
theorem v53_apply (a : Fin 64) (j : Fin 64) :
    (V3 m ρ c main_v53 : S64x64.Idx → EReal) (ix2 a j) = Cert.Gru.hi (Cert.Gru.K.Wcs m c) a j := by
  rw [v53_term, slice_hi_apply]
  rfl

/-- The candidate's neighbour weights, rows 0 … 63. -/
theorem v54_apply (a : Fin 64) (j : Fin 64) :
    (V3 m ρ c main_v54 : S64x64.Idx → EReal) (ix2 a j) = Cert.Gru.lo (Cert.Gru.K.Wcn m c) a j := by
  rw [v54_term, slice_lo_apply]
  rfl

/-- The candidate's neighbour weights, rows 64 … 127. -/
theorem v55_apply (a : Fin 64) (j : Fin 64) :
    (V3 m ρ c main_v55 : S64x64.Idx → EReal) (ix2 a j) = Cert.Gru.hi (Cert.Gru.K.Wcn m c) a j := by
  rw [v55_term, slice_hi_apply]
  rfl

/-- The candidate's bias row: the two bias vectors added. -/
theorem v57_apply (j : Fin 64) :
    (V3 m ρ c main_v57 : S1x64.Idx → EReal) (ix2 (0 : Fin 1) j) = Cert.Gru.K.bc m c j + Cert.Gru.K.cb m c j := by
  rw [v57_term, Cert.RowBias.ofVec_apply, addf_apply]
  rfl

end Cert.Gru.Host1

end
-- ==== Proof.KernelValue.lean ====
/-
  The kernel program's result, read at an index.

  The result buffer ends at what the second kernel call's write-backs leave. Row n of it is the blend of the update gate
  and the state with the candidate, the candidate computed from row n of the arrays the second call is entered with;
  those are the arguments as launched, the first call's two results, and the aggregates the host operations compute in
  between. Unfolding each through its own reading gives the cell's new state of the kernel's arguments.
-/
import proofs.«108189_j27101243638400_1_alg».proof.Proof.Gen.KernelIdeal.Frame
import proofs.«108189_j27101243638400_1_alg».proof.Proof.Spec
import proofs.«108189_j27101243638400_1_alg».proof.Proof.KArgs
import proofs.«108189_j27101243638400_1_alg».proof.Proof.Region0
import proofs.«108189_j27101243638400_1_alg».proof.Proof.Region1
import proofs.«108189_j27101243638400_1_alg».proof.Proof.Host0
import proofs.«108189_j27101243638400_1_alg».proof.Proof.Host1
import Idealize.ShloMosaic.Lib.ValueIdx

set_option maxRecDepth 16384

noncomputable section

open scoped BigOperators
open Idealize.ShloMosaic Idealize.ShloMosaic.TcCoe Idealize.SL.Sem Idealize.ShloMosaic.ValueIdx

namespace Cert.Gru.KernelValue

open Cert.KernelIdeal Cert.KernelIdeal.Gen

variable (m : (ℓ : Loc nD τ sig) → Buf (Elt Ideal) ℓ) (ρ : Dev nD → PrngReg) (c : Dev nD)

/-- The gate the first call computes from its entry arrays is the cell's gate of the arguments. -/
theorem gate_eq (n : Fin 100000) (j : Fin 128) :
    Region0.gate (V1 m ρ) c n j
      = Cert.Gru.gateH (K.inp m c) (K.st m c) (K.sidx m c) (K.didx m c) (K.dmax m c) (K.Wgs m c) (K.Wgn m c)
          (K.bg m c) (K.gb m c) n j := by
  unfold Region0.gate Cert.Gru.gateH
  simp only [Host0.arg0_eq m ρ c, Host0.arg1_eq m ρ c, Host0.v20_apply m ρ c, Host0.v32_apply m ρ c,
    Host0.v33_apply m ρ c, Host0.v34_apply m ρ c, Host0.v35_apply m ρ c, Host0.v36_apply m ρ c, Host0.v38_apply m ρ c]
  rfl

/-- The update gate as the first call leaves it. -/
theorem u_eq (n : Fin 100000) (k : Fin 64) :
    (V2 m ρ c main_v39_0 : S100000x64.Idx → EReal) (ix2 n k)
      = Cert.Gru.uGate (K.inp m c) (K.st m c) (K.sidx m c) (K.didx m c) (K.dmax m c) (K.Wgs m c) (K.Wgn m c)
          (K.bg m c) (K.gb m c) n k := by
  rw [Host1.V2_v39_0 m ρ c, Region0.u_apply (V1 m ρ) c n k, gate_eq m ρ c]
  rfl

/-- The reset state as the first call leaves it. -/
theorem rs_eq (n : Fin 100000) (k : Fin 64) :
    (V2 m ρ c main_v39_1 : S100000x64.Idx → EReal) (ix2 n k)
      = Cert.Gru.rsArr (K.inp m c) (K.st m c) (K.sidx m c) (K.didx m c) (K.dmax m c) (K.Wgs m c) (K.Wgn m c)
          (K.bg m c) (K.gb m c) n k := by
  rw [Host1.V2_v39_1 m ρ c, Region0.rs_apply (V1 m ρ) c n k, gate_eq m ρ c, Host0.arg1_eq m ρ c]
  rfl

/-- The candidate the second call computes from its entry arrays is the cell's candidate of the arguments. -/
theorem cand_eq (n : Fin 100000) (j : Fin 64) :
    Region1.cand (V3 m ρ) c n j
      = Cert.Gru.cand (K.inp m c) (K.st m c) (K.sidx m c) (K.didx m c) (K.dmax m c) (K.Wgs m c) (K.Wgn m c)
          (K.bg m c) (K.gb m c) (K.Wcs m c) (K.Wcn m c) (K.bc m c) (K.cb m c) n j := by
  unfold Region1.cand Cert.Gru.cand
  simp only [Host1.arg0_eq m ρ c, Host1.v39_1_eq m ρ c, Host1.v20_eq m ρ c, Host1.v51_apply m ρ c,
    Host1.v52_apply m ρ c, Host1.v53_apply m ρ c, Host1.v54_apply m ρ c, Host1.v55_apply m ρ c, Host1.v57_apply m ρ c,
    Host1.V2_v8 m ρ c, Host0.v8_apply m ρ c, Host0.v20_apply m ρ c, rs_eq m ρ c]
  rfl

/-- THE RESULT: the kernel program's result buffer at (n, j) is the cell's new state of its arguments. -/
theorem result (n : Fin 100000) (j : Fin 64) :
    (W4 m ρ c (Proc.devRef .tc main_v58) : S100000x64.Idx → EReal) (ix2 n j) = K.out m c n j := by
  have h := W4_arr m ρ c 11
  rw [show W4 m ρ c (Proc.devRef .tc main_v58) = (dat1 (V3 m ρ) c).arrAt 11 cfg1.N from h]
  rw [Region1.out_apply (V3 m ρ) c n j, cand_eq m ρ c]
  unfold Region1.uAt Region1.stAt
  rw [Host1.v39_0_eq m ρ c, Host1.arg1_eq m ρ c, u_eq m ρ c]
  rfl

end Cert.Gru.KernelValue

end
-- ==== Proof.RArgs.lean ====
/-
  The cell's arguments as the reference program reads them: the same twelve buffers and the same two index columns
  and degree count as on the kernel's side, in the reference's own words, so that the two meet once the launch memories
  agree on the arguments.
-/
import proofs.«108189_j27101243638400_1_alg».proof.Proof.Gen.ReferenceIdeal
import proofs.«108189_j27101243638400_1_alg».proof.Proof.Spec
import Idealize.ShloMosaic.Lib.ValueIdx

noncomputable section

open Idealize.ShloMosaic Idealize.ShloMosaic.TcCoe Idealize.SL.Sem Idealize.ShloMosaic.ValueIdx

namespace Cert.Gru.R

open Cert.ReferenceIdeal Cert.ReferenceIdeal.Facts₀

variable (m : (ℓ : Loc nD τ sig) → Buf (Elt Ideal) ℓ) (c : Dev nD)

/-- The twelve argument buffers at their literal types. -/
abbrev a0 : S100000x64.Idx → EReal := m ((c.tc : Thread nD τ).loc main_arg0)
abbrev a1 : S100000x64.Idx → EReal := m ((c.tc : Thread nD τ).loc main_arg1)
abbrev a2 : IVec S1600000 32 := m ((c.tc : Thread nD τ).loc main_arg2)
abbrev a3 : IVec S1600000 32 := m ((c.tc : Thread nD τ).loc main_arg3)
abbrev a4 : S128x128.Idx → EReal := m ((c.tc : Thread nD τ).loc main_arg4)
abbrev a5 : S128x128.Idx → EReal := m ((c.tc : Thread nD τ).loc main_arg5)
abbrev a6 : S128.Idx → EReal := m ((c.tc : Thread nD τ).loc main_arg6)
abbrev a7 : S128x64.Idx → EReal := m ((c.tc : Thread nD τ).loc main_arg7)
abbrev a8 : S128x64.Idx → EReal := m ((c.tc : Thread nD τ).loc main_arg8)
abbrev a9 : S64.Idx → EReal := m ((c.tc : Thread nD τ).loc main_arg9)
abbrev a10 : S128.Idx → EReal := m ((c.tc : Thread nD τ).loc main_arg10)
abbrev a11 : S64.Idx → EReal := m ((c.tc : Thread nD τ).loc main_arg11)

/-- The input features and the state. -/
def inp (n : Fin 100000) (k : Fin 64) : EReal := a0 m c (ix2 n k)
def st (n : Fin 100000) (k : Fin 64) : EReal := a1 m c (ix2 n k)
/-- The gate layer's weights and bias vectors. -/
def Wgs (k : Fin 128) (j : Fin 128) : EReal := a4 m c (ix2 k j)
def Wgn (k : Fin 128) (j : Fin 128) : EReal := a5 m c (ix2 k j)
def bg (j : Fin 128) : EReal := a6 m c (ix1 j)
def gb (j : Fin 128) : EReal := a10 m c (ix1 j)
/-- The candidate layer's weights and bias vectors. -/
def Wcs (k : Fin 128) (j : Fin 64) : EReal := a7 m c (ix2 k j)
def Wcn (k : Fin 128) (j : Fin 64) : EReal := a8 m c (ix2 k j)
def bc (j : Fin 64) : EReal := a9 m c (ix1 j)
def cb (j : Fin 64) : EReal := a11 m c (ix1 j)

/-- The source column: a negative source word moved up by the number of nodes, then laid out as [E, 1]. -/
def sidx : IVec S1600000x1 32 :=
  broadcastInDim S1600000x1 ![0] bcast_S1600000_S1600000x1_0
    (select (cmpi .slt (a2 m c) (broadcastInDim S1600000 ![] bcast_S_S1600000 (constantI S_ 32 0#32)))
      (addi (a2 m c) (broadcastInDim S1600000 ![] bcast_S_S1600000 (constantI S_ 32 100000#32)))
      (a2 m c))

/-- The destination column. -/
def didx : IVec S1600000x1 32 :=
  broadcastInDim S1600000x1 ![0] bcast_S1600000_S1600000x1_0 (a3 m c)

/-- The in-degree as the program counts it: ones scattered onto zeros by destination. -/
def deg : S100000.Idx → EReal :=
  Host.scatterAdd (F := Ideal) scatter_S100000_S1600000x1_S1600000_n_0_0_1
    (broadcastInDim S100000 ![] bcast_S_S100000 (constant S_ .f32 0x00000000#32))
    (didx m c)
    (broadcastInDim S1600000 ![] bcast_S_S1600000 (constant S_ .f32 0x3F800000#32))

/-- The clamped degree as the program holds it: a vector over the nodes. -/
def dvec : S100000.Idx → EReal :=
  maximumf (F := Ideal) (deg m c) (broadcastInDim S100000 ![] bcast_S_S100000 (constant S_ .f32 0x3F800000#32))

/-- The clamped degree: the maximum of the count with the word for one. -/
def dmax (n : Fin 100000) : EReal := max (deg m c (ix1 n)) (Ideal.ofBits .f32 0x3F800000#32)

/-- The new state the cell computes from these arguments. -/
def out (n : Fin 100000) (j : Fin 64) : EReal :=
  Cert.Gru.out (inp m c) (st m c) (sidx m c) (didx m c) (dmax m c) (Wgs m c) (Wgn m c) (bg m c) (gb m c)
    (Wcs m c) (Wcn m c) (bc m c) (cb m c) n j

end Cert.Gru.R

end
-- ==== Proof.RefAgg.lean ====
/-
  The mean aggregate of two node arrays joined along the feature axis, read at an index.

  The reference joins two [N, 64] arrays into one [N, 128] array, gathers its rows at the edges' sources, adds them up by
  destination onto zeros and divides by the clamped degree broadcast along the features. A gathered row of the joined
  array is the two gathered rows joined, and the sum is taken entry by entry, so feature k < 64 of the result is the
  neighbour sum of the first array's feature k and feature 64 + k that of the second array's feature k; the quotient by
  the nonzero clamped degree is the product with its reciprocal.
-/
import proofs.«108189_j27101243638400_1_alg».proof.Proof.Gen.ReferenceIdeal.Run
import proofs.«108189_j27101243638400_1_alg».proof.Proof.Gen.ReferenceIdeal.Read
import proofs.«108189_j27101243638400_1_alg».proof.Proof.Spec
import proofs.«108189_j27101243638400_1_alg».proof.Proof.RArgs
import proofs.«108189_j27101243638400_1_alg».proof.Proof.LibGatherRows
import proofs.«108189_j27101243638400_1_alg».proof.Proof.LibScatterDrop
import proofs.«108189_j27101243638400_1_alg».proof.Proof.LibRowBias
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators
open Idealize.ShloMosaic Idealize.ShloMosaic.TcCoe Idealize.SL.Sem Idealize.ShloMosaic.ValueIdx

namespace Cert.Gru.RefAgg

open Cert.ReferenceIdeal Cert.ReferenceIdeal.Facts₀

variable (x0 x1 : S100000x64.Idx → EReal) (si di : IVec S1600000x1 32) (dv : S100000.Idx → EReal)

/-- The reference's mean aggregate of the two arrays joined along the feature axis, in the program's own operations. -/
def meanCat : S100000x128.Idx → EReal :=
  Host.divf (F := Ideal)
    (Host.scatterAdd (F := Ideal) scatter_S100000x128_S1600000x1_S1600000x128_1_0_0_1
      (broadcastInDim S100000x128 ![] bcast_S_S100000x128 (constant S_ .f32 0x00000000#32)) di
      (Host.gather gather_S100000x128_S1600000x1_S1600000x128_1_0_n_n_0_1_1128
        (concatenate S100000x128 1 [⟨S100000x64, x0⟩, ⟨S100000x64, x1⟩] concatenates_S100000x64_S100000x64_S100000x128_d1) si))
    (broadcastInDim S100000x128 ![0, 1] bcast_S100000x1_S100000x128_0_1
      (broadcastInDim S100000x1 ![0] bcast_S100000_S100000x1_0 dv))

/-- The joined array at a feature below 64 is the first array at that feature: the coordinate on the joined axis falls in
    the first piece. -/
theorem joined_lo (n : Fin 100000) (k : Fin 64) :
    concatenate S100000x128 1 [⟨S100000x64, x0⟩, ⟨S100000x64, x1⟩] concatenates_S100000x64_S100000x64_S100000x128_d1
      (ix2 n (⟨k.val, by omega⟩ : Fin 128)) = x0 (ix2 n k) :=
  concatenate_pair_apply_left (t := S100000x128) (s₁ := S100000x64) (s₂ := S100000x64) 1 x0 x1
    concatenates_S100000x64_S100000x64_S100000x128_d1 _ rfl (ix2 n k) (fun b => by
      match b with
      | ⟨0, _⟩ => rfl
      | ⟨1, _⟩ => rfl)

/-- The joined array at feature 64 + k is the second array at feature k: the coordinate on the joined axis falls in the
    second piece, the first piece's 64 features less. -/
theorem joined_hi (n : Fin 100000) (k : Fin 64) :
    concatenate S100000x128 1 [⟨S100000x64, x0⟩, ⟨S100000x64, x1⟩] concatenates_S100000x64_S100000x64_S100000x128_d1
      (ix2 n (⟨64 + k.val, by omega⟩ : Fin 128)) = x1 (ix2 n k) :=
  concatenate_pair_apply_right (t := S100000x128) (s₁ := S100000x64) (s₂ := S100000x64) 1 x0 x1
    concatenates_S100000x64_S100000x64_S100000x128_d1 _ rfl rfl (ix2 n k)
    (fun b hb => by
      match b with
      | ⟨0, _⟩ => rfl
      | ⟨1, _⟩ => exact absurd rfl hb)
    (by show k.val + 64 = 64 + k.val; omega)

/-- The mean aggregate of ANY [N, 128] table, read at (n, c): the zero word plus the sum, over the edges aimed at n, of
    the table's entry c in the row at the edge's source, times the reciprocal of the divisor at n. The divisor column
    broadcast along the features reads its entry at n; the scatter onto zeros reads the zero word plus the sum of the
    gathered rows aimed at n; a gathered row is the table's row at the clamped source; the quotient by a nonzero
    divisor is the product with the reciprocal. -/
theorem mean_apply (T : S100000x128.Idx → EReal) (hd : ∀ n : Fin 100000, dv (ix1 n) ≠ 0) (n : Fin 100000) (c : Fin 128) :
    Host.divf (F := Ideal)
      (Host.scatterAdd (F := Ideal) scatter_S100000x128_S1600000x1_S1600000x128_1_0_0_1
        (broadcastInDim S100000x128 ![] bcast_S_S100000x128 (constant S_ .f32 0x00000000#32)) di
        (Host.gather gather_S100000x128_S1600000x1_S1600000x128_1_0_n_n_0_1_1128 T si))
      (broadcastInDim S100000x128 ![0, 1] bcast_S100000x1_S100000x128_0_1
        (broadcastInDim S100000x1 ![0] bcast_S100000_S100000x1_0 dv)) (ix2 n c)
    = (Ideal.ofBits .f32 0x00000000#32
        + ∑ e ∈ Finset.univ.filter (fun e : Fin 1600000 => (di (ix2 e 0)).toInt = (n.val : ℤ)),
            T (ix2 (Cert.Gru.rowOf si e) c))
      * Ideal.div 1 (dv (ix1 n)) := by
  -- the divisor at (n, c): the column's entry at n
  have hB : broadcastInDim S100000x128 ![0, 1] bcast_S100000x1_S100000x128_0_1
        (broadcastInDim S100000x1 ![0] bcast_S100000_S100000x1_0 dv) (ix2 n c) = dv (ix1 n) := by
    refine (broadcastInDim_apply _ bcast_S100000x1_S100000x128_0_1 _ (ix2 n c) (ix2 n (0 : Fin 1)) (fun a => match a with
      | ⟨0, _⟩ => by show n.val = if (100000 : Nat) = 1 then 0 else n.val; rw [if_neg (by decide)]
      | ⟨1, _⟩ => by show 0 = if (1 : Nat) = 1 then 0 else c.val; rw [if_pos rfl])).trans ?_
    exact broadcastInDim_apply _ bcast_S100000_S100000x1_0 dv (ix2 n (0 : Fin 1)) (ix1 n) (fun a => match a with
      | ⟨0, _⟩ => by show n.val = if (100000 : Nat) = 1 then 0 else n.val; rw [if_neg (by decide)])
  -- the zeros at (n, c): the zero word
  have hZ : broadcastInDim S100000x128 ![] bcast_S_S100000x128 (constant (F := Ideal) S_ .f32 0x00000000#32) (ix2 n c)
      = Ideal.ofBits .f32 0x00000000#32 :=
    broadcastInDim_apply _ bcast_S_S100000x128 _ (ix2 n c) (fun a => a.elim0) (fun a => a.elim0)
  -- the quotient at (n, c): the quotient of the two operands there
  have hq : ∀ A B : FVec Ideal S100000x128 .f32,
      Host.divf (F := Ideal) A B (ix2 n c) = Ideal.div (A (ix2 n c)) (B (ix2 n c)) := fun _ _ => rfl
  rw [hq, hB, Cert.Gru.div_eq_mul_div_one _ _ (hd n), Cert.Lib.scatterAdd_ideal,
    Cert.Lib.scatterAdd_rows2_any _ rfl rfl rfl rfl, hZ]
  refine congrArg (fun z => (Ideal.ofBits .f32 0x00000000#32 + z) * Ideal.div 1 (dv (ix1 n)))
    (Finset.sum_congr rfl fun e _ => ?_)
  exact Cert.Att.Lib.gather_rows2 _ rfl rfl rfl rfl rfl (by decide) T si e c

/-- Features 0 … 63 of the mean aggregate are the first array's aggregate. -/
theorem meanCat_lo (hd : ∀ n : Fin 100000, dv (ix1 n) ≠ 0) (n : Fin 100000) (k : Fin 64) :
    meanCat x0 x1 si di dv (ix2 n (⟨k.val, by omega⟩ : Fin 128))
      = Cert.Gru.agg si di (fun n => dv (ix1 n)) (fun n k => x0 (ix2 n k)) n k := by
  unfold meanCat
  rw [mean_apply si di dv _ hd n]
  unfold Cert.Gru.agg Cert.Gru.nsum
  rw [Cert.Gru.ofBits_one]
  refine congrArg (fun z => (Ideal.ofBits .f32 0x00000000#32 + z) * Ideal.div 1 (dv (ix1 n)))
    (Finset.sum_congr rfl fun e _ => ?_)
  exact joined_lo x0 x1 (Cert.Gru.rowOf si e) k

/-- Features 64 … 127 of the mean aggregate are the second array's aggregate. -/
theorem meanCat_hi (hd : ∀ n : Fin 100000, dv (ix1 n) ≠ 0) (n : Fin 100000) (k : Fin 64) :
    meanCat x0 x1 si di dv (ix2 n (⟨64 + k.val, by omega⟩ : Fin 128))
      = Cert.Gru.agg si di (fun n => dv (ix1 n)) (fun n k => x1 (ix2 n k)) n k := by
  unfold meanCat
  rw [mean_apply si di dv _ hd n]
  unfold Cert.Gru.agg Cert.Gru.nsum
  rw [Cert.Gru.ofBits_one]
  refine congrArg (fun z => (Ideal.ofBits .f32 0x00000000#32 + z) * Ideal.div 1 (dv (ix1 n)))
    (Finset.sum_congr rfl fun e _ => ?_)
  exact joined_hi x0 x1 (Cert.Gru.rowOf si e) k

/-- The joined array itself: features 0 … 63 are the first array's. -/
theorem cat_lo (n : Fin 100000) (k : Fin 64) :
    concatenate S100000x128 1 [⟨S100000x64, x0⟩, ⟨S100000x64, x1⟩] concatenates_S100000x64_S100000x64_S100000x128_d1
      (ix2 n (⟨k.val, by omega⟩ : Fin 128)) = x0 (ix2 n k) :=
  joined_lo x0 x1 n k

/-- The joined array itself: features 64 … 127 are the second array's. -/
theorem cat_hi (n : Fin 100000) (k : Fin 64) :
    concatenate S100000x128 1 [⟨S100000x64, x0⟩, ⟨S100000x64, x1⟩] concatenates_S100000x64_S100000x64_S100000x128_d1
      (ix2 n (⟨64 + k.val, by omega⟩ : Fin 128)) = x1 (ix2 n k) :=
  joined_hi x0 x1 n k

end Cert.Gru.RefAgg

end
-- ==== Proof.RefGate.lean ====
/-
  The reference's gate, read at an index.

  The reference multiplies the joined [input, state] rows by the whole 128-row self weights and the joined mean
  aggregate by the whole neighbour weights, adds the two bias vectors one after the other and applies 1 / (1 + e^(-x)).
  Each 128-term product splits at feature 64 into the two 64-term products of the cell's arrangement; the sums are
  re-associated in the commutative monoid of the extended reals; the logistic function is the same function.
-/
import proofs.«108189_j27101243638400_1_alg».proof.Proof.Gen.ReferenceIdeal.Run
import proofs.«108189_j27101243638400_1_alg».proof.Proof.Gen.ReferenceIdeal.Read
import proofs.«108189_j27101243638400_1_alg».proof.Proof.Spec
import proofs.«108189_j27101243638400_1_alg».proof.Proof.RArgs
import proofs.«108189_j27101243638400_1_alg».proof.Proof.RefAgg
import proofs.«108189_j27101243638400_1_alg».proof.Proof.LibRowBias
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators
open Idealize.ShloMosaic Idealize.ShloMosaic.TcCoe Idealize.SL.Sem Idealize.ShloMosaic.ValueIdx

namespace Cert.Gru.RefGate

open Cert.ReferenceIdeal Cert.ReferenceIdeal.Facts₀ Cert.ReferenceIdeal.Read Cert.Gru.R

variable (m : (ℓ : Loc nD τ sig) → Buf (Elt Ideal) ℓ) (c : Dev nD)

/-- The clamped degree vector the program divides by is the one named on the reference's side. -/
theorem v17_eq : val_main_v17 (F := Ideal) (a3 m c) = dvec m c := by
  unfold val_main_v17 val_main_v15 val_main_v16 val_main_v13 val_main_v14 val_main_v12
    val_main_cst_1 val_main_cst_2 val_main_cst_3 dvec deg didx
  rfl

/-- The same for its second computation of it. -/
theorem v55_eq : val_main_v55 (F := Ideal) (a3 m c) = dvec m c := by
  unfold val_main_v55 val_main_v53 val_main_v54 val_main_v51 val_main_v52 val_main_v50
    val_main_cst_9 val_main_cst_10 val_main_cst_11 dvec deg didx
  rfl

/-- At node n it is the maximum of the count with one. -/
theorem dvec_apply (n : Fin 100000) : dvec m c (ix1 n) = dmax m c n := by
  unfold dvec dmax
  rw [maximumf_apply, Cert.RowBias.splat_apply]
  have h1 : constant (F := Ideal) S_ .f32 0x3F800000#32 ix0 = Ideal.ofBits .f32 0x3F800000#32 := rfl
  rw [h1]

/-- So it is never zero. -/
theorem dvec_ne (n : Fin 100000) : dvec m c (ix1 n) ≠ 0 := by
  rw [dvec_apply]
  unfold dmax
  rw [Cert.Gru.ofBits_one]
  exact Cert.Gru.max_one_ne_zero _

/-- The program's two source columns and its destination columns are the ones named on the reference's side. -/
theorem v7_eq : val_main_v7 (F := Ideal) (a2 m c) = sidx m c := by
  unfold val_main_v7 val_main_v6 val_main_v3 val_main_v5 val_main_v2 val_main_v4 val_main_c val_main_c_0 sidx
  rfl
theorem v45_eq : val_main_v45 (F := Ideal) (a2 m c) = sidx m c := by
  unfold val_main_v45 val_main_v44 val_main_v41 val_main_v43 val_main_v40 val_main_v42 val_main_c_6 val_main_c_7 sidx
  rfl
theorem v10_eq : val_main_v10 (F := Ideal) (a3 m c) = didx m c := by
  unfold val_main_v10 didx
  rfl
theorem v48_eq : val_main_v48 (F := Ideal) (a3 m c) = didx m c := by
  unfold val_main_v48 didx
  rfl

/-! ## The gate's operands -/

/-- The program's mean aggregate of the joined arrays is the one named on the aggregate's side. -/
theorem v20_eq : val_main_v20 (F := Ideal) (a0 m c) (a1 m c) (a2 m c) (a3 m c)
    = Cert.Gru.RefAgg.meanCat (a0 m c) (a1 m c) (sidx m c) (didx m c) (dvec m c) := by
  unfold val_main_v20 val_main_v11 val_main_v19 val_main_v18 val_main_v8 val_main_v9 val_main_cst val_main_v0
    Cert.Gru.RefAgg.meanCat
  rw [v7_eq, v10_eq, v17_eq]

/-- The first product reads the joined row n at feature k … -/
theorem lidx1 (n : Fin 100000) (j k : Fin 128) : lidx_main_v1 (ix2 n j) k = ix2 n k :=
  funext fun a => Fin.ext (by match a with | ⟨0, _⟩ => rfl | ⟨1, _⟩ => rfl)
/-- … and the weights' row k at output j. -/
theorem ridx1 (n : Fin 100000) (j k : Fin 128) : ridx_main_v1 (ix2 n j) k = ix2 k j :=
  funext fun a => Fin.ext (by match a with | ⟨0, _⟩ => rfl | ⟨1, _⟩ => rfl)
/-- The same for the second product. -/
theorem lidx21 (n : Fin 100000) (j k : Fin 128) : lidx_main_v21 (ix2 n j) k = ix2 n k :=
  funext fun a => Fin.ext (by match a with | ⟨0, _⟩ => rfl | ⟨1, _⟩ => rfl)
theorem ridx21 (n : Fin 100000) (j k : Fin 128) : ridx_main_v21 (ix2 n j) k = ix2 k j :=
  funext fun a => Fin.ext (by match a with | ⟨0, _⟩ => rfl | ⟨1, _⟩ => rfl)

/-- A 128-term product of row n of a 128-wide array with a 128-row matrix is the 64-term product over the first 64
    features plus the 64-term product over the last 64. -/
theorem dot_split (X : S100000x128.Idx → EReal) (W : S128x128.Idx → EReal) (n : Fin 100000) (j : Fin 128) :
    ∑ k : Fin 128, X (ix2 n k) * W (ix2 k j)
      = (∑ k : Fin 64, X (ix2 n (⟨k.val, by omega⟩ : Fin 128)) * W (ix2 (⟨k.val, by omega⟩ : Fin 128) j))
        + ∑ k : Fin 64, X (ix2 n (⟨64 + k.val, by omega⟩ : Fin 128)) * W (ix2 (⟨64 + k.val, by omega⟩ : Fin 128) j) :=
  Cert.Gru.sum_split (fun k => X (ix2 n k) * W (ix2 k j))

/-- The first bias row is read at output j … -/
theorem bidx6 (n : Fin 100000) (j : Fin 128) : idx_main_v23 (idx_main_v24 (ix2 n j)) = ix1 j :=
  funext fun a => Fin.ext (by match a with | ⟨0, _⟩ => rfl)
/-- … and so is the second. -/
theorem bidx10 (n : Fin 100000) (j : Fin 128) : idx_main_v26 (idx_main_v27 (ix2 n j)) = ix1 j :=
  funext fun a => Fin.ext (by match a with | ⟨0, _⟩ => rfl)

/-- The layer before the logistic function: the reference's four sums and two biases at (n, j) are the cell's. -/
theorem pre_apply (n : Fin 100000) (j : Fin 128) :
    val_main_v28 (F := Ideal) (a0 m c) (a1 m c) (a2 m c) (a3 m c) (a4 m c) (a5 m c) (a6 m c) (a10 m c) (ix2 n j)
      = Cert.Gru.lin4 (inp m c n) (st m c n)
          (Cert.Gru.agg (sidx m c) (didx m c) (dmax m c) (inp m c) n)
          (Cert.Gru.agg (sidx m c) (didx m c) (dmax m c) (st m c) n)
          (Cert.Gru.lo (Wgs m c)) (Cert.Gru.hi (Wgs m c)) (Cert.Gru.lo (Wgn m c)) (Cert.Gru.hi (Wgn m c))
          (fun j => bg m c j + gb m c j) j := by
  rw [val_main_v28_apply, val_main_v25_apply, val_main_v22_apply, val_main_v1_apply, val_main_v21_apply,
    val_main_v27_apply, val_main_v26_apply, val_main_v24_apply, val_main_v23_apply]
  rw [Ideal.addf_def, Ideal.addf_def, Ideal.addf_def]
  simp only [lidx1, ridx1, lidx21, ridx21]
  rw [dot_split, dot_split, v20_eq, bidx6, bidx10]
  unfold val_main_v0
  have hdm : (fun n => dvec m c (ix1 n)) = dmax m c := funext (dvec_apply m c)
  simp only [Cert.Gru.RefAgg.cat_lo, Cert.Gru.RefAgg.cat_hi,
    Cert.Gru.RefAgg.meanCat_lo _ _ _ _ _ (dvec_ne m c), Cert.Gru.RefAgg.meanCat_hi _ _ _ _ _ (dvec_ne m c), hdm]
  unfold Cert.Gru.lin4 Cert.Gru.lo Cert.Gru.hi inp st Wgs Wgn bg gb
  simp only [add_assoc]

/-- THE GATE: the reference's logistic layer at (n, j) is the cell's gate. -/
theorem gate_apply (n : Fin 100000) (j : Fin 128) :
    val_main_v34 (F := Ideal) (a0 m c) (a1 m c) (a2 m c) (a3 m c) (a4 m c) (a5 m c) (a6 m c) (a10 m c) (ix2 n j)
      = Cert.Gru.gateH (inp m c) (st m c) (sidx m c) (didx m c) (dmax m c) (Wgs m c) (Wgn m c) (bg m c) (gb m c) n j := by
  rw [val_main_v34_apply, val_main_v33_apply, val_main_cst_5_apply, val_main_v32_apply, val_main_v31_apply,
    val_main_cst_4_apply, val_main_v30_apply, val_main_v29_apply, pre_apply]
  rw [Ideal.hostDivf_def, Ideal.addf_def, Ideal.hostUnary_exp_def, Ideal.hostNegf_def, Ideal.negf_def, Ideal.ofBits_def]
  unfold Cert.Gru.gateH
  exact Cert.Gru.logistic_expand _

end Cert.Gru.RefGate

end
-- ==== Proof.RefOut.lean ====
/-
  The reference's result, read at an index.

  From the gate the reference takes the reset gate (features 0 … 63) and the update gate (features 64 … 127), forms the
  reset state, runs the candidate layer over the joined [input, reset state] rows and their mean aggregate exactly as it
  ran the gate layer, applies tanh and blends: u * state + (1 - u) * candidate. Entry by entry that is the cell's new state.
-/
import proofs.«108189_j27101243638400_1_alg».proof.Proof.Gen.ReferenceIdeal.Run
import proofs.«108189_j27101243638400_1_alg».proof.Proof.Gen.ReferenceIdeal.Read
import proofs.«108189_j27101243638400_1_alg».proof.Proof.Spec
import proofs.«108189_j27101243638400_1_alg».proof.Proof.RArgs
import proofs.«108189_j27101243638400_1_alg».proof.Proof.RefAgg
import proofs.«108189_j27101243638400_1_alg».proof.Proof.RefGate
import proofs.«108189_j27101243638400_1_alg».proof.Proof.LibRowBias
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators
open Idealize.ShloMosaic Idealize.ShloMosaic.TcCoe Idealize.SL.Sem Idealize.ShloMosaic.ValueIdx

namespace Cert.Gru.RefOut

open Cert.ReferenceIdeal Cert.ReferenceIdeal.Facts₀ Cert.ReferenceIdeal.Read Cert.Gru.R

variable (m : (ℓ : Loc nD τ sig) → Buf (Elt Ideal) ℓ) (c : Dev nD)

/-! ## The stages' index functions at an index built from its coordinates -/

/-- The reset slice reads feature k of the gate. -/
theorem idx35_ix2 (n : Fin 100000) (k : Fin 64) :
    idx_main_v35 (ix2 n k) = ix2 n (⟨k.val, by omega⟩ : Fin 128) :=
  funext fun a => Fin.ext (by match a with | ⟨0, _⟩ => rfl | ⟨1, _⟩ => rfl)

/-- The update slice reads feature 64 + k of the gate. -/
theorem idx36_ix2 (n : Fin 100000) (k : Fin 64) :
    idx_main_v36 (ix2 n k) = ix2 n (⟨64 + k.val, by omega⟩ : Fin 128) :=
  funext fun a => Fin.ext (by match a with | ⟨0, _⟩ => rfl | ⟨1, _⟩ => rfl)

/-- The self product's left operand is read at (n, k). -/
theorem lidx39_ix2 (n : Fin 100000) (j : Fin 64) (k : Fin 128) : lidx_main_v39 (ix2 n j) k = ix2 n k :=
  funext fun a => Fin.ext (by match a with | ⟨0, _⟩ => rfl | ⟨1, _⟩ => rfl)

/-- The self product's right operand is read at (k, j). -/
theorem ridx39_ix2 (n : Fin 100000) (j : Fin 64) (k : Fin 128) : ridx_main_v39 (ix2 n j) k = ix2 k j :=
  funext fun a => Fin.ext (by match a with | ⟨0, _⟩ => rfl | ⟨1, _⟩ => rfl)

/-- The neighbour product's left operand is read at (n, k). -/
theorem lidx59_ix2 (n : Fin 100000) (j : Fin 64) (k : Fin 128) : lidx_main_v59 (ix2 n j) k = ix2 n k :=
  funext fun a => Fin.ext (by match a with | ⟨0, _⟩ => rfl | ⟨1, _⟩ => rfl)

/-- The neighbour product's right operand is read at (k, j). -/
theorem ridx59_ix2 (n : Fin 100000) (j : Fin 64) (k : Fin 128) : ridx_main_v59 (ix2 n j) k = ix2 k j :=
  funext fun a => Fin.ext (by match a with | ⟨0, _⟩ => rfl | ⟨1, _⟩ => rfl)

/-- The first bias row at (n, j) is the vector's entry j. -/
theorem idx61_62_ix2 (n : Fin 100000) (j : Fin 64) : idx_main_v61 (idx_main_v62 (ix2 n j)) = ix1 j :=
  funext fun a => Fin.ext (by match a with | ⟨0, _⟩ => rfl)

/-- The second bias row at (n, j) is the vector's entry j. -/
theorem idx64_65_ix2 (n : Fin 100000) (j : Fin 64) : idx_main_v64 (idx_main_v65 (ix2 n j)) = ix1 j :=
  funext fun a => Fin.ext (by match a with | ⟨0, _⟩ => rfl)

/-! ## The gates and the reset state -/

/-- The reset slice of the gate at (n, k) is the cell's reset gate. -/
theorem reset_apply (n : Fin 100000) (k : Fin 64) :
    val_main_v35 (F := Ideal) (a0 m c) (a1 m c) (a2 m c) (a3 m c) (a4 m c) (a5 m c) (a6 m c) (a10 m c) (ix2 n k)
      = Cert.Gru.rGate (inp m c) (st m c) (sidx m c) (didx m c) (dmax m c) (Wgs m c) (Wgn m c) (bg m c) (gb m c) n k := by
  rw [val_main_v35_apply, idx35_ix2, RefGate.gate_apply]
  rfl

/-- The update slice of the gate at (n, k) is the cell's update gate. -/
theorem update_apply (n : Fin 100000) (k : Fin 64) :
    val_main_v36 (F := Ideal) (a0 m c) (a1 m c) (a2 m c) (a3 m c) (a4 m c) (a5 m c) (a6 m c) (a10 m c) (ix2 n k)
      = Cert.Gru.uGate (inp m c) (st m c) (sidx m c) (didx m c) (dmax m c) (Wgs m c) (Wgn m c) (bg m c) (gb m c) n k := by
  rw [val_main_v36_apply, idx36_ix2, RefGate.gate_apply]
  rfl

/-- The reset gate times the state at (n, k) is the cell's reset state. -/
theorem rs_apply (n : Fin 100000) (k : Fin 64) :
    val_main_v37 (F := Ideal) (a0 m c) (a1 m c) (a2 m c) (a3 m c) (a4 m c) (a5 m c) (a6 m c) (a10 m c) (ix2 n k)
      = Cert.Gru.rsArr (inp m c) (st m c) (sidx m c) (didx m c) (dmax m c) (Wgs m c) (Wgn m c) (bg m c) (gb m c) n k := by
  rw [val_main_v37_apply, reset_apply]
  rfl

/-- The reset state as an array of rows. -/
theorem rs_rows :
    (fun (n : Fin 100000) (k : Fin 64) => val_main_v37 (F := Ideal) (a0 m c) (a1 m c) (a2 m c) (a3 m c) (a4 m c) (a5 m c) (a6 m c) (a10 m c) (ix2 n k))
      = Cert.Gru.rsArr (inp m c) (st m c) (sidx m c) (didx m c) (dmax m c) (Wgs m c) (Wgn m c) (bg m c) (gb m c) :=
  funext fun n => funext fun k => rs_apply m c n k

/-! ## The candidate layer -/

/-- The second mean aggregate is the mean aggregate of the joined [input, reset state] rows. -/
theorem mean2_eq :
    val_main_v58 (F := Ideal) (a0 m c) (a1 m c) (a2 m c) (a3 m c) (a4 m c) (a5 m c) (a6 m c) (a10 m c)
      = RefAgg.meanCat (a0 m c) (val_main_v37 (F := Ideal) (a0 m c) (a1 m c) (a2 m c) (a3 m c) (a4 m c) (a5 m c) (a6 m c) (a10 m c)) (sidx m c) (didx m c) (dvec m c) := by
  unfold RefAgg.meanCat val_main_v58 val_main_v49 val_main_v57 val_main_v56 val_main_v46 val_main_v47 val_main_cst_8 val_main_v38
  rw [RefGate.v48_eq, RefGate.v45_eq, RefGate.v55_eq]

/-- The self product at (n, j): the 128-term sum splits into the input's and the reset state's 64-term sums. -/
theorem self_apply (n : Fin 100000) (j : Fin 64) :
    val_main_v39 (F := Ideal) (a0 m c) (a1 m c) (a2 m c) (a3 m c) (a4 m c) (a5 m c) (a6 m c) (a7 m c) (a10 m c) (ix2 n j)
      = (∑ k : Fin 64, inp m c n k * lo (Wcs m c) k j)
        + ∑ k : Fin 64, Cert.Gru.rsArr (inp m c) (st m c) (sidx m c) (didx m c) (dmax m c) (Wgs m c) (Wgn m c) (bg m c) (gb m c) n k * hi (Wcs m c) k j := by
  rw [val_main_v39_apply]
  refine (sum_split _).trans ?_
  refine congrArg₂ (· + ·) ?_ ?_
  · refine Finset.sum_congr rfl fun k _ => ?_
    rw [lidx39_ix2, ridx39_ix2]
    unfold val_main_v38
    rw [RefAgg.cat_lo]
    rfl
  · refine Finset.sum_congr rfl fun k _ => ?_
    rw [lidx39_ix2, ridx39_ix2]
    unfold val_main_v38
    rw [RefAgg.cat_hi, rs_apply]
    rfl

/-- The neighbour product at (n, j): the 128-term sum splits into the two aggregates' 64-term sums. -/
theorem nbr_apply (n : Fin 100000) (j : Fin 64) :
    val_main_v59 (F := Ideal) (a0 m c) (a1 m c) (a2 m c) (a3 m c) (a4 m c) (a5 m c) (a6 m c) (a8 m c) (a10 m c) (ix2 n j)
      = (∑ k : Fin 64, agg (sidx m c) (didx m c) (dmax m c) (inp m c) n k * lo (Wcn m c) k j)
        + ∑ k : Fin 64, agg (sidx m c) (didx m c) (dmax m c) (Cert.Gru.rsArr (inp m c) (st m c) (sidx m c) (didx m c) (dmax m c) (Wgs m c) (Wgn m c) (bg m c) (gb m c)) n k * hi (Wcn m c) k j := by
  have hd := RefGate.dvec_ne m c
  have hdm : (fun n : Fin 100000 => dvec m c (ix1 n)) = dmax m c := funext (RefGate.dvec_apply m c)
  rw [val_main_v59_apply, mean2_eq]
  refine (sum_split _).trans ?_
  refine congrArg₂ (· + ·) ?_ ?_
  · refine Finset.sum_congr rfl fun k _ => ?_
    rw [lidx59_ix2, ridx59_ix2, RefAgg.meanCat_lo _ _ _ _ _ hd, hdm]
    rfl
  · refine Finset.sum_congr rfl fun k _ => ?_
    rw [lidx59_ix2, ridx59_ix2, RefAgg.meanCat_hi _ _ _ _ _ hd, hdm, rs_rows]
    rfl

/-- The candidate's pre-activation at (n, j) is the cell's dense layer over [input, reset state] and their aggregates. -/
theorem pre_apply (n : Fin 100000) (j : Fin 64) :
    val_main_v66 (F := Ideal) (a0 m c) (a1 m c) (a2 m c) (a3 m c) (a4 m c) (a5 m c) (a6 m c) (a7 m c) (a8 m c) (a9 m c) (a10 m c) (a11 m c) (ix2 n j)
      = lin4 (inp m c n) (Cert.Gru.rsArr (inp m c) (st m c) (sidx m c) (didx m c) (dmax m c) (Wgs m c) (Wgn m c) (bg m c) (gb m c) n)
          (agg (sidx m c) (didx m c) (dmax m c) (inp m c) n)
          (agg (sidx m c) (didx m c) (dmax m c) (Cert.Gru.rsArr (inp m c) (st m c) (sidx m c) (didx m c) (dmax m c) (Wgs m c) (Wgn m c) (bg m c) (gb m c)) n)
          (lo (Wcs m c)) (hi (Wcs m c)) (lo (Wcn m c)) (hi (Wcn m c)) (fun j => bc m c j + cb m c j) j := by
  rw [val_main_v66_apply, val_main_v63_apply, val_main_v60_apply, self_apply, nbr_apply,
    val_main_v65_apply, val_main_v64_apply, val_main_v62_apply, val_main_v61_apply, idx61_62_ix2, idx64_65_ix2]
  unfold lin4
  simp only [Ideal.addf_def, add_assoc]
  rfl

/-- The candidate at (n, j). -/
theorem cand_apply (n : Fin 100000) (j : Fin 64) :
    val_main_v67 (F := Ideal) (a0 m c) (a1 m c) (a2 m c) (a3 m c) (a4 m c) (a5 m c) (a6 m c) (a7 m c) (a8 m c) (a9 m c) (a10 m c) (a11 m c) (ix2 n j)
      = Cert.Gru.cand (inp m c) (st m c) (sidx m c) (didx m c) (dmax m c) (Wgs m c) (Wgn m c) (bg m c) (gb m c) (Wcs m c) (Wcn m c) (bc m c) (cb m c) n j := by
  rw [val_main_v67_apply, pre_apply]
  rfl

/-- THE RESULT: the reference's result array at (n, j) is the cell's new state. -/
theorem result (n : Fin 100000) (j : Fin 64) :
    (Cert.ReferenceIdeal.Value.res_main_v72 (F := Ideal) m c : S100000x64.Idx → EReal) (ix2 n j) = Cert.Gru.R.out m c n j := by
  rw [val_main_v72_eq, val_main_v72_apply, val_main_v68_apply, val_main_v71_apply, val_main_v70_apply,
    update_apply, cand_apply, val_main_v69_apply, val_main_cst_12_apply]
  rfl

end Cert.Gru.RefOut

end
-- ==== Proof.Agree.lean ====
/-
  The two programs read one cell.

  When the reference's launch memory agrees with the kernel's on the twelve argument buffers, the arguments as the
  reference reads them — the node arrays, the weights and biases, the two index columns, the degree count — are the
  arguments as the kernel reads them, so the cell's new state computed from either is the same number.
-/
import proofs.«108189_j27101243638400_1_alg».proof.Proof.KArgs
import proofs.«108189_j27101243638400_1_alg».proof.Proof.RArgs

noncomputable section

open Idealize.ShloMosaic Idealize.ShloMosaic.TcCoe Idealize.SL.Sem Idealize.ShloMosaic.ValueIdx

namespace Cert.Gru

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

theorem inp_agree (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) : R.inp m' c = K.inp m c := by
  funext n k; unfold R.inp K.inp R.a0; rw [h0]
theorem st_agree (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) : R.st m' c = K.st m c := by
  funext n k; unfold R.st K.st R.a1; rw [h1]
theorem sidx_agree (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) : R.sidx m' c = K.sidx m c := by
  unfold R.sidx K.sidx R.a2; rw [h2]
theorem didx_agree (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) : R.didx m' c = K.didx m c := by
  unfold R.didx K.didx R.a3; rw [h3]
theorem Wgs_agree (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) : R.Wgs m' c = K.Wgs m c := by
  funext k j; unfold R.Wgs K.Wgs R.a4; rw [h4]
theorem Wgn_agree (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) : R.Wgn m' c = K.Wgn m c := by
  funext k j; unfold R.Wgn K.Wgn R.a5; rw [h5]
theorem bg_agree (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) : R.bg m' c = K.bg m c := by
  funext j; unfold R.bg K.bg R.a6; rw [h6]
theorem Wcs_agree (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) : R.Wcs m' c = K.Wcs m c := by
  funext k j; unfold R.Wcs K.Wcs R.a7; rw [h7]
theorem Wcn_agree (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) : R.Wcn m' c = K.Wcn m c := by
  funext k j; unfold R.Wcn K.Wcn R.a8; rw [h8]
theorem bc_agree (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) : R.bc m' c = K.bc m c := by
  funext j; unfold R.bc K.bc R.a9; rw [h9]
theorem gb_agree (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) : R.gb m' c = K.gb m c := by
  funext j; unfold R.gb K.gb R.a10; rw [h10]
theorem cb_agree (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) : R.cb m' c = K.cb m c := by
  funext j; unfold R.cb K.cb R.a11; rw [h11]

/-- The degree count depends on the destination column only. -/
theorem dmax_agree (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) : R.dmax m' c = K.dmax m c := by
  funext n; unfold R.dmax K.dmax R.deg K.deg; rw [didx_agree m m' c h3]; rfl

/-- The new state computed from the reference's reading of the arguments is the one computed from the kernel's. -/
theorem out_agree (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (n : Fin 100000) (j : Fin 64) : R.out m' c n j = K.out m c n j := by
  unfold R.out K.out
  rw [inp_agree m m' c h0, st_agree m m' c h1, sidx_agree m m' c h2, didx_agree m m' c h3, dmax_agree m m' c h3,
    Wgs_agree m m' c h4, Wgn_agree m m' c h5, bg_agree m m' c h6, gb_agree m m' c h10,
    Wcs_agree m m' c h7, Wcn_agree m m' c h8, bc_agree m m' c h9, cb_agree m m' c h11]

end Cert.Gru

end
-- ==== Proof.lean ====
/-
  A graph-convolutional GRU cell: the kernel program against its reference, over the extended reals.

  Both programs count each node's in-degree, gather node rows at the edges' sources and add them up by destination.
  The kernel program keeps the input, the state and the reset state as separate 64-wide arrays: it aggregates each by
  the neighbour sum times the reciprocal 1 / max(degree, 1), and its two kernel calls compute, block of 2000 rows by
  block, the gate (the logistic function of four 64-term products with the halves of the two gate weight matrices plus
  the sum of the two bias vectors) and then the candidate (tanh of the same layer shape) and the blend
  u * state + (1 - u) * candidate. The reference joins input and state into 128-wide rows, aggregates the joined rows by
  the neighbour sum divided by max(degree, 1), and multiplies by the whole 128-row matrices, adding the two bias vectors
  one after the other.
  The two agree entry by entry on every input, with no appeal to finiteness: a joined row gathered and summed is the
  two rows gathered and summed, a 128-term sum splits at term 64, sums re-associate in the commutative monoid of the
  extended reals, the quotient by max(degree, 1) — never zero — is the product with its reciprocal, and the logistic
  function is 1 / (1 + e^(-x)) on both sides. Changes of float format are the identity here.

  The three frames: the kernel programs' are the generated frame certificates; the reference's is its generated run
  with the result dropped. The idealization rewrote nothing, so its claim is trivial. For the value claim the kernel
  program's run is taken with its result buffer named (the launch called again, KernelRun), the buffer read at an index
  (KernelValue, over the two regions and the two host stretches), the reference's result read at an index (RefOut), and
  the two readings of the arguments identified (Agree).
-/
import proofs.«108189_j27101243638400_1_alg».proof.Defs
import proofs.«108189_j27101243638400_1_alg».proof.Proof.Gen.Kernel
import proofs.«108189_j27101243638400_1_alg».proof.Proof.Gen.Kernel.Frame
import proofs.«108189_j27101243638400_1_alg».proof.Proof.Gen.KernelIdeal
import proofs.«108189_j27101243638400_1_alg».proof.Proof.Gen.KernelIdeal.Frame
import proofs.«108189_j27101243638400_1_alg».proof.Proof.Gen.ReferenceIdeal
import proofs.«108189_j27101243638400_1_alg».proof.Proof.Gen.ReferenceIdeal.Run
import proofs.«108189_j27101243638400_1_alg».proof.Proof.Gen.Pre_finite_inputs
import proofs.«108189_j27101243638400_1_alg».proof.Proof.KernelRun
import proofs.«108189_j27101243638400_1_alg».proof.Proof.KernelValue
import proofs.«108189_j27101243638400_1_alg».proof.Proof.RefOut
import proofs.«108189_j27101243638400_1_alg».proof.Proof.Agree
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the cell's new state of the shared arguments in their result buffers: the kernel program's
    result is taken as the common value, and the reference's result equals it index by index. -/
theorem algebraic : Cert.algebraic_KernelIdeal_ReferenceIdeal := by
  intro m ρ m' ρ' _ hagree
  refine ⟨fun c => Cert.KernelIdeal.Gen.W4 (F := Ideal) m ρ c (Proc.devRef .tc Cert.KernelIdeal.main_v58),
    Cert.KernelIdeal.GenRun.run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11⟩ := hagree c
  show (Cert.ReferenceIdeal.Value.res_main_v72 (F := Ideal) m' c : Cert.ReferenceIdeal.S100000x64.Idx → EReal)
    = (Cert.KernelIdeal.Gen.W4 (F := Ideal) m ρ c (Proc.devRef .tc Cert.KernelIdeal.main_v58) : Cert.KernelIdeal.S100000x64.Idx → EReal)
  funext i
  obtain ⟨n, j, rfl⟩ : ∃ (n : Fin 100000) (j : Fin 64), i = ix2 n j := ⟨i 0, i 1, eq_ix2 i⟩
  exact (Cert.Gru.RefOut.result m' c n j).trans
    ((Cert.Gru.out_agree m m' c h0 h1 h2 h3 h4 h5 h6 h7 h8 h9 h10 h11 n j).trans
      (Cert.Gru.KernelValue.result m ρ c n j).symm)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
